-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S1000000 : Shape := ⟨1, ![1000000]⟩
abbrev S50000 : Shape := ⟨1, ![50000]⟩
abbrev S100000x200 : Shape := ⟨2, ![100000, 200]⟩
abbrev S1000x1x200x2 : Shape := ⟨4, ![1000, 1, 200, 2]⟩
abbrev S600x200 : Shape := ⟨2, ![600, 200]⟩
abbrev S600 : Shape := ⟨1, ![600]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S1000x1x200x2 : S_.BroadcastsInDim S1000x1x200x2 (![] : Fin 0 → Fin S1000x1x200x2.rank)
  reducesTo_S1000x1x200x2_S_d0_1_2_3 : S1000x1x200x2.ReducesTo [0, 1, 2, 3] S_
  bcast_S_S600x200 : S_.BroadcastsInDim S600x200 (![] : Fin 0 → Fin S600x200.rank)
  reducesTo_S600x200_S_d0_1 : S600x200.ReducesTo [0, 1] S_
  bcast_S_S600 : S_.BroadcastsInDim S600 (![] : Fin 0 → Fin S600.rank)
  reducesTo_S600_S_d0 : S600.ReducesTo [0] S_

variable [Facts]

def fn_part1 {F : FTy → Type} [FloatOps F] (main_arg7 : FVec F S600 .f32) (main_arg8 : FVec F S600 .f32) (main_v13 : IVec S_ 1) (main_v16 : IVec S600x200 1) : IVec S_ 1 :=
  let main_c_5 : IVec S_ 1 := constantI S_ 1 1#1
  let main_v17 : IVec S_ 1 := (fun x v => Host.reduce IntOp.andi x v reducesTo_S600x200_S_d0_1 h_S_) main_v16 main_c_5
  let main_v18 : IVec S_ 1 := andi main_v13 main_v17
  let main_v19 : FVec F S600 .f32 := Host.absf main_arg7
  let main_cst_6 : FVec F S_ .f32 := constant S_ .f32 0x7F800000#32
  let main_v20 : FVec F S600 .f32 := broadcastInDim S600 ![] bcast_S_S600 main_cst_6
  let main_v21 : IVec S600 1 := cmpf .olt main_v19 main_v20
  let main_c_7 : IVec S_ 1 := constantI S_ 1 1#1
  let main_v22 : IVec S_ 1 := (fun x v => Host.reduce IntOp.andi x v reducesTo_S600_S_d0 h_S_) main_v21 main_c_7
  let main_v23 : IVec S_ 1 := andi main_v18 main_v22
  let main_v24 : FVec F S600 .f32 := Host.absf main_arg8
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  main_v28

def fn {F : FTy → Type} [FloatOps F] (main_arg0 : IVec S2x1000000 32) (main_arg1 : IVec S1000000 32) (main_arg2 : IVec S50000 32) (main_arg3 : FVec F S100000x200 .f32) (main_arg4 : FVec F S1000x1x200x2 .f32) (main_arg5 : FVec F S600x200 .f32) (main_arg6 : FVec F S600x200 .f32) (main_arg7 : FVec F S600 .f32) (main_arg8 : FVec F S600 .f32) : IVec S_ 1 :=
  let main_v0 : FVec F S100000x200 .f32 := Host.absf main_arg3
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S1000x1x200x2 .f32 := Host.absf main_arg4
  let main_cst_0 : FVec F S_ .f32 := constant S_ .f32 0x7F800000#32
  let main_v5 : FVec F S1000x1x200x2 .f32 := broadcastInDim S1000x1x200x2 ![] bcast_S_S1000x1x200x2 main_cst_0
  let main_v6 : IVec S1000x1x200x2 1 := cmpf .olt main_v4 main_v5
  let main_c_1 : IVec S_ 1 := constantI S_ 1 1#1
  let main_v7 : IVec S_ 1 := (fun x v => Host.reduce IntOp.andi x v reducesTo_S1000x1x200x2_S_d0_1_2_3 h_S_) main_v6 main_c_1
  let main_v8 : IVec S_ 1 := andi main_v3 main_v7
  let main_v9 : FVec F S600x200 .f32 := Host.absf main_arg5
  let main_cst_2 : FVec F S_ .f32 := constant S_ .f32 0x7F800000#32
  let main_v10 : FVec F S600x200 .f32 := broadcastInDim S600x200 ![] bcast_S_S600x200 main_cst_2
  let main_v11 : IVec S600x200 1 := cmpf .olt main_v9 main_v10
  let main_c_3 : IVec S_ 1 := constantI S_ 1 1#1
  let main_v12 : IVec S_ 1 := (fun x v => Host.reduce IntOp.andi x v reducesTo_S600x200_S_d0_1 h_S_) main_v11 main_c_3
  let main_v13 : IVec S_ 1 := andi main_v8 main_v12
  let main_v14 : FVec F S600x200 .f32 := Host.absf main_arg6
  let main_cst_4 : FVec F S_ .f32 := constant S_ .f32 0x7F800000#32
  let main_v15 : FVec F S600x200 .f32 := broadcastInDim S600x200 ![] bcast_S_S600x200 main_cst_4
  let main_v16 : IVec S600x200 1 := cmpf .olt main_v14 main_v15
  fn_part1 (F := F) main_arg7 main_arg8 main_v13 main_v16
-- ==== Kernel.lean ====
abbrev S2x1000000 : Shape := ⟨2, ![2, 1000000]⟩
abbrev S1000000 : Shape := ⟨1, ![1000000]⟩
abbrev S50000 : Shape := ⟨1, ![50000]⟩
abbrev S100000x200 : Shape := ⟨2, ![100000, 200]⟩
abbrev S1000x1x200x2 : Shape := ⟨4, ![1000, 1, 200, 2]⟩
abbrev S600x200 : Shape := ⟨2, ![600, 200]⟩
abbrev S600 : Shape := ⟨1, ![600]⟩
abbrev S1x1000000 : Shape := ⟨2, ![1, 1000000]⟩
abbrev S_ : Shape := ⟨0, ![]⟩
abbrev S1000000x1 : Shape := ⟨2, ![1000000, 1]⟩
abbrev S1000000x200 : Shape := ⟨2, ![1000000, 200]⟩
abbrev S2x1024x200 : Shape := ⟨3, ![2, 1024, 200]⟩
abbrev S2x1x1024 : Shape := ⟨3, ![2, 1, 1024]⟩
abbrev S2000x200 : Shape := ⟨2, ![2000, 200]⟩
abbrev S2000x1 : Shape := ⟨2, ![2000, 1]⟩
abbrev S1x1024x200 : Shape := ⟨3, ![1, 1024, 200]⟩
abbrev S1x1x1024 : Shape := ⟨3, ![1, 1, 1024]⟩
abbrev S1024x200 : Shape := ⟨2, ![1024, 200]⟩
abbrev S1x1024 : Shape := ⟨2, ![1, 1024]⟩
abbrev S2000x1024 : Shape := ⟨2, ![2000, 1024]⟩
abbrev S1024 : Shape := ⟨1, ![1024]⟩
abbrev S1024x1 : Shape := ⟨2, ![1024, 1]⟩
abbrev S1000x200 : Shape := ⟨2, ![1000, 200]⟩
abbrev S1000x1 : Shape := ⟨2, ![1000, 1]⟩
abbrev S1000x1x200x1 : Shape := ⟨4, ![1000, 1, 200, 1]⟩
abbrev S200x600 : Shape := ⟨2, ![200, 600]⟩
abbrev S1000x600 : Shape := ⟨2, ![1000, 600]⟩
abbrev S1x600 : Shape := ⟨2, ![1, 600]⟩
abbrev S1000x200x1 : Shape := ⟨3, ![1000, 200, 1]⟩
abbrev S1000x200x2 : Shape := ⟨3, ![1000, 200, 2]⟩

abbrev nBuf : Space → Nat
  | .hbm => 184
  | .vmem => 15
  | .smem => 0
  | _ => 0

abbrev hbmTy0_0 (i : Nat) : BufTy := match i % 128 with
  | 0 => ⟨S2x1000000, .i32⟩
  | 1 => ⟨S1000000, .i32⟩
  | 2 => ⟨S50000, .i32⟩
  | 3 => ⟨S100000x200, .f32⟩
  | 4 => ⟨S1000x1x200x2, .f32⟩
  | 5 => ⟨S600x200, .f32⟩
  | 6 => ⟨S600x200, .f32⟩
  | 7 => ⟨S600, .f32⟩
  | 8 => ⟨S600, .f32⟩
  | 9 => ⟨S100000x200, .bf16⟩
  | 10 => ⟨S1x1000000, .i32⟩
  | 11 => ⟨S1000000, .i32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000, .i32⟩
  | 21 => ⟨S1x1000000, .i32⟩
  | 22 => ⟨S1000000, .i32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x200, .bf16⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x200, .bf16⟩
  | 50 => ⟨S1000000x1, .i32⟩
  | 51 => ⟨S2x1024x200, .f32⟩
  | 52 => ⟨S2x1024x200, .f32⟩
  | 53 => ⟨S2x1x1024, .f32⟩
  | 54 => ⟨S_, .f32⟩
  | 55 => ⟨S1024x200, .f32⟩
  | 56 => ⟨S_, .f32⟩
  | 57 => ⟨S1024x200, .f32⟩
  | 58 => ⟨S_, .f32⟩
  | 59 => ⟨S1x1024, .f32⟩
  | 60 => ⟨S1024x1, .f32⟩
  | 61 => ⟨S1000x200, .f32⟩
  | 62 => ⟨S1000x200, .f32⟩
  | 63 => ⟨S1000x1, .f32⟩
  | 64 => ⟨S_, .f32⟩
  | 65 => ⟨S1000x1, .f32⟩
  | 66 => ⟨S1000x1, .i1⟩
  | 67 => ⟨S_, .f32⟩
  | 68 => ⟨S1000x1, .f32⟩
  | 69 => ⟨S1000x1, .f32⟩
  | 70 => ⟨S1000x200, .f32⟩
  | 71 => ⟨S1000x200, .f32⟩
  | 72 => ⟨S_, .f32⟩
  | 73 => ⟨S_, .f32⟩
  | 74 => ⟨S1000x200, .i1⟩
  | 75 => ⟨S1000x200, .f32⟩
  | 76 => ⟨S1000x200, .f32⟩
  | 77 => ⟨S_, .f32⟩
  | 78 => ⟨S1000x1, .f32⟩
  | 79 => ⟨S1000x1, .i1⟩
  | 80 => ⟨S_, .f32⟩
  | 81 => ⟨S1000x1, .f32⟩
  | 82 => ⟨S1000x1, .f32⟩
  | 83 => ⟨S1000x200, .f32⟩
  | 84 => ⟨S1000x200, .f32⟩
  | 85 => ⟨S_, .f32⟩
  | 86 => ⟨S_, .f32⟩
  | 87 => ⟨S1000x200, .i1⟩
  | 88 => ⟨S1000x200, .f32⟩
  | 89 => ⟨S1000x200, .f32⟩
  | 90 => ⟨S1000x1x200x1, .f32⟩
  | 91 => ⟨S1000x200, .f32⟩
  | 92 => ⟨S1000x1x200x1, .f32⟩
  | 93 => ⟨S1000x200, .f32⟩
  | 94 => ⟨S200x600, .f32⟩
  | 95 => ⟨S1000x600, .f32⟩
  | 96 => ⟨S1x600, .f32⟩
  | 97 => ⟨S1000x600, .f32⟩
  | 98 => ⟨S1000x600, .f32⟩
  | 99 => ⟨S200x600, .f32⟩
  | 100 => ⟨S1000x600, .f32⟩
  | 101 => ⟨S1x600, .f32⟩
  | 102 => ⟨S1000x600, .f32⟩
  | 103 => ⟨S1000x600, .f32⟩
  | 104 => ⟨S1000x200, .f32⟩
  | 105 => ⟨S1000x200, .f32⟩
  | 106 => ⟨S1000x200, .f32⟩
  | 107 => ⟨S1000x200, .f32⟩
  | 108 => ⟨S1000x200, .f32⟩
  | 109 => ⟨S1000x200, .f32⟩
  | 110 => ⟨S1000x200, .f32⟩
  | 111 => ⟨S1000x200, .f32⟩
  | 112 => ⟨S1000x200, .f32⟩
  | 113 => ⟨S_, .f32⟩
  | 114 => ⟨S1000x200, .f32⟩
  | 115 => ⟨S1000x200, .f32⟩
  | 116 => ⟨S_, .f32⟩
  | 117 => ⟨S1000x200, .f32⟩
  | 118 => ⟨S1000x200, .f32⟩
  | 119 => ⟨S1000x200, .f32⟩
  | 120 => ⟨S1000x200, .f32⟩
  | 121 => ⟨S1000x200, .f32⟩
  | 122 => ⟨S_, .f32⟩
  | 123 => ⟨S1000x200, .f32⟩
  | 124 => ⟨S1000x200, .f32⟩
  | 125 => ⟨S_, .f32⟩
  | 126 => ⟨S1000x200, .f32⟩
  | 127 => ⟨S1000x200, .f32⟩
  | _ => ⟨S2x1000000, .i32⟩

abbrev hbmTy0_1 (i : Nat) : BufTy := match i % 128 with
  | 0 => ⟨S1000x200, .f32⟩
  | 1 => ⟨S1000x200, .f32⟩
  | 2 => ⟨S1000x200, .f32⟩
  | 3 => ⟨S_, .f32⟩
  | 4 => ⟨S1000x200, .f32⟩
  | 5 => ⟨S1000x200, .f32⟩
  | 6 => ⟨S1000x200, .f32⟩
  | 7 => ⟨S1000x200, .f32⟩
  | 8 => ⟨S1000x200, .f32⟩
  | 9 => ⟨S200x600, .f32⟩
  | 10 => ⟨S1000x600, .f32⟩
  | 11 => ⟨S1x600, .f32⟩
  | 12 => ⟨S1000x600, .f32⟩
  | 13 => ⟨S1000x600, .f32⟩
  | 14 => ⟨S200x600, .f32⟩
  | 15 => ⟨S1000x600, .f32⟩
  | 16 => ⟨S1x600, .f32⟩
  | 17 => ⟨S1000x600, .f32⟩
  | 18 => ⟨S1000x600, .f32⟩
  | 19 => ⟨S1000x200, .f32⟩
  | 20 => ⟨S1000x200, .f32⟩
  | 21 => ⟨S1000x200, .f32⟩
  | 22 => ⟨S1000x200, .f32⟩
  | 23 => ⟨S1000x200, .f32⟩
  | 24 => ⟨S1000x200, .f32⟩
  | 25 => ⟨S1000x200, .f32⟩
  | 26 => ⟨S1000x200, .f32⟩
  | 27 => ⟨S1000x200, .f32⟩
  | 28 => ⟨S_, .f32⟩
  | 29 => ⟨S1000x200, .f32⟩
  | 30 => ⟨S1000x200, .f32⟩
  | 31 => ⟨S_, .f32⟩
  | 32 => ⟨S1000x200, .f32⟩
  | 33 => ⟨S1000x200, .f32⟩
  | 34 => ⟨S1000x200, .f32⟩
  | 35 => ⟨S1000x200, .f32⟩
  | 36 => ⟨S1000x200, .f32⟩
  | 37 => ⟨S_, .f32⟩
  | 38 => ⟨S1000x200, .f32⟩
  | 39 => ⟨S1000x200, .f32⟩
  | 40 => ⟨S_, .f32⟩
  | 41 => ⟨S1000x200, .f32⟩
  | 42 => ⟨S1000x200, .f32⟩
  | 43 => ⟨S1000x200, .f32⟩
  | 44 => ⟨S1000x200, .f32⟩
  | 45 => ⟨S1000x200, .f32⟩
  | 46 => ⟨S_, .f32⟩
  | 47 => ⟨S1000x200, .f32⟩
  | 48 => ⟨S1000x200, .f32⟩
  | 49 => ⟨S1000x200, .f32⟩
  | 50 => ⟨S1000x200, .f32⟩
  | 51 => ⟨S1000x200, .f32⟩
  | 52 => ⟨S1000x200x1, .f32⟩
  | 53 => ⟨S1000x200x1, .f32⟩
  | 54 => ⟨S1000x200x2, .f32⟩
  | 55 => ⟨S1000x1x200x2, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | .local _ .vmem, ⟨0, _⟩ => ⟨S2000x200, .bf16⟩
  | .local _ .vmem, ⟨1, _⟩ => ⟨S2000x200, .bf16⟩
  | .local _ .vmem, ⟨2, _⟩ => ⟨S2000x200, .bf16⟩
  | .local _ .vmem, ⟨3, _⟩ => ⟨S2000x200, .bf16⟩
  | .local _ .vmem, ⟨4, _⟩ => ⟨S2000x1, .i32⟩
  | .local _ .vmem, ⟨5, _⟩ => ⟨S2000x1, .i32⟩
  | .local _ .vmem, ⟨6, _⟩ => ⟨S1x1024x200, .f32⟩
  | .local _ .vmem, ⟨7, _⟩ => ⟨S1x1024x200, .f32⟩
  | .local _ .vmem, ⟨8, _⟩ => ⟨S1x1024x200, .f32⟩
  | .local _ .vmem, ⟨9, _⟩ => ⟨S1x1024x200, .f32⟩
  | .local _ .vmem, ⟨10, _⟩ => ⟨S1x1x1024, .f32⟩
  | .local _ .vmem, ⟨11, _⟩ => ⟨S1x1x1024, .f32⟩
  | .local _ .vmem, ⟨12, _⟩ => ⟨S1024x200, .f32⟩
  | .local _ .vmem, ⟨13, _⟩ => ⟨S1024x200, .f32⟩
  | .local _ .vmem, ⟨14, _⟩ => ⟨S1x1024, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev main_cst : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_20 : Ref sig .tc := ⟨.hbm, 156, rfl⟩
abbrev main_v117 : Ref sig .tc := ⟨.hbm, 157, rfl⟩
abbrev main_v118 : Ref sig .tc := ⟨.hbm, 158, rfl⟩
abbrev main_cst_21 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_24 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 250], ![false, false]⟩

def k0_cond2 (i : grid0.Coords) : BitVec 1 :=
  let arg1 : BitVec 32 := BitVec.ofNat 32 (i 1).val
  let c249_i32 : BitVec 32 := 249#32
  let v36 : BitVec 1 := Scalar.cmpi .eq arg1 c249_i32
  let v37 : BitVec 32 := Scalar.extui v36
  let c0_i32_20 : BitVec 32 := 0#32
  let v38 : BitVec 1 := Scalar.cmpi .ne v37 c0_i32_20
  v38

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  shapeCasts_S1000000_S1000000x1 : S1000000.ShapeCasts S1000000x1
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  natLt_1_32 : 1 < 32
  inb_S2000x200_S2000x200_0_0 : ∀ a, (![0, 0] : Fin 2 → Nat) a + S2000x200.size a ≤ S2000x200.size a
  h_S2000x200 : 0 < S2000x200.numel
  shapeCasts_S2000x200_S2000x200 : S2000x200.ShapeCasts S2000x200
  reduces_S2000x1024_S1024 : S2000x1024.Reduces [0] S1024
  shapeCasts_S1024_S1x1024 : S1024.ShapeCasts S1x1024
  inb_S1x1024x200_S1x1024x200_0_0_0 : ∀ a, (![0, 0, 0] : Fin 3 → Nat) a + S1x1024x200.size a ≤ S1x1024x200.size a
  h_S1x1024x200 : 0 < S1x1024x200.numel
  shapeCasts_S1x1024x200_S1024x200 : S1x1024x200.ShapeCasts S1024x200
  shapeCasts_S1024x200_S1x1024x200 : S1024x200.ShapeCasts S1x1024x200
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  reducesTo_S2x1024x200_S1024x200_d0 : S2x1024x200.ReducesTo [0] S1024x200
  h_S_ : 0 < S_.numel
  reducesTo_S2x1x1024_S1x1024_d0 : S2x1x1024.ReducesTo [0] S1x1024
  shapeCasts_S1x1024_S1024x1 : S1x1024.ShapeCasts S1024x1
  slices_S1024x200_S1000x200_0_0 : S1024x200.Slices ![0, 0] S1000x200
  slices_S1024x1_S1000x1_0_0 : S1024x1.Slices ![0, 0] S1000x1
  bcast_S_S1000x1 : S_.BroadcastsInDim S1000x1 (![] : Fin 0 → Fin S1000x1.rank)
  bcast_S1000x1_S1000x200_0_1 : S1000x1.BroadcastsInDim S1000x200 (![0, 1] : Fin 2 → Fin S1000x200.rank)
  bcast_S_S1000x200 : S_.BroadcastsInDim S1000x200 (![] : Fin 0 → Fin S1000x200.rank)
  slices_S1000x1x200x2_S1000x1x200x1_0_0_0_0 : S1000x1x200x2.Slices ![0, 0, 0, 0] S1000x1x200x1
  shapeCasts_S1000x1x200x1_S1000x200 : S1000x1x200x1.ShapeCasts S1000x200
  slices_S1000x1x200x2_S1000x1x200x1_0_0_0_1 : S1000x1x200x2.Slices ![0, 0, 0, 1] S1000x1x200x1
  transposes_S600x200_S200x600_1_0 : S600x200.Transposes [1, 0] S200x600
  bcast_S600_S1x600_1 : S600.BroadcastsInDim S1x600 (![1] : Fin 1 → Fin S1x600.rank)
  bcast_S1x600_S1000x600_0_1 : S1x600.BroadcastsInDim S1000x600 (![0, 1] : Fin 2 → Fin S1000x600.rank)
  slices_S1000x600_S1000x200_0_0 : S1000x600.Slices ![0, 0] S1000x200
  slices_S1000x600_S1000x200_0_200 : S1000x600.Slices ![0, 200] S1000x200
  slices_S1000x600_S1000x200_0_400 : S1000x600.Slices ![0, 400] S1000x200
  bcast_S1000x200_S1000x200x1_0_1 : S1000x200.BroadcastsInDim S1000x200x1 (![0, 1] : Fin 2 → Fin S1000x200x1.rank)
  concatenates_S1000x200x1_S1000x200x1_S1000x200x2_d2 : Shape.Concatenates [S1000x200x1, S1000x200x1] S1000x200x2 2
  bcast_S1000x200x2_S1000x1x200x2_0_2_3 : S1000x200x2.BroadcastsInDim S1000x1x200x2 (![0, 2, 3] : Fin 3 → Fin S1000x1x200x2.rank)
  gather_S50000_S1000000x1_S1000000_n_0_n_n_0_1_1_wf : GatherDims.WF S50000 S1000000x1 S1000000 [] [0] [] [0] [] 1 ![1]
  gather_S100000x200_S1000000x1_S1000000x200_1_0_n_n_0_1_1200_wf : GatherDims.WF S100000x200 S1000000x1 S1000000x200 [1] [0] [] [0] [] 1 ![1, 200]
  dot_S2000x1024_S2000x200_S1024x200_0_0_1_1_n_n_wf : DotDims.WF S2000x1024 S2000x200 S1024x200 [0] [0] [1] [1] [] []
  dot_S1000x200_S200x600_S1000x600_1_0_0_1_n_n_wf : DotDims.WF S1000x200 S200x600 S1000x600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x200.size a ≤ S1000000x200.size a
  hwx0_0 : ∀ i : grid0.Coords, EltTy.bits .bf16 = 32 ∨ (Rect.block (s := S1000000x200) S2000x200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x200.size a ≤ S1000000x200.size a
  hwx0_1 : ∀ i : grid0.Coords, EltTy.bits .bf16 = 32 ∨ (Rect.block (s := S1000000x200) S2000x200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S1000000x1.size a
  hwx0_2 : ∀ i : grid0.Coords, EltTy.bits .i32 = 32 ∨ (Rect.block (s := S1000000x1) S2000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x200.size a ≤ S2x1024x200.size a
  hwx0_3 : ∀ i : grid0.Coords, EltTy.bits .f32 = 32 ∨ (Rect.block (s := S2x1024x200) S1x1024x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x200.size a ≤ S2x1024x200.size a
  hwx0_4 : ∀ i : grid0.Coords, EltTy.bits .f32 = 32 ∨ (Rect.block (s := S2x1024x200) S1x1024x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S2x1x1024.size a
  hwx0_5 : ∀ i : grid0.Coords, EltTy.bits .f32 = 32 ∨ (Rect.block (s := S2x1x1024) S1x1x1024.size (cc0_transform_5 i) (hinb0_5 i)).WholeWords (EltTy.packing .f32)

variable [Facts₀]

def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S100000x200_S1000000x1_S1000000x200_1_0_n_n_0_1_1200 : GatherDims S100000x200 S1000000x1 S1000000x200 where
  offsetDims := [1]
  collapsedSliceDims := [0]
  operandBatchingDims := []
  startIndicesBatchingDims := []
  startIndexMap := [0]
  indexVectorDim := 1
  sliceSizes := ![1, 200]
  wf := gather_S100000x200_S1000000x1_S1000000x200_1_0_n_n_0_1_1200_wf
def dot_S2000x1024_S2000x200_S1024x200_0_0_1_1_n_n : DotDims S2000x1024 S2000x200 S1024x200 where
  lhsContracting := [0]
  rhsContracting := [0]
  lhsNonContracting := [1]
  rhsNonContracting := [1]
  lhsBatch := []
  rhsBatch := []
  wf := dot_S2000x1024_S2000x200_S1024x200_0_0_1_1_n_n_wf
def dot_S1000x200_S200x600_S1000x600_1_0_0_1_n_n : DotDims S1000x200 S200x600 S1000x600 where
  lhsContracting := [1]
  rhsContracting := [0]
  lhsNonContracting := [0]
  rhsNonContracting := [1]
  lhsBatch := []
  rhsBatch := []
  wf := dot_S1000x200_S200x600_S1000x600_1_0_0_1_n_n_wf

abbrev win0_0 : Pipeline.Window sig grid0 :=
  Pipeline.Window.ofSpec (Memref.whole main_v25) S2000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2000x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34_0) S1x1024x200.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34_1) S1x1024x200.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_2) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x1000000 : Shape := ⟨2, ![2, 1000000]⟩
abbrev S1000000 : Shape := ⟨1, ![1000000]⟩
abbrev S50000 : Shape := ⟨1, ![50000]⟩
abbrev S100000x200 : Shape := ⟨2, ![100000, 200]⟩
abbrev S1000x1x200x2 : Shape := ⟨4, ![1000, 1, 200, 2]⟩
abbrev S600x200 : Shape := ⟨2, ![600, 200]⟩
abbrev S600 : Shape := ⟨1, ![600]⟩
abbrev S1x1000000 : Shape := ⟨2, ![1, 1000000]⟩
abbrev S_ : Shape := ⟨0, ![]⟩
abbrev S1000000x1 : Shape := ⟨2, ![1000000, 1]⟩
abbrev S1000000x200 : Shape := ⟨2, ![1000000, 200]⟩
abbrev S1000x200 : Shape := ⟨2, ![1000, 200]⟩
abbrev S1000x1 : Shape := ⟨2, ![1000, 1]⟩
abbrev S1000x1x200x1 : Shape := ⟨4, ![1000, 1, 200, 1]⟩
abbrev S200x600 : Shape := ⟨2, ![200, 600]⟩
abbrev S1000x600 : Shape := ⟨2, ![1000, 600]⟩
abbrev S1x600 : Shape := ⟨2, ![1, 600]⟩
abbrev S1000x200x1 : Shape := ⟨3, ![1000, 200, 1]⟩
abbrev S1000x200x2 : Shape := ⟨3, ![1000, 200, 2]⟩

abbrev nBuf : Space → Nat
  | .hbm => 189
  | .vmem => 0
  | .smem => 0
  | _ => 0

abbrev hbmTy0_0 (i : Nat) : BufTy := match i % 128 with
  | 0 => ⟨S2x1000000, .i32⟩
  | 1 => ⟨S1000000, .i32⟩
  | 2 => ⟨S50000, .i32⟩
  | 3 => ⟨S100000x200, .f32⟩
  | 4 => ⟨S1000x1x200x2, .f32⟩
  | 5 => ⟨S600x200, .f32⟩
  | 6 => ⟨S600x200, .f32⟩
  | 7 => ⟨S600, .f32⟩
  | 8 => ⟨S600, .f32⟩
  | 9 => ⟨S1x1000000, .i32⟩
  | 10 => ⟨S1000000, .i32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000, .i32⟩
  | 20 => ⟨S1x1000000, .i32⟩
  | 21 => ⟨S1000000, .i32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000, .i32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x200, .f32⟩
  | 40 => ⟨S_, .f32⟩
  | 41 => ⟨S1000x200, .f32⟩
  | 42 => ⟨S1000000x1, .i32⟩
  | 43 => ⟨S1000x200, .f32⟩
  | 44 => ⟨S_, .f32⟩
  | 45 => ⟨S1000000x1, .f32⟩
  | 46 => ⟨S_, .f32⟩
  | 47 => ⟨S1000x1, .f32⟩
  | 48 => ⟨S1000000x1, .i32⟩
  | 49 => ⟨S1000x1, .f32⟩
  | 50 => ⟨S_, .f32⟩
  | 51 => ⟨S1000x1, .f32⟩
  | 52 => ⟨S1000x1, .i1⟩
  | 53 => ⟨S_, .f32⟩
  | 54 => ⟨S1000x1, .f32⟩
  | 55 => ⟨S1000x1, .f32⟩
  | 56 => ⟨S1000x200, .f32⟩
  | 57 => ⟨S1000x200, .f32⟩
  | 58 => ⟨S_, .f32⟩
  | 59 => ⟨S_, .f32⟩
  | 60 => ⟨S1000x200, .i1⟩
  | 61 => ⟨S1000x200, .f32⟩
  | 62 => ⟨S1000x200, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x200, .f32⟩
  | 72 => ⟨S_, .f32⟩
  | 73 => ⟨S1000x200, .f32⟩
  | 74 => ⟨S1000000x1, .i32⟩
  | 75 => ⟨S1000x200, .f32⟩
  | 76 => ⟨S_, .f32⟩
  | 77 => ⟨S1000000x1, .f32⟩
  | 78 => ⟨S_, .f32⟩
  | 79 => ⟨S1000x1, .f32⟩
  | 80 => ⟨S1000000x1, .i32⟩
  | 81 => ⟨S1000x1, .f32⟩
  | 82 => ⟨S_, .f32⟩
  | 83 => ⟨S1000x1, .f32⟩
  | 84 => ⟨S1000x1, .i1⟩
  | 85 => ⟨S_, .f32⟩
  | 86 => ⟨S1000x1, .f32⟩
  | 87 => ⟨S1000x1, .f32⟩
  | 88 => ⟨S1000x200, .f32⟩
  | 89 => ⟨S1000x200, .f32⟩
  | 90 => ⟨S_, .f32⟩
  | 91 => ⟨S_, .f32⟩
  | 92 => ⟨S1000x200, .i1⟩
  | 93 => ⟨S1000x200, .f32⟩
  | 94 => ⟨S1000x200, .f32⟩
  | 95 => ⟨S1000x1x200x1, .f32⟩
  | 96 => ⟨S1000x200, .f32⟩
  | 97 => ⟨S1000x1x200x1, .f32⟩
  | 98 => ⟨S1000x200, .f32⟩
  | 99 => ⟨S200x600, .f32⟩
  | 100 => ⟨S1000x600, .f32⟩
  | 101 => ⟨S1x600, .f32⟩
  | 102 => ⟨S1000x600, .f32⟩
  | 103 => ⟨S1000x600, .f32⟩
  | 104 => ⟨S200x600, .f32⟩
  | 105 => ⟨S1000x600, .f32⟩
  | 106 => ⟨S1x600, .f32⟩
  | 107 => ⟨S1000x600, .f32⟩
  | 108 => ⟨S1000x600, .f32⟩
  | 109 => ⟨S1000x200, .f32⟩
  | 110 => ⟨S1000x200, .f32⟩
  | 111 => ⟨S1000x200, .f32⟩
  | 112 => ⟨S1000x200, .f32⟩
  | 113 => ⟨S1000x200, .f32⟩
  | 114 => ⟨S1000x200, .f32⟩
  | 115 => ⟨S1000x200, .f32⟩
  | 116 => ⟨S1000x200, .f32⟩
  | 117 => ⟨S1000x200, .f32⟩
  | 118 => ⟨S_, .f32⟩
  | 119 => ⟨S1000x200, .f32⟩
  | 120 => ⟨S1000x200, .f32⟩
  | 121 => ⟨S_, .f32⟩
  | 122 => ⟨S1000x200, .f32⟩
  | 123 => ⟨S1000x200, .f32⟩
  | 124 => ⟨S1000x200, .f32⟩
  | 125 => ⟨S1000x200, .f32⟩
  | 126 => ⟨S1000x200, .f32⟩
  | 127 => ⟨S_, .f32⟩
  | _ => ⟨S2x1000000, .i32⟩

abbrev hbmTy0_1 (i : Nat) : BufTy := match i % 128 with
  | 0 => ⟨S1000x200, .f32⟩
  | 1 => ⟨S1000x200, .f32⟩
  | 2 => ⟨S_, .f32⟩
  | 3 => ⟨S1000x200, .f32⟩
  | 4 => ⟨S1000x200, .f32⟩
  | 5 => ⟨S1000x200, .f32⟩
  | 6 => ⟨S1000x200, .f32⟩
  | 7 => ⟨S1000x200, .f32⟩
  | 8 => ⟨S_, .f32⟩
  | 9 => ⟨S1000x200, .f32⟩
  | 10 => ⟨S1000x200, .f32⟩
  | 11 => ⟨S1000x200, .f32⟩
  | 12 => ⟨S1000x200, .f32⟩
  | 13 => ⟨S1000x200, .f32⟩
  | 14 => ⟨S200x600, .f32⟩
  | 15 => ⟨S1000x600, .f32⟩
  | 16 => ⟨S1x600, .f32⟩
  | 17 => ⟨S1000x600, .f32⟩
  | 18 => ⟨S1000x600, .f32⟩
  | 19 => ⟨S200x600, .f32⟩
  | 20 => ⟨S1000x600, .f32⟩
  | 21 => ⟨S1x600, .f32⟩
  | 22 => ⟨S1000x600, .f32⟩
  | 23 => ⟨S1000x600, .f32⟩
  | 24 => ⟨S1000x200, .f32⟩
  | 25 => ⟨S1000x200, .f32⟩
  | 26 => ⟨S1000x200, .f32⟩
  | 27 => ⟨S1000x200, .f32⟩
  | 28 => ⟨S1000x200, .f32⟩
  | 29 => ⟨S1000x200, .f32⟩
  | 30 => ⟨S1000x200, .f32⟩
  | 31 => ⟨S1000x200, .f32⟩
  | 32 => ⟨S1000x200, .f32⟩
  | 33 => ⟨S_, .f32⟩
  | 34 => ⟨S1000x200, .f32⟩
  | 35 => ⟨S1000x200, .f32⟩
  | 36 => ⟨S_, .f32⟩
  | 37 => ⟨S1000x200, .f32⟩
  | 38 => ⟨S1000x200, .f32⟩
  | 39 => ⟨S1000x200, .f32⟩
  | 40 => ⟨S1000x200, .f32⟩
  | 41 => ⟨S1000x200, .f32⟩
  | 42 => ⟨S_, .f32⟩
  | 43 => ⟨S1000x200, .f32⟩
  | 44 => ⟨S1000x200, .f32⟩
  | 45 => ⟨S_, .f32⟩
  | 46 => ⟨S1000x200, .f32⟩
  | 47 => ⟨S1000x200, .f32⟩
  | 48 => ⟨S1000x200, .f32⟩
  | 49 => ⟨S1000x200, .f32⟩
  | 50 => ⟨S1000x200, .f32⟩
  | 51 => ⟨S_, .f32⟩
  | 52 => ⟨S1000x200, .f32⟩
  | 53 => ⟨S1000x200, .f32⟩
  | 54 => ⟨S1000x200, .f32⟩
  | 55 => ⟨S1000x200, .f32⟩
  | 56 => ⟨S1000x200, .f32⟩
  | 57 => ⟨S1000x200x1, .f32⟩
  | 58 => ⟨S1000x200x1, .f32⟩
  | 59 => ⟨S1000x200x2, .f32⟩
  | 60 => ⟨S1000x1x200x2, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_23 : Ref sig .tc := ⟨.hbm, 161, rfl⟩
abbrev main_v121 : Ref sig .tc := ⟨.hbm, 162, rfl⟩
abbrev main_v122 : Ref sig .tc := ⟨.hbm, 163, rfl⟩
abbrev main_cst_24 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_25 : Ref sig .tc := ⟨.hbm, 170, rfl⟩
abbrev main_v128 : Ref sig .tc := ⟨.hbm, 171, rfl⟩
abbrev main_v129 : Ref sig .tc := ⟨.hbm, 172, rfl⟩
abbrev main_cst_26 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_27 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S1000x200 : S_.BroadcastsInDim S1000x200 (![] : Fin 0 → Fin S1000x200.rank)
  bcast_S_S1000000x1 : S_.BroadcastsInDim S1000000x1 (![] : Fin 0 → Fin S1000000x1.rank)
  bcast_S_S1000x1 : S_.BroadcastsInDim S1000x1 (![] : Fin 0 → Fin S1000x1.rank)
  bcast_S1000x1_S1000x200_0_1 : S1000x1.BroadcastsInDim S1000x200 (![0, 1] : Fin 2 → Fin S1000x200.rank)
  slices_S1000x1x200x2_S1000x1x200x1_0_0_0_0 : S1000x1x200x2.Slices ![0, 0, 0, 0] S1000x1x200x1
  shapeCasts_S1000x1x200x1_S1000x200 : S1000x1x200x1.ShapeCasts S1000x200
  slices_S1000x1x200x2_S1000x1x200x1_0_0_0_1 : S1000x1x200x2.Slices ![0, 0, 0, 1] S1000x1x200x1
  transposes_S600x200_S200x600_1_0 : S600x200.Transposes [1, 0] S200x600
  bcast_S600_S1x600_1 : S600.BroadcastsInDim S1x600 (![1] : Fin 1 → Fin S1x600.rank)
  bcast_S1x600_S1000x600_0_1 : S1x600.BroadcastsInDim S1000x600 (![0, 1] : Fin 2 → Fin S1000x600.rank)
  slices_S1000x600_S1000x200_0_0 : S1000x600.Slices ![0, 0] S1000x200
  slices_S1000x600_S1000x200_0_200 : S1000x600.Slices ![0, 200] S1000x200
  slices_S1000x600_S1000x200_0_400 : S1000x600.Slices ![0, 400] S1000x200
  bcast_S1000x200_S1000x200x1_0_1 : S1000x200.BroadcastsInDim S1000x200x1 (![0, 1] : Fin 2 → Fin S1000x200x1.rank)
  concatenates_S1000x200x1_S1000x200x1_S1000x200x2_d2 : Shape.Concatenates [S1000x200x1, S1000x200x1] S1000x200x2 2
  bcast_S1000x200x2_S1000x1x200x2_0_2_3 : S1000x200x2.BroadcastsInDim S1000x1x200x2 (![0, 2, 3] : Fin 3 → Fin S1000x1x200x2.rank)
  gather_S50000_S1000000x1_S1000000_n_0_n_n_0_1_1_wf : GatherDims.WF S50000 S1000000x1 S1000000 [] [0] [] [0] [] 1 ![1]
  gather_S100000x200_S1000000x1_S1000000x200_1_0_n_n_0_1_1200_wf : GatherDims.WF S100000x200 S1000000x1 S1000000x200 [1] [0] [] [0] [] 1 ![1, 200]
  scatter_S1000x200_S1000000x1_S1000000x200_1_0_0_1_wf : ScatterDims.WF S1000x200 S1000000x1 S1000000x200 [1] [0] [0] 1
  scatter_S1000x1_S1000000x1_S1000000x1_1_0_0_1_wf : ScatterDims.WF S1000x1 S1000000x1 S1000000x1 [1] [0] [0] 1
  dot_S1000x200_S200x600_S1000x600_1_0_0_1_n_n_wf : DotDims.WF S1000x200 S200x600 S1000x600 [1] [0] [0] [1] [] []

variable [Facts₀]

def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S100000x200_S1000000x1_S1000000x200_1_0_n_n_0_1_1200 : GatherDims S100000x200 S1000000x1 S1000000x200 where
  offsetDims := [1]
  collapsedSliceDims := [0]
  operandBatchingDims := []
  startIndicesBatchingDims := []
  startIndexMap := [0]
  indexVectorDim := 1
  sliceSizes := ![1, 200]
  wf := gather_S100000x200_S1000000x1_S1000000x200_1_0_n_n_0_1_1200_wf
def scatter_S1000x200_S1000000x1_S1000000x200_1_0_0_1 : ScatterDims S1000x200 S1000000x1 S1000000x200 where
  updateWindowDims := [1]
  insertedWindowDims := [0]
  scatterDimsToOperandDims := [0]
  indexVectorDim := 1
  wf := scatter_S1000x200_S1000000x1_S1000000x200_1_0_0_1_wf
def scatter_S1000x1_S1000000x1_S1000000x1_1_0_0_1 : ScatterDims S1000x1 S1000000x1 S1000000x1 where
  updateWindowDims := [1]
  insertedWindowDims := [0]
  scatterDimsToOperandDims := [0]
  indexVectorDim := 1
  wf := scatter_S1000x1_S1000000x1_S1000000x1_1_0_0_1_wf
def dot_S1000x200_S200x600_S1000x600_1_0_0_1_n_n : DotDims S1000x200 S200x600 S1000x600 where
  lhsContracting := [1]
  rhsContracting := [0]
  lhsNonContracting := [0]
  rhsNonContracting := [1]
  lhsBatch := []
  rhsBatch := []
  wf := dot_S1000x200_S200x600_S1000x600_1_0_0_1_n_n_wf

class Facts : Prop extends Facts₀ where

variable [Facts]
-- ==== Proof.Kernel.Main.lean ====
/- @main AROUND its one region, over Lib/Pipeline/FrameSuffix.lean, for a program whose host lines after the region are
   FIVE stretches of host operations (130 operations in all): @main reduced to the region continued by the later lines (`hmain`), what those lines may touch
   (`sfx_sub`, `sfx_fresh`, `sfx_keeps`), the nine argument arrays as the region finds them and as the lines leave them
   (`V_main_argK`, `W_main_argK`: no host operation writes an argument), each window's block at a point (`iblk`), the
   input windows' staging buffers (`before0_W_of`), and the frame claim's post from any frame run's (`frame_of`,
   `result_of`). Generic in the float instance. -/
import proofs.«414902_j80762565034490_2_alg».proof.Proof.Gen.Kernel.Launch
import proofs.«414902_j80762565034490_2_alg».proof.Proof.Gen.Kernel.Skeleton
import proofs.«414902_j80762565034490_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The references the host lines leave alone -/

/-- @main's nine argument arrays. -/
abbrev argRefs : List (Ref sig .tc) :=
  [main_arg0, main_arg1, main_arg2, main_arg3, main_arg4, main_arg5, main_arg6, main_arg7, main_arg8]

/-- The argument arrays and the six windows' arrays: what no host line AFTER the region writes. -/
abbrev keptRefs : List (Ref sig .tc) :=
  argRefs ++ [main_v25, main_v32, main_v33, main_v34_0, main_v34_1, main_v34_2]

/-- Every window's array is one of them. -/
theorem arrRef_mem_keptRefs : ∀ w, Pipeline.arrRef spec0 w ∈ keptRefs := by decide

/-- No window's array is an argument array. -/
theorem arrRef_ne_of_arg : ∀ b ∈ argRefs, ∀ w, Pipeline.arrRef spec0 w ≠ b := by decide

/-- References of a list all distinct from `y` are, as device buffers, distinct from `y`'s (which reference is which
    is decidable; which device buffer is which is not until the topology is fixed). -/
theorem ne_of_forall_ne {L : List (Ref sig .tc)} {y : Ref sig .tc} (h : ∀ b ∈ L, b ≠ y) :
    ∀ b ∈ L, ¬ Proc.devRef (τ := τ) .tc b = Proc.devRef .tc y :=
  fun b hb => StableHlo.devRef_ne_of_ne (h b hb)

/-! ## The stretches one by one: nothing allocated, no argument and no array written

Each host operation writes its own result buffer only, and no result buffer of a line is an argument array; after
the region none is a window's array either. -/

set_option maxHeartbeats 4000000 in
theorem hostOps0_fresh : (hostOps0 : List (HloOp τ sig (Elt F))).Forall fun op => op.fresh = ∅ := by
  simp only [List.Forall]; repeat' constructor
set_option maxHeartbeats 4000000 in
theorem hostOps0_keeps : (hostOps0 : List (HloOp τ sig (Elt F))).Forall fun op => ∀ b ∈ argRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
set_option maxHeartbeats 4000000 in
theorem hostOps1_4_fresh : (hostOps1_4 : List (HloOp τ sig (Elt F))).Forall fun op => op.fresh = ∅ := by
  simp only [List.Forall]; repeat' constructor
set_option maxHeartbeats 4000000 in
theorem hostOps1_4_keeps : (hostOps1_4 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)

/-! ## @main around the region -/

/-- The five stretches of host operations after the region, in order. -/
abbrev tailOps : List (List (HloOp τ sig (Elt F))) := [hostOps1, hostOps1_1, hostOps1_2, hostOps1_3, hostOps1_4]

/-- A property of each of the five stretches is one of every stretch of the tail. -/
theorem forall_tailOps {p : List (HloOp τ sig (Elt F)) → Prop} (h0 : p hostOps1) (h1 : p hostOps1_1) (h2 : p hostOps1_2)
    (h3 : p hostOps1_3) (h4 : p hostOps1_4) : ∀ ops ∈ (tailOps : List (List (HloOp τ sig (Elt F)))), p ops := by
  intro ops hops
  simp only [tailOps, List.mem_cons, List.mem_nil_iff, List.not_mem_nil, or_false] at hops
  rcases hops with rfl | rfl | rfl | rfl | rfl <;> assumption

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- @main around the region, at any variants `𝒱₀`: the host lines before it, the region, the five stretches of host lines
    after it: it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_tailOps
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
/-- They allocate nothing. -/
theorem sfx_fresh : ∀ ops ∈ (tailOps : List (List (HloOp τ sig (Elt F)))), ∀ op ∈ ops, op.fresh = ∅ :=
  forall_tailOps (List.forall_iff_forall_mem.mp hostOps1_fresh) (List.forall_iff_forall_mem.mp hostOps1_1_fresh)
    (List.forall_iff_forall_mem.mp hostOps1_2_fresh) (List.forall_iff_forall_mem.mp hostOps1_3_fresh)
    (List.forall_iff_forall_mem.mp hostOps1_4_fresh)
/-- They write no argument array and no array of the pipeline. -/
theorem tail_keeps : ∀ ops ∈ (tailOps : List (List (HloOp τ sig (Elt F)))), ∀ op ∈ ops,
    ∀ b ∈ keptRefs, Proc.devRef (τ := τ) .tc b ∉ op.writes :=
  forall_tailOps (List.forall_iff_forall_mem.mp hostOps1_keeps) (List.forall_iff_forall_mem.mp hostOps1_1_keeps)
    (List.forall_iff_forall_mem.mp hostOps1_2_keeps) (List.forall_iff_forall_mem.mp hostOps1_3_keeps)
    (List.forall_iff_forall_mem.mp hostOps1_4_keeps)
/-- In particular no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arrRef_mem_keptRefs w)

/-- No host operation before the region writes an argument array: the region finds it as launched. -/
theorem V_of_arg (c : Dev nD) (b : Ref sig .tc) (hb : b ∈ argRefs) : V m c b = m ((c : Thread nD τ).loc b) :=
  StableHlo.after_of_forall_not_mem (b := Proc.devRef .tc b) _ _ (fun op hop => by
    rw [List.flatten_cons, List.flatten_nil, List.append_nil] at hop
    exact (List.forall_iff_forall_mem.mp hostOps0_keeps) op hop b hb)

/-- No host operation after the region writes an argument array, and the region moves only its windows' arrays: it ends
    as launched. -/
theorem W_of_arg (dats : (p : Fin 1) → (c : Dev nD) → Dat τ (Elt F) Unit ℕ (UR sig nD τ) ℕ (cfgs p) c) (c : Dev nD)
    (b : Ref sig .tc) (hb : b ∈ argRefs) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact tail_keeps ops hops op hop' b (List.mem_append_left _ hb)),
    Pipeline.withArrays_of_ne _ c (V0 m c) _ b (by exact arrRef_ne_of_arg b hb)]
  exact V_of_arg m c b hb

theorem V_main_arg0 (c : Dev nD) : V m c main_arg0 = m ((c : Thread nD τ).loc main_arg0) :=
  V_of_arg m c main_arg0 (by decide)
theorem V_main_arg1 (c : Dev nD) : V m c main_arg1 = m ((c : Thread nD τ).loc main_arg1) :=
  V_of_arg m c main_arg1 (by decide)
theorem V_main_arg2 (c : Dev nD) : V m c main_arg2 = m ((c : Thread nD τ).loc main_arg2) :=
  V_of_arg m c main_arg2 (by decide)
theorem V_main_arg3 (c : Dev nD) : V m c main_arg3 = m ((c : Thread nD τ).loc main_arg3) :=
  V_of_arg m c main_arg3 (by decide)
theorem V_main_arg4 (c : Dev nD) : V m c main_arg4 = m ((c : Thread nD τ).loc main_arg4) :=
  V_of_arg m c main_arg4 (by decide)
theorem V_main_arg5 (c : Dev nD) : V m c main_arg5 = m ((c : Thread nD τ).loc main_arg5) :=
  V_of_arg m c main_arg5 (by decide)
theorem V_main_arg6 (c : Dev nD) : V m c main_arg6 = m ((c : Thread nD τ).loc main_arg6) :=
  V_of_arg m c main_arg6 (by decide)
theorem V_main_arg7 (c : Dev nD) : V m c main_arg7 = m ((c : Thread nD τ).loc main_arg7) :=
  V_of_arg m c main_arg7 (by decide)
theorem V_main_arg8 (c : Dev nD) : V m c main_arg8 = m ((c : Thread nD τ).loc main_arg8) :=
  V_of_arg m c main_arg8 (by decide)

theorem W_main_arg0 (dats : (p : Fin 1) → (c : Dev nD) → Pipeline.Dat τ (Elt F) Unit ℕ (UR sig nD τ) ℕ (cfgs p) c) (c : Dev nD) :
    Pipeline.afterTail₀ cfgs dats 0 (V0 m) tailOps c main_arg0 = m ((c : Thread nD τ).loc main_arg0) :=
  W_of_arg m dats c main_arg0 (by decide)
theorem W_main_arg1 (dats : (p : Fin 1) → (c : Dev nD) → Pipeline.Dat τ (Elt F) Unit ℕ (UR sig nD τ) ℕ (cfgs p) c) (c : Dev nD) :
    Pipeline.afterTail₀ cfgs dats 0 (V0 m) tailOps c main_arg1 = m ((c : Thread nD τ).loc main_arg1) :=
  W_of_arg m dats c main_arg1 (by decide)
theorem W_main_arg2 (dats : (p : Fin 1) → (c : Dev nD) → Pipeline.Dat τ (Elt F) Unit ℕ (UR sig nD τ) ℕ (cfgs p) c) (c : Dev nD) :
    Pipeline.afterTail₀ cfgs dats 0 (V0 m) tailOps c main_arg2 = m ((c : Thread nD τ).loc main_arg2) :=
  W_of_arg m dats c main_arg2 (by decide)
theorem W_main_arg3 (dats : (p : Fin 1) → (c : Dev nD) → Pipeline.Dat τ (Elt F) Unit ℕ (UR sig nD τ) ℕ (cfgs p) c) (c : Dev nD) :
    Pipeline.afterTail₀ cfgs dats 0 (V0 m) tailOps c main_arg3 = m ((c : Thread nD τ).loc main_arg3) :=
  W_of_arg m dats c main_arg3 (by decide)
theorem W_main_arg4 (dats : (p : Fin 1) → (c : Dev nD) → Pipeline.Dat τ (Elt F) Unit ℕ (UR sig nD τ) ℕ (cfgs p) c) (c : Dev nD) :
    Pipeline.afterTail₀ cfgs dats 0 (V0 m) tailOps c main_arg4 = m ((c : Thread nD τ).loc main_arg4) :=
  W_of_arg m dats c main_arg4 (by decide)
theorem W_main_arg5 (dats : (p : Fin 1) → (c : Dev nD) → Pipeline.Dat τ (Elt F) Unit ℕ (UR sig nD τ) ℕ (cfgs p) c) (c : Dev nD) :
    Pipeline.afterTail₀ cfgs dats 0 (V0 m) tailOps c main_arg5 = m ((c : Thread nD τ).loc main_arg5) :=
  W_of_arg m dats c main_arg5 (by decide)
theorem W_main_arg6 (dats : (p : Fin 1) → (c : Dev nD) → Pipeline.Dat τ (Elt F) Unit ℕ (UR sig nD τ) ℕ (cfgs p) c) (c : Dev nD) :
    Pipeline.afterTail₀ cfgs dats 0 (V0 m) tailOps c main_arg6 = m ((c : Thread nD τ).loc main_arg6) :=
  W_of_arg m dats c main_arg6 (by decide)
theorem W_main_arg7 (dats : (p : Fin 1) → (c : Dev nD) → Pipeline.Dat τ (Elt F) Unit ℕ (UR sig nD τ) ℕ (cfgs p) c) (c : Dev nD) :
    Pipeline.afterTail₀ cfgs dats 0 (V0 m) tailOps c main_arg7 = m ((c : Thread nD τ).loc main_arg7) :=
  W_of_arg m dats c main_arg7 (by decide)
theorem W_main_arg8 (dats : (p : Fin 1) → (c : Dev nD) → Pipeline.Dat τ (Elt F) Unit ℕ (UR sig nD τ) ℕ (cfgs p) c) (c : Dev nD) :
    Pipeline.afterTail₀ cfgs dats 0 (V0 m) tailOps c main_arg8 = m ((c : Thread nD τ).loc main_arg8) :=
  W_of_arg m dats c main_arg8 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for ANY proof
    data whose array is `V`'s (`hA`) and whose body leaves the block in place (`hafter`): the window is an input, uncut
    and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data, a run to the frame post read at the argument arrays — each an
    unscoped buffer that is no window's array, so the post's second clause gives what the lines after the region leave
    there, which is what was launched — is the frame claim's post, at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-- The same with @main's result: its buffer `main_v139` is unscoped and no window's array either, so the run leaves it
    at what the lines after the region compute from the region's exit. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v139) = Pipeline.afterTail₀ cfgs dats 0 (V0 m) tailOps c main_v139
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c).2 main_v139 (Pipeline.mem_restRefs_of main_v139 (by decide) (by decide)),
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.Kernel.Agg

end
-- ==== Proof.Kernel.Body.lean ====
/-
  The kernel body's three behaviours. A grid point is (chunk, step) with 250 steps per chunk. At a chunk's first
  step the three accumulators (two 1024×200 sums and a 1×1024 count) are reset to zero; at every step each sum gains
  the product of the step's one-hot relation matrix (2000×1024, transposed) with the step's 2000×200 feature block and
  the count gains the one-hot matrix's column sums; at a chunk's last step the three accumulators are copied into the
  three output blocks.
-/
import proofs.«414902_j80762565034490_2_alg».proof.Proof.Gen.Kernel.Launch
import proofs.«414902_j80762565034490_2_alg».proof.Proof.Gen.Kernel.Skeleton
import proofs.«414902_j80762565034490_2_alg».proof.Proof.Gen.Kernel.Points
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken exactly when the step coordinate is 0. -/
abbrev isFirst (i : grid0.Coords) : Prop :=
  (Scalar.cmpi .ne (Scalar.extui (Scalar.cmpi .eq (BitVec.ofNat 32 (i 1).val) 0#32)) 0#32) = 1#1
/-- The body's last branch is taken exactly when the step coordinate is 249. -/
abbrev isLast (i : grid0.Coords) : Prop := k0_cond2 i = 1#1

theorem isFirst_iff : ∀ t : Fin cfg0.N, isFirst (grid0.coords t) ↔ t.val % 250 = 0 :=
  (by decide +kernel : ∀ t : Fin grid0.N, isFirst (grid0.coords t) ↔ t.val % 250 = 0)
theorem isLast_iff : ∀ t : Fin cfg0.N, isLast (grid0.coords t) ↔ t.val % 250 = 249 :=
  (by decide +kernel : ∀ t : Fin grid0.N, isLast (grid0.coords t) ↔ t.val % 250 = 249)

/-- One step of a feature accumulator: the old sum plus (one-hot)ᵀ · block. -/
abbrev accStep (et : Vec F S2000x1 .i32) (s : Vec F S1024x200 .f32) (x : Vec F S2000x200 .bf16) : Vec F S1024x200 .f32 :=
  k0_pay10 et s x
/-- One step of the count accumulator: the old counts plus the one-hot matrix's column sums. -/
abbrev cntStep (et : Vec F S2000x1 .i32) (s : Vec F S1x1024 .f32) : Vec F S1x1024 .f32 :=
  k0_pay1 (k0_pay12 et s)
/-- The zero a feature accumulator is reset to, and the zero the count is reset to. -/
abbrev accZero : Vec F S1024x200 .f32 := k0_pay5
abbrev cntZero : Vec F S1x1024 .f32 := k0_pay7

section Whole
variable {Val : EltTy → Type} [∀ e, Nonempty (Val e)] {sg : RefSig} {κ : Kind} {sp : Space} {S : Shape} {e : EltTy}

/-- A buffer whose LAST write covers it whole reads back as that write's payload. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]
end Whole

theorem z2 : (![0, 0] : Fin 2 → ℕ) = fun _ => 0 := by funext a; fin_cases a <;> rfl
theorem z3 : (![0, 0, 0] : Fin 3 → ℕ) = fun _ => 0 := by funext a; fin_cases a <;> rfl

/-- What a buffer written whole holds, read back: open the run's names, take the last whole write's payload, and read
    every whole-rectangle load of an unchanged buffer as that buffer. -/
local macro "buf_value" : tactic => `(tactic| (
  ipureintro
  sl_unfold_run_names
  simp only [read_writes_whole (S := S1024x200) _ _ z2, read_writes_whole (S := S1x1024) _ _ z2,
    read_writes_whole (S := S1x1024x200) _ _ z3, read_writes_whole (S := S1x1x1024) _ _ z3, View.readAt_eq_ld, Memref.IsWhole.read_unread,
    View.readCov_unit_zero (S := S1024x200) _ z2, View.readCov_unit_zero (S := S1x1024) _ z2,
    View.ld_unit_zero (S := S2000x1) z2, View.ld_unit_zero (S := S1024x200) z2, View.ld_unit_zero (S := S2000x200) z2,
    View.ld_unit_zero (S := S1x1024) z2, View.ld_unit_zero (S := S1x1024x200) z3, View.ld_unit_zero (S := S1x1x1024) z3]
  try rfl))

set_option maxHeartbeats 4000000 in
/-- A middle step (neither first nor last of its chunk): the accumulators advance by one step, the output blocks and
    the inputs are left as they were. -/
theorem run_mid (c : Dev nD) (E : Set ℕ) (i : grid0.Coords) (hf : ¬ isFirst i) (hl : ¬ isLast i)
    (arg2 : Memref sig .tc .vmem S2000x200 .bf16) (harg2 : arg2.IsWhole) (arg3 : Memref sig .tc .vmem S2000x200 .bf16) (harg3 : arg3.IsWhole) (arg4 : Memref sig .tc .vmem S2000x1 .i32) (harg4 : arg4.IsWhole) (arg5 : Memref sig .tc .vmem S1x1024x200 .f32) (harg5 : arg5.IsWhole) (arg6 : Memref sig .tc .vmem S1x1024x200 .f32) (harg6 : arg6.IsWhole) (arg7 : Memref sig .tc .vmem S1x1x1024 .f32) (harg7 : arg7.IsWhole) (arg8 : Memref sig .tc .vmem S1024x200 .f32) (harg8 : arg8.IsWhole) (arg9 : Memref sig .tc .vmem S1024x200 .f32) (harg9 : arg9.IsWhole) (arg10 : Memref sig .tc .vmem S1x1024 .f32) (harg10 : arg10.IsWhole)
    (x1 x2 : Vec F S2000x200 .bf16) (et : Vec F S2000x1 .i32) (d5 d6 : Vec F S1x1024x200 .f32) (d7 : Vec F S1x1x1024 .f32)
    (s1 s2 : Vec F S1024x200 .f32) (s3 : Vec F S1x1024 .f32) (K : PUnit → sProp 𝕄) :
    iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare s1 ∗ owns (c : Thread nD τ) arg9 fullShare s2 ∗ owns (c : Thread nD τ) arg10 fullShare s3
        ∗ (iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare (accStep et s1 x1) ∗ owns (c : Thread nD τ) arg9 fullShare (accStep et s2 x2) ∗ owns (c : Thread nD τ) arg10 fullShare (cntStep et s3)) -∗ K ⟨⟩))
      ⊢ wp frame (wpE (defs₀ (F := F)) Variants.none c none) E (cc0__agg_kernel i arg2 harg2 arg3 harg3 arg4 harg4 arg5 harg5 arg6 harg6 arg7 harg7 arg8 harg8 arg9 harg9 arg10 harg10) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    buf_value
  isplitl [H9]
  · iexists _; isplitr
    swap; · iexact H9
    buf_value
  iexists _; isplitr
  swap; · iexact H10
  buf_value

set_option maxHeartbeats 4000000 in
/-- A chunk's first step: the accumulators are reset to zero and then advance by one step. -/
theorem run_first (c : Dev nD) (E : Set ℕ) (i : grid0.Coords) (hf : isFirst i) (hl : ¬ isLast i)
    (arg2 : Memref sig .tc .vmem S2000x200 .bf16) (harg2 : arg2.IsWhole) (arg3 : Memref sig .tc .vmem S2000x200 .bf16) (harg3 : arg3.IsWhole) (arg4 : Memref sig .tc .vmem S2000x1 .i32) (harg4 : arg4.IsWhole) (arg5 : Memref sig .tc .vmem S1x1024x200 .f32) (harg5 : arg5.IsWhole) (arg6 : Memref sig .tc .vmem S1x1024x200 .f32) (harg6 : arg6.IsWhole) (arg7 : Memref sig .tc .vmem S1x1x1024 .f32) (harg7 : arg7.IsWhole) (arg8 : Memref sig .tc .vmem S1024x200 .f32) (harg8 : arg8.IsWhole) (arg9 : Memref sig .tc .vmem S1024x200 .f32) (harg9 : arg9.IsWhole) (arg10 : Memref sig .tc .vmem S1x1024 .f32) (harg10 : arg10.IsWhole)
    (x1 x2 : Vec F S2000x200 .bf16) (et : Vec F S2000x1 .i32) (d5 d6 : Vec F S1x1024x200 .f32) (d7 : Vec F S1x1x1024 .f32)
    (s1 s2 : Vec F S1024x200 .f32) (s3 : Vec F S1x1024 .f32) (K : PUnit → sProp 𝕄) :
    iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare s1 ∗ owns (c : Thread nD τ) arg9 fullShare s2 ∗ owns (c : Thread nD τ) arg10 fullShare s3
        ∗ (iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare (accStep et accZero x1) ∗ owns (c : Thread nD τ) arg9 fullShare (accStep et accZero x2) ∗ owns (c : Thread nD τ) arg10 fullShare (cntStep et cntZero)) -∗ K ⟨⟩))
      ⊢ wp frame (wpE (defs₀ (F := F)) Variants.none c none) E (cc0__agg_kernel i arg2 harg2 arg3 harg3 arg4 harg4 arg5 harg5 arg6 harg6 arg7 harg7 arg8 harg8 arg9 harg9 arg10 harg10) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    buf_value
  isplitl [H9]
  · iexists _; isplitr
    swap; · iexact H9
    buf_value
  iexists _; isplitr
  swap; · iexact H10
  buf_value

set_option maxHeartbeats 4000000 in
/-- A chunk's last step: the accumulators advance by one step and are then copied into the three output blocks. -/
theorem run_last (c : Dev nD) (E : Set ℕ) (i : grid0.Coords) (hf : ¬ isFirst i) (hl : isLast i)
    (arg2 : Memref sig .tc .vmem S2000x200 .bf16) (harg2 : arg2.IsWhole) (arg3 : Memref sig .tc .vmem S2000x200 .bf16) (harg3 : arg3.IsWhole) (arg4 : Memref sig .tc .vmem S2000x1 .i32) (harg4 : arg4.IsWhole) (arg5 : Memref sig .tc .vmem S1x1024x200 .f32) (harg5 : arg5.IsWhole) (arg6 : Memref sig .tc .vmem S1x1024x200 .f32) (harg6 : arg6.IsWhole) (arg7 : Memref sig .tc .vmem S1x1x1024 .f32) (harg7 : arg7.IsWhole) (arg8 : Memref sig .tc .vmem S1024x200 .f32) (harg8 : arg8.IsWhole) (arg9 : Memref sig .tc .vmem S1024x200 .f32) (harg9 : arg9.IsWhole) (arg10 : Memref sig .tc .vmem S1x1024 .f32) (harg10 : arg10.IsWhole)
    (x1 x2 : Vec F S2000x200 .bf16) (et : Vec F S2000x1 .i32) (d5 d6 : Vec F S1x1024x200 .f32) (d7 : Vec F S1x1x1024 .f32)
    (s1 s2 : Vec F S1024x200 .f32) (s3 : Vec F S1x1024 .f32) (K : PUnit → sProp 𝕄) :
    iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare s1 ∗ owns (c : Thread nD τ) arg9 fullShare s2 ∗ owns (c : Thread nD τ) arg10 fullShare s3
        ∗ (iprop(owns (c : Thread nD τ) arg2 fullShare x1 ∗ owns (c : Thread nD τ) arg3 fullShare x2 ∗ owns (c : Thread nD τ) arg4 fullShare et ∗ owns (c : Thread nD τ) arg5 fullShare (k0_pay2 (accStep et s1 x1)) ∗ owns (c : Thread nD τ) arg6 fullShare (k0_pay3 (accStep et s2 x2)) ∗ owns (c : Thread nD τ) arg7 fullShare (k0_pay4 (cntStep et s3)) ∗ owns (c : Thread nD τ) arg8 fullShare (accStep et s1 x1) ∗ owns (c : Thread nD τ) arg9 fullShare (accStep et s2 x2) ∗ owns (c : Thread nD τ) arg10 fullShare (cntStep et s3)) -∗ K ⟨⟩))
      ⊢ wp frame (wpE (defs₀ (F := F)) Variants.none c none) E (cc0__agg_kernel i arg2 harg2 arg3 harg3 arg4 harg4 arg5 harg5 arg6 harg6 arg7 harg7 arg8 harg8 arg9 harg9 arg10 harg10) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    buf_value
  isplitl [H6]
  · iexists _; isplitr
    swap; · iexact H6
    buf_value
  isplitl [H7]
  · iexists _; isplitr
    swap; · iexact H7
    buf_value
  isplitl [H8]
  · iexists _; isplitr
    swap; · iexact H8
    buf_value
  isplitl [H9]
  · iexists _; isplitr
    swap; · iexact H9
    buf_value
  iexists _; isplitr
  swap; · iexact H10
  buf_value

end Cert.Kernel.Agg

end
-- ==== Proof.Kernel.Acc.lean ====
/-
  The aggregation's accumulators as pure data: the three blocks a grid point reads, one step of the three
  accumulators (two 1024×200 sums and a 1×1024 count), and what they hold after every point — a recursion on the point
  that restarts from zero at each chunk's first step.
-/
import proofs.«414902_j80762565034490_2_alg».proof.Proof.Gen.Kernel.Launch
import proofs.«414902_j80762565034490_2_alg».proof.Proof.Gen.Kernel.Skeleton
import proofs.«414902_j80762565034490_2_alg».proof.Proof.Gen.Kernel.Points
import proofs.«414902_j80762565034490_2_alg».proof.Proof.Kernel.Main
import proofs.«414902_j80762565034490_2_alg».proof.Proof.Kernel.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a point reads, and the accumulators after each point -/

/-- The source-feature block, the destination-feature block and the relation-tag block of point `t`. -/
abbrev xsrc (c : Dev nD) (t : Fin cfg0.N) : Vec F S2000x200 .bf16 := iblk m c 0 t
abbrev xdst (c : Dev nD) (t : Fin cfg0.N) : Vec F S2000x200 .bf16 := iblk m c 1 t
abbrev etag (c : Dev nD) (t : Fin cfg0.N) : Vec F S2000x1 .i32 := iblk m c 2 t

/-- The three accumulators: source sums, destination sums, counts. -/
abbrev Acc (F : FTy → Type) : Type := Vec F S1024x200 .f32 × Vec F S1024x200 .f32 × Vec F S1x1024 .f32

/-- The accumulators advanced by point `t`'s blocks. -/
def stepAcc (c : Dev nD) (t : Fin cfg0.N) (s : Acc F) : Acc F :=
  (accStep (etag m c t) s.1 (xsrc m c t), accStep (etag m c t) s.2.1 (xdst m c t), cntStep (etag m c t) s.2.2)

/-- The accumulators at reset. -/
def zeroAcc : Acc F := (accZero, accZero, cntZero)

/-- The accumulators after point `n`: at a chunk's first step they restart from zero. -/
def accAt (c : Dev nD) : (n : ℕ) → n < cfg0.N → Acc F
  | 0, hn => stepAcc m c ⟨0, hn⟩ zeroAcc
  | n + 1, hn =>
    if (n + 1) % 250 = 0 then stepAcc m c ⟨n + 1, hn⟩ zeroAcc
    else stepAcc m c ⟨n + 1, hn⟩ (accAt c n (Nat.lt_of_succ_lt hn))

theorem accAt_first (c : Dev nD) (t : Fin cfg0.N) (h : t.val % 250 = 0) :
    accAt m c t.val t.isLt = stepAcc m c t zeroAcc := by
  obtain ⟨n, hn⟩ := t
  cases n with
  | zero => rfl
  | succ n => exact if_pos h

theorem accAt_next (c : Dev nD) (t : Fin cfg0.N) (h : ¬ t.val % 250 = 0) :
    accAt m c t.val t.isLt = stepAcc m c t (accAt m c (t.val - 1) (Nat.lt_of_le_of_lt (Nat.sub_le _ _) t.isLt)) := by
  obtain ⟨n, hn⟩ := t
  cases n with
  | zero => exact absurd (Nat.zero_mod _) h
  | succ n => exact if_neg h

/-- The accumulators after a point do not depend on how the point's bound is proved. -/
theorem accAt_congr (c : Dev nD) {n n' : ℕ} (h : n = n') (hn : n < cfg0.N) (hn' : n' < cfg0.N) :
    accAt m c n hn = accAt m c n' hn' := by subst h; rfl

end Cert.Kernel.Agg

end
-- ==== Proof.Kernel.Frame.lean ====
/-
  The frame run of the aggregation program: its one region accumulates, chunk by chunk, two 1024×200 sums and a
  1×1024 count in three scratch buffers carried from grid point to grid point, and copies them into the output blocks at
  each chunk's last step. Here: what the scratch buffers hold after every point (a recursion on the point), the
  region invariant that carries them, the body's triple at every point from its three behaviours, and the launch.
-/
import proofs.«414902_j80762565034490_2_alg».proof.Proof.Gen.Kernel.Launch
import proofs.«414902_j80762565034490_2_alg».proof.Proof.Gen.Kernel.Skeleton
import proofs.«414902_j80762565034490_2_alg».proof.Proof.Gen.Kernel.Points
import proofs.«414902_j80762565034490_2_alg».proof.Proof.Kernel.Acc
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers and the region invariant -/

abbrev scM0 : Memref sig .tc .vmem S1024x200 .f32 := Memref.whole cc0_scratch0
abbrev scM1 : Memref sig .tc .vmem S1024x200 .f32 := Memref.whole cc0_scratch1
abbrev scM2 : Memref sig .tc .vmem S1x1024 .f32 := Memref.whole cc0_scratch2

/-- What the launch hands the region: the three scratch buffers at anything, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: before the first point what the launch hands over; afterwards the scratch
    buffers at the accumulators the point before left. -/
def PhiS (c : Dev nD) : (n : ℕ) → n ≤ cfg0.N → sProp 𝕄
  | 0, _ => Pipeline.ΦA spec0 c
  | n + 1, hn => iprop(iprop(owns (c : Thread nD τ) scM0 fullShare (accAt m c n hn).1
      ∗ owns (c : Thread nD τ) scM1 fullShare (accAt m c n hn).2.1
      ∗ owns (c : Thread nD τ) scM2 fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (accAt m c n hn).1
      ∗ owns (c : Thread nD τ) scM1 fullShare (accAt m c n hn).2.1
      ∗ owns (c : Thread nD τ) scM2 fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (accAt m c (n - 1) (by omega)).1
      ∗ owns (c : Thread nD τ) scM1 fullShare (accAt m c (n - 1) (by omega)).2.1
      ∗ owns (c : Thread nD τ) scM2 fullShare (accAt m c (n - 1) (by omega)).2.2) ∗ (∃ r, prngReg c r)) := by
  cases n with
  | zero => exact absurd rfl hz
  | succ n => rfl

/-! ## The proof data -/

/-- The arrays as the region finds them; after the body at point `t` each input's buffer at its block and each
    output's at the corresponding accumulator after `t` (consulted only at a chunk's last step, where the body stores
    it); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accAt m c t.val t.isLt).1
    | ⟨4, _⟩ => k0_pay3 (accAt m c t.val t.isLt).2.1
    | ⟨5, _⟩ => k0_pay4 (accAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (accAt m c t.val t.isLt).1 := by dsimp only [dats]
theorem after0_4 (c : Dev nD) (t : Fin cfg0.N) : (dats m 0 c).after 4 t = k0_pay3 (accAt m c t.val t.isLt).2.1 := by dsimp only [dats]
theorem after0_5 (c : Dev nD) (t : Fin cfg0.N) : (dats m 0 c).after 5 t = k0_pay4 (accAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ isLast (grid0.coords t) → cfg0.idle 3 (grid0.coords t) = true := by decide +kernel
theorem idle4 : ∀ t : Fin cfg0.N, ¬ isLast (grid0.coords t) → cfg0.idle 4 (grid0.coords t) = true := by decide +kernel
theorem idle5 : ∀ t : Fin cfg0.N, ¬ isLast (grid0.coords t) → cfg0.idle 5 (grid0.coords t) = true := by decide +kernel
theorem noFlush3 : ∀ t : Fin cfg0.N, ¬ isLast (grid0.coords t) → (cfg0.win 3).flush t = false := by decide +kernel
theorem noFlush4 : ∀ t : Fin cfg0.N, ¬ isLast (grid0.coords t) → (cfg0.win 4).flush t = false := by decide +kernel
theorem noFlush5 : ∀ t : Fin cfg0.N, ¬ isLast (grid0.coords t) → (cfg0.win 5).flush t = false := by decide +kernel
theorem live3 : ∀ t : Fin cfg0.N, isLast (grid0.coords t) → cfg0.idle 3 (grid0.coords t) = false := by decide +kernel
theorem live4 : ∀ t : Fin cfg0.N, isLast (grid0.coords t) → cfg0.idle 4 (grid0.coords t) = false := by decide +kernel
theorem live5 : ∀ t : Fin cfg0.N, isLast (grid0.coords t) → cfg0.idle 5 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 (c : Dev nD) (t : Fin cfg0.N) :
    (dats m 0 c).leavesExact 0 t = owns (c : Thread nD τ) (st0_0 t) fullShare (iblk m c 0 t) := by
  unfold Dat.leavesExact; rw [live0 t, after0_0]
theorem leaves_in1 (c : Dev nD) (t : Fin cfg0.N) :
    (dats m 0 c).leavesExact 1 t = owns (c : Thread nD τ) (st0_1 t) fullShare (iblk m c 1 t) := by
  unfold Dat.leavesExact; rw [live1 t, after0_1]
theorem leaves_in2 (c : Dev nD) (t : Fin cfg0.N) :
    (dats m 0 c).leavesExact 2 t = owns (c : Thread nD τ) (st0_2 t) fullShare (iblk m c 2 t) := by
  unfold Dat.leavesExact; rw [live2 t, after0_2]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, leaves_in0, leaves_in1, leaves_in2]
  rw [show (dats m 0 c).owesAt () t.succ = (dats m 0 c).owesAt () t.castSucc from rfl]
  rw [show (dats m 0 c).Φ t.succ = PhiS m c (t.val + 1) t.isLt from rfl, PhiS_succ]
  have hN : t.val < 500 := lt_of_lt_of_eq t.isLt (show cfg0.N = 500 from N_0)
  by_cases hl : t.val % 250 = 249
  · -- a chunk's last step
    have hf : ¬ t.val % 250 = 0 := by omega
    have hz : t.val ≠ 0 := by omega
    have hF : ¬ isFirst (grid0.coords t) := fun h => hf ((isFirst_iff t).mp h)
    have hL : isLast (grid0.coords t) := (isLast_iff t).mpr hl
    rw [show (dats m 0 c).leavesExact 3 t = owns (c : Thread nD τ) (st0_3 t) fullShare ((dats m 0 c).after 3 t) from by
      unfold Dat.leavesExact; rw [live3 t hL], after0_3]
    rw [show (dats m 0 c).leavesExact 4 t = owns (c : Thread nD τ) (st0_4 t) fullShare ((dats m 0 c).after 4 t) from by
      unfold Dat.leavesExact; rw [live4 t hL], after0_4]
    rw [show (dats m 0 c).leavesExact 5 t = owns (c : Thread nD τ) (st0_5 t) fullShare ((dats m 0 c).after 5 t) from by
      unfold Dat.leavesExact; rw [live5 t hL], after0_5]
    rw [accAt_next m c t hf]
    unfold stepAcc; dsimp only
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (run_last c Set.univ (grid0.coords t) hF hL _ _ _ _ _ _ _ _ _ _ _ _ _ _ _ _ _ _
      (xsrc m c t) (xdst m c t) (etag m c t) _ _ _ _ _ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · have hL : ¬ isLast (grid0.coords t) := fun h => hl ((isLast_iff t).mp h)
    rw [Dat.leavesExact_idle (dats m 0 c) 3 t (idle3 t hL) (noFlush3 t hL),
      Dat.leavesExact_idle (dats m 0 c) 4 t (idle4 t hL) (noFlush4 t hL),
      Dat.leavesExact_idle (dats m 0 c) 5 t (idle5 t hL) (noFlush5 t hL)]
    by_cases hf : t.val % 250 = 0
    · -- a chunk's first step
      have hF : isFirst (grid0.coords t) := (isFirst_iff t).mpr hf
      rw [accAt_first m c t hf]
      unfold stepAcc zeroAcc; dsimp only
      have key : ∀ (s1 s2 : Vec F S1024x200 .f32) (s3 : Vec F S1x1024 .f32),
          iprop(iprop(owns (c : Thread nD τ) scM0 fullShare s1 ∗ owns (c : Thread nD τ) scM1 fullShare s2
              ∗ owns (c : Thread nD τ) scM2 fullShare s3) ∗ (∃ r, prngReg c r)
            ∗ (dats m 0 c).owesAt () t.castSucc
            ∗ (∃ d : (cfg0.win 0).block.Idx → Elt F (cfg0.win 0).elt, owns (c : Thread nD τ) (st0_0 t) fullShare (iblk m c 0 t))
            ∗ (∃ d : (cfg0.win 1).block.Idx → Elt F (cfg0.win 1).elt, owns (c : Thread nD τ) (st0_1 t) fullShare (iblk m c 1 t))
            ∗ (∃ d : (cfg0.win 2).block.Idx → Elt F (cfg0.win 2).elt, owns (c : Thread nD τ) (st0_2 t) fullShare (iblk m c 2 t))
            ∗ (∃ d, owns (c : Thread nD τ) (st0_3 t) fullShare ((dats m 0 c).before 3 t d))
            ∗ (∃ d, owns (c : Thread nD τ) (st0_4 t) fullShare ((dats m 0 c).before 4 t d))
            ∗ (∃ d, owns (c : Thread nD τ) (st0_5 t) fullShare ((dats m 0 c).before 5 t d)))
          ⊢ wp frame (wpE (defs₀ (F := F)) Variants.none c none) Set.univ (bodyAt0 t) (fun _ =>
            iprop(iprop(iprop(owns (c : Thread nD τ) scM0 fullShare (accStep (etag m c t) accZero (xsrc m c t))
                ∗ owns (c : Thread nD τ) scM1 fullShare (accStep (etag m c t) accZero (xdst m c t))
                ∗ owns (c : Thread nD τ) scM2 fullShare (cntStep (etag m c t) cntZero)) ∗ (∃ r, prngReg c r))
              ∗ (dats m 0 c).owesAt () t.castSucc
              ∗ owns (c : Thread nD τ) (st0_0 t) fullShare (iblk m c 0 t)
              ∗ owns (c : Thread nD τ) (st0_1 t) fullShare (iblk m c 1 t)
              ∗ owns (c : Thread nD τ) (st0_2 t) fullShare (iblk m c 2 t)
              ∗ (∃ d, owns (c : Thread nD τ) (st0_3 t) fullShare ((dats m 0 c).before 3 t d))
              ∗ (∃ d, owns (c : Thread nD τ) (st0_4 t) fullShare ((dats m 0 c).before 4 t d))
              ∗ (∃ d, owns (c : Thread nD τ) (st0_5 t) fullShare ((dats m 0 c).before 5 t d)))) := by
        intro s1 s2 s3
        unfold bodyAt0
        iintro ⟨⟨HS0, HS1, HS2⟩, Hg, Ho, ⟨%d0, H0⟩, ⟨%d1, H1⟩, ⟨%d2, H2⟩, ⟨%d3, H3⟩, ⟨%d4, H4⟩, ⟨%d5, H5⟩⟩
        iapply (run_first c Set.univ (grid0.coords t) hF hL _ _ _ _ _ _ _ _ _ _ _ _ _ _ _ _ _ _
          (xsrc m c t) (xdst m c t) (etag m c t) _ _ _ s1 s2 s3 _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      by_cases hz : t.val = 0
      · rw [PhiS_castSucc m c t, PhiS_zero m c _ _ hz, PhiA_eq]
        iintro ⟨⟨⟨⟨%s1, HS0⟩, ⟨%s2, HS1⟩, ⟨%s3, HS2⟩⟩, Hg⟩, Hrest⟩
        iapply (key s1 s2 s3)
        isplitl [HS0 HS1 HS2]
        · isplitl [HS0]; · iexact HS0
          isplitl [HS1]; · iexact HS1
          iexact HS2
        isplitl [Hg]; · iexact Hg
        iexact Hrest
      · rw [PhiS_castSucc m c t, PhiS_pos m c _ _ hz]
        iintro ⟨⟨⟨HS0, HS1, HS2⟩, Hg⟩, Hrest⟩
        iapply (key _ _ _)
        isplitl [HS0 HS1 HS2]
        · isplitl [HS0]; · iexact HS0
          isplitl [HS1]; · iexact HS1
          iexact HS2
        isplitl [Hg]; · iexact Hg
        iexact Hrest
    · -- a middle step
      have hz : t.val ≠ 0 := by omega
      have hF : ¬ isFirst (grid0.coords t) := fun h => hf ((isFirst_iff t).mp h)
      rw [accAt_next m c t hf]
      unfold stepAcc; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (run_mid c Set.univ (grid0.coords t) hF hL _ _ _ _ _ _ _ _ _ _ _ _ _ _ _ _ _ _
        (xsrc m c t) (xdst m c t) (etag m c t) _ _ _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 500 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of @main terminates, every array of the pipeline ending at what the proof data
    computes and every other unscoped buffer as the host lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Agg

end
-- ==== Proof.KernelIdeal.Main.lean ====
/- @main AROUND its one region, over Lib/Pipeline/FrameSuffix.lean, for a program whose host lines after the region are
   FIVE stretches of host operations (130 operations in all): @main reduced to the region continued by the later lines (`hmain`), what those lines may touch
   (`sfx_sub`, `sfx_fresh`, `sfx_keeps`), the nine argument arrays as the region finds them and as the lines leave them
   (`V_main_argK`, `W_main_argK`: no host operation writes an argument), each window's block at a point (`iblk`), the
   input windows' staging buffers (`before0_W_of`), and the frame claim's post from any frame run's (`frame_of`,
   `result_of`). Generic in the float instance. -/
import proofs.«414902_j80762565034490_2_alg».proof.Proof.Gen.KernelIdeal.Launch
import proofs.«414902_j80762565034490_2_alg».proof.Proof.Gen.KernelIdeal.Skeleton
import proofs.«414902_j80762565034490_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The references the host lines leave alone -/

/-- @main's nine argument arrays. -/
abbrev argRefs : List (Ref sig .tc) :=
  [main_arg0, main_arg1, main_arg2, main_arg3, main_arg4, main_arg5, main_arg6, main_arg7, main_arg8]

/-- The argument arrays and the six windows' arrays: what no host line AFTER the region writes. -/
abbrev keptRefs : List (Ref sig .tc) :=
  argRefs ++ [main_v25, main_v32, main_v33, main_v34_0, main_v34_1, main_v34_2]

/-- Every window's array is one of them. -/
theorem arrRef_mem_keptRefs : ∀ w, Pipeline.arrRef spec0 w ∈ keptRefs := by decide

/-- No window's array is an argument array. -/
theorem arrRef_ne_of_arg : ∀ b ∈ argRefs, ∀ w, Pipeline.arrRef spec0 w ≠ b := by decide

/-- References of a list all distinct from `y` are, as device buffers, distinct from `y`'s (which reference is which
    is decidable; which device buffer is which is not until the topology is fixed). -/
theorem ne_of_forall_ne {L : List (Ref sig .tc)} {y : Ref sig .tc} (h : ∀ b ∈ L, b ≠ y) :
    ∀ b ∈ L, ¬ Proc.devRef (τ := τ) .tc b = Proc.devRef .tc y :=
  fun b hb => StableHlo.devRef_ne_of_ne (h b hb)

/-! ## The stretches one by one: nothing allocated, no argument and no array written

Each host operation writes its own result buffer only, and no result buffer of a line is an argument array; after
the region none is a window's array either. -/

set_option maxHeartbeats 4000000 in
theorem hostOps0_fresh : (hostOps0 : List (HloOp τ sig (Elt F))).Forall fun op => op.fresh = ∅ := by
  simp only [List.Forall]; repeat' constructor
set_option maxHeartbeats 4000000 in
theorem hostOps0_keeps : (hostOps0 : List (HloOp τ sig (Elt F))).Forall fun op => ∀ b ∈ argRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)
set_option maxHeartbeats 4000000 in
theorem hostOps1_4_fresh : (hostOps1_4 : List (HloOp τ sig (Elt F))).Forall fun op => op.fresh = ∅ := by
  simp only [List.Forall]; repeat' constructor
set_option maxHeartbeats 4000000 in
theorem hostOps1_4_keeps : (hostOps1_4 : List (HloOp τ sig (Elt F))).Forall fun op => ∀ b ∈ keptRefs, Proc.devRef (τ := τ) .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact ne_of_forall_ne (by decide)

/-! ## @main around the region -/

/-- The five stretches of host operations after the region, in order. -/
abbrev tailOps : List (List (HloOp τ sig (Elt F))) := [hostOps1, hostOps1_1, hostOps1_2, hostOps1_3, hostOps1_4]

/-- A property of each of the five stretches is one of every stretch of the tail. -/
theorem forall_tailOps {p : List (HloOp τ sig (Elt F)) → Prop} (h0 : p hostOps1) (h1 : p hostOps1_1) (h2 : p hostOps1_2)
    (h3 : p hostOps1_3) (h4 : p hostOps1_4) : ∀ ops ∈ (tailOps : List (List (HloOp τ sig (Elt F)))), p ops := by
  intro ops hops
  simp only [tailOps, List.mem_cons, List.mem_nil_iff, List.not_mem_nil, or_false] at hops
  rcases hops with rfl | rfl | rfl | rfl | rfl <;> assumption

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- @main around the region, at any variants `𝒱₀`: the host lines before it, the region, the five stretches of host lines
    after it: it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_tailOps
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
/-- They allocate nothing. -/
theorem sfx_fresh : ∀ ops ∈ (tailOps : List (List (HloOp τ sig (Elt F)))), ∀ op ∈ ops, op.fresh = ∅ :=
  forall_tailOps (List.forall_iff_forall_mem.mp hostOps1_fresh) (List.forall_iff_forall_mem.mp hostOps1_1_fresh)
    (List.forall_iff_forall_mem.mp hostOps1_2_fresh) (List.forall_iff_forall_mem.mp hostOps1_3_fresh)
    (List.forall_iff_forall_mem.mp hostOps1_4_fresh)
/-- They write no argument array and no array of the pipeline. -/
theorem tail_keeps : ∀ ops ∈ (tailOps : List (List (HloOp τ sig (Elt F)))), ∀ op ∈ ops,
    ∀ b ∈ keptRefs, Proc.devRef (τ := τ) .tc b ∉ op.writes :=
  forall_tailOps (List.forall_iff_forall_mem.mp hostOps1_keeps) (List.forall_iff_forall_mem.mp hostOps1_1_keeps)
    (List.forall_iff_forall_mem.mp hostOps1_2_keeps) (List.forall_iff_forall_mem.mp hostOps1_3_keeps)
    (List.forall_iff_forall_mem.mp hostOps1_4_keeps)
/-- In particular no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arrRef_mem_keptRefs w)

/-- No host operation before the region writes an argument array: the region finds it as launched. -/
theorem V_of_arg (c : Dev nD) (b : Ref sig .tc) (hb : b ∈ argRefs) : V m c b = m ((c : Thread nD τ).loc b) :=
  StableHlo.after_of_forall_not_mem (b := Proc.devRef .tc b) _ _ (fun op hop => by
    rw [List.flatten_cons, List.flatten_nil, List.append_nil] at hop
    exact (List.forall_iff_forall_mem.mp hostOps0_keeps) op hop b hb)

/-- No host operation after the region writes an argument array, and the region moves only its windows' arrays: it ends
    as launched. -/
theorem W_of_arg (dats : (p : Fin 1) → (c : Dev nD) → Dat τ (Elt F) Unit ℕ (UR sig nD τ) ℕ (cfgs p) c) (c : Dev nD)
    (b : Ref sig .tc) (hb : b ∈ argRefs) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact tail_keeps ops hops op hop' b (List.mem_append_left _ hb)),
    Pipeline.withArrays_of_ne _ c (V0 m c) _ b (by exact arrRef_ne_of_arg b hb)]
  exact V_of_arg m c b hb

theorem V_main_arg0 (c : Dev nD) : V m c main_arg0 = m ((c : Thread nD τ).loc main_arg0) :=
  V_of_arg m c main_arg0 (by decide)
theorem V_main_arg1 (c : Dev nD) : V m c main_arg1 = m ((c : Thread nD τ).loc main_arg1) :=
  V_of_arg m c main_arg1 (by decide)
theorem V_main_arg2 (c : Dev nD) : V m c main_arg2 = m ((c : Thread nD τ).loc main_arg2) :=
  V_of_arg m c main_arg2 (by decide)
theorem V_main_arg3 (c : Dev nD) : V m c main_arg3 = m ((c : Thread nD τ).loc main_arg3) :=
  V_of_arg m c main_arg3 (by decide)
theorem V_main_arg4 (c : Dev nD) : V m c main_arg4 = m ((c : Thread nD τ).loc main_arg4) :=
  V_of_arg m c main_arg4 (by decide)
theorem V_main_arg5 (c : Dev nD) : V m c main_arg5 = m ((c : Thread nD τ).loc main_arg5) :=
  V_of_arg m c main_arg5 (by decide)
theorem V_main_arg6 (c : Dev nD) : V m c main_arg6 = m ((c : Thread nD τ).loc main_arg6) :=
  V_of_arg m c main_arg6 (by decide)
theorem V_main_arg7 (c : Dev nD) : V m c main_arg7 = m ((c : Thread nD τ).loc main_arg7) :=
  V_of_arg m c main_arg7 (by decide)
theorem V_main_arg8 (c : Dev nD) : V m c main_arg8 = m ((c : Thread nD τ).loc main_arg8) :=
  V_of_arg m c main_arg8 (by decide)

theorem W_main_arg0 (dats : (p : Fin 1) → (c : Dev nD) → Pipeline.Dat τ (Elt F) Unit ℕ (UR sig nD τ) ℕ (cfgs p) c) (c : Dev nD) :
    Pipeline.afterTail₀ cfgs dats 0 (V0 m) tailOps c main_arg0 = m ((c : Thread nD τ).loc main_arg0) :=
  W_of_arg m dats c main_arg0 (by decide)
theorem W_main_arg1 (dats : (p : Fin 1) → (c : Dev nD) → Pipeline.Dat τ (Elt F) Unit ℕ (UR sig nD τ) ℕ (cfgs p) c) (c : Dev nD) :
    Pipeline.afterTail₀ cfgs dats 0 (V0 m) tailOps c main_arg1 = m ((c : Thread nD τ).loc main_arg1) :=
  W_of_arg m dats c main_arg1 (by decide)
theorem W_main_arg2 (dats : (p : Fin 1) → (c : Dev nD) → Pipeline.Dat τ (Elt F) Unit ℕ (UR sig nD τ) ℕ (cfgs p) c) (c : Dev nD) :
    Pipeline.afterTail₀ cfgs dats 0 (V0 m) tailOps c main_arg2 = m ((c : Thread nD τ).loc main_arg2) :=
  W_of_arg m dats c main_arg2 (by decide)
theorem W_main_arg3 (dats : (p : Fin 1) → (c : Dev nD) → Pipeline.Dat τ (Elt F) Unit ℕ (UR sig nD τ) ℕ (cfgs p) c) (c : Dev nD) :
    Pipeline.afterTail₀ cfgs dats 0 (V0 m) tailOps c main_arg3 = m ((c : Thread nD τ).loc main_arg3) :=
  W_of_arg m dats c main_arg3 (by decide)
theorem W_main_arg4 (dats : (p : Fin 1) → (c : Dev nD) → Pipeline.Dat τ (Elt F) Unit ℕ (UR sig nD τ) ℕ (cfgs p) c) (c : Dev nD) :
    Pipeline.afterTail₀ cfgs dats 0 (V0 m) tailOps c main_arg4 = m ((c : Thread nD τ).loc main_arg4) :=
  W_of_arg m dats c main_arg4 (by decide)
theorem W_main_arg5 (dats : (p : Fin 1) → (c : Dev nD) → Pipeline.Dat τ (Elt F) Unit ℕ (UR sig nD τ) ℕ (cfgs p) c) (c : Dev nD) :
    Pipeline.afterTail₀ cfgs dats 0 (V0 m) tailOps c main_arg5 = m ((c : Thread nD τ).loc main_arg5) :=
  W_of_arg m dats c main_arg5 (by decide)
theorem W_main_arg6 (dats : (p : Fin 1) → (c : Dev nD) → Pipeline.Dat τ (Elt F) Unit ℕ (UR sig nD τ) ℕ (cfgs p) c) (c : Dev nD) :
    Pipeline.afterTail₀ cfgs dats 0 (V0 m) tailOps c main_arg6 = m ((c : Thread nD τ).loc main_arg6) :=
  W_of_arg m dats c main_arg6 (by decide)
theorem W_main_arg7 (dats : (p : Fin 1) → (c : Dev nD) → Pipeline.Dat τ (Elt F) Unit ℕ (UR sig nD τ) ℕ (cfgs p) c) (c : Dev nD) :
    Pipeline.afterTail₀ cfgs dats 0 (V0 m) tailOps c main_arg7 = m ((c : Thread nD τ).loc main_arg7) :=
  W_of_arg m dats c main_arg7 (by decide)
theorem W_main_arg8 (dats : (p : Fin 1) → (c : Dev nD) → Pipeline.Dat τ (Elt F) Unit ℕ (UR sig nD τ) ℕ (cfgs p) c) (c : Dev nD) :
    Pipeline.afterTail₀ cfgs dats 0 (V0 m) tailOps c main_arg8 = m ((c : Thread nD τ).loc main_arg8) :=
  W_of_arg m dats c main_arg8 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for ANY proof
    data whose array is `V`'s (`hA`) and whose body leaves the block in place (`hafter`): the window is an input, uncut
    and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data, a run to the frame post read at the argument arrays — each an
    unscoped buffer that is no window's array, so the post's second clause gives what the lines after the region leave
    there, which is what was launched — is the frame claim's post, at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-- The same with @main's result: its buffer `main_v139` is unscoped and no window's array either, so the run leaves it
    at what the lines after the region compute from the region's exit. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v139) = Pipeline.afterTail₀ cfgs dats 0 (V0 m) tailOps c main_v139
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c).2 main_v139 (Pipeline.mem_restRefs_of main_v139 (by decide) (by decide)),
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.KernelIdeal.Agg

end
-- ==== Proof.KernelIdeal.Body.lean ====
/-
  The kernel body's three behaviours. A grid point is (chunk, step) with 250 steps per chunk. At a chunk's first
  step the three accumulators (two 1024×200 sums and a 1×1024 count) are reset to zero; at every step each sum gains
  the product of the step's one-hot relation matrix (2000×1024, transposed) with the step's 2000×200 feature block and
  the count gains the one-hot matrix's column sums; at a chunk's last step the three accumulators are copied into the
  three output blocks.
-/
import proofs.«414902_j80762565034490_2_alg».proof.Proof.Gen.KernelIdeal.Launch
import proofs.«414902_j80762565034490_2_alg».proof.Proof.Gen.KernelIdeal.Skeleton
import proofs.«414902_j80762565034490_2_alg».proof.Proof.Gen.KernelIdeal.Points
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken exactly when the step coordinate is 0. -/
abbrev isFirst (i : grid0.Coords) : Prop :=
  (Scalar.cmpi .ne (Scalar.extui (Scalar.cmpi .eq (BitVec.ofNat 32 (i 1).val) 0#32)) 0#32) = 1#1
/-- The body's last branch is taken exactly when the step coordinate is 249. -/
abbrev isLast (i : grid0.Coords) : Prop := k0_cond2 i = 1#1

theorem isFirst_iff : ∀ t : Fin cfg0.N, isFirst (grid0.coords t) ↔ t.val % 250 = 0 :=
  (by decide +kernel : ∀ t : Fin grid0.N, isFirst (grid0.coords t) ↔ t.val % 250 = 0)
theorem isLast_iff : ∀ t : Fin cfg0.N, isLast (grid0.coords t) ↔ t.val % 250 = 249 :=
  (by decide +kernel : ∀ t : Fin grid0.N, isLast (grid0.coords t) ↔ t.val % 250 = 249)

/-- One step of a feature accumulator: the old sum plus (one-hot)ᵀ · block. -/
abbrev accStep (et : Vec F S2000x1 .i32) (s : Vec F S1024x200 .f32) (x : Vec F S2000x200 .bf16) : Vec F S1024x200 .f32 :=
  k0_pay10 et s x
/-- One step of the count accumulator: the old counts plus the one-hot matrix's column sums. -/
abbrev cntStep (et : Vec F S2000x1 .i32) (s : Vec F S1x1024 .f32) : Vec F S1x1024 .f32 :=
  k0_pay1 (k0_pay12 et s)
/-- The zero a feature accumulator is reset to, and the zero the count is reset to. -/
abbrev accZero : Vec F S1024x200 .f32 := k0_pay5
abbrev cntZero : Vec F S1x1024 .f32 := k0_pay7

section Whole
variable {Val : EltTy → Type} [∀ e, Nonempty (Val e)] {sg : RefSig} {κ : Kind} {sp : Space} {S : Shape} {e : EltTy}

/-- A buffer whose LAST write covers it whole reads back as that write's payload. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]
end Whole

theorem z2 : (![0, 0] : Fin 2 → ℕ) = fun _ => 0 := by funext a; fin_cases a <;> rfl
theorem z3 : (![0, 0, 0] : Fin 3 → ℕ) = fun _ => 0 := by funext a; fin_cases a <;> rfl

/-- What a buffer written whole holds, read back: open the run's names, take the last whole write's payload, and read
    every whole-rectangle load of an unchanged buffer as that buffer. -/
local macro "buf_value" : tactic => `(tactic| (
  ipureintro
  sl_unfold_run_names
  simp only [read_writes_whole (S := S1024x200) _ _ z2, read_writes_whole (S := S1x1024) _ _ z2,
    read_writes_whole (S := S1x1024x200) _ _ z3, read_writes_whole (S := S1x1x1024) _ _ z3, View.readAt_eq_ld, Memref.IsWhole.read_unread,
    View.readCov_unit_zero (S := S1024x200) _ z2, View.readCov_unit_zero (S := S1x1024) _ z2,
    View.ld_unit_zero (S := S2000x1) z2, View.ld_unit_zero (S := S1024x200) z2, View.ld_unit_zero (S := S2000x200) z2,
    View.ld_unit_zero (S := S1x1024) z2, View.ld_unit_zero (S := S1x1024x200) z3, View.ld_unit_zero (S := S1x1x1024) z3]
  try rfl))

set_option maxHeartbeats 4000000 in
/-- A middle step (neither first nor last of its chunk): the accumulators advance by one step, the output blocks and
    the inputs are left as they were. -/
theorem run_mid (c : Dev nD) (E : Set ℕ) (i : grid0.Coords) (hf : ¬ isFirst i) (hl : ¬ isLast i)
    (arg2 : Memref sig .tc .vmem S2000x200 .bf16) (harg2 : arg2.IsWhole) (arg3 : Memref sig .tc .vmem S2000x200 .bf16) (harg3 : arg3.IsWhole) (arg4 : Memref sig .tc .vmem S2000x1 .i32) (harg4 : arg4.IsWhole) (arg5 : Memref sig .tc .vmem S1x1024x200 .f32) (harg5 : arg5.IsWhole) (arg6 : Memref sig .tc .vmem S1x1024x200 .f32) (harg6 : arg6.IsWhole) (arg7 : Memref sig .tc .vmem S1x1x1024 .f32) (harg7 : arg7.IsWhole) (arg8 : Memref sig .tc .vmem S1024x200 .f32) (harg8 : arg8.IsWhole) (arg9 : Memref sig .tc .vmem S1024x200 .f32) (harg9 : arg9.IsWhole) (arg10 : Memref sig .tc .vmem S1x1024 .f32) (harg10 : arg10.IsWhole)
    (x1 x2 : Vec F S2000x200 .bf16) (et : Vec F S2000x1 .i32) (d5 d6 : Vec F S1x1024x200 .f32) (d7 : Vec F S1x1x1024 .f32)
    (s1 s2 : Vec F S1024x200 .f32) (s3 : Vec F S1x1024 .f32) (K : PUnit → sProp 𝕄) :
    iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare s1 ∗ owns (c : Thread nD τ) arg9 fullShare s2 ∗ owns (c : Thread nD τ) arg10 fullShare s3
        ∗ (iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare (accStep et s1 x1) ∗ owns (c : Thread nD τ) arg9 fullShare (accStep et s2 x2) ∗ owns (c : Thread nD τ) arg10 fullShare (cntStep et s3)) -∗ K ⟨⟩))
      ⊢ wp frame (wpE (defs₀ (F := F)) Variants.none c none) E (cc0__agg_kernel i arg2 harg2 arg3 harg3 arg4 harg4 arg5 harg5 arg6 harg6 arg7 harg7 arg8 harg8 arg9 harg9 arg10 harg10) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    buf_value
  isplitl [H9]
  · iexists _; isplitr
    swap; · iexact H9
    buf_value
  iexists _; isplitr
  swap; · iexact H10
  buf_value

set_option maxHeartbeats 4000000 in
/-- A chunk's first step: the accumulators are reset to zero and then advance by one step. -/
theorem run_first (c : Dev nD) (E : Set ℕ) (i : grid0.Coords) (hf : isFirst i) (hl : ¬ isLast i)
    (arg2 : Memref sig .tc .vmem S2000x200 .bf16) (harg2 : arg2.IsWhole) (arg3 : Memref sig .tc .vmem S2000x200 .bf16) (harg3 : arg3.IsWhole) (arg4 : Memref sig .tc .vmem S2000x1 .i32) (harg4 : arg4.IsWhole) (arg5 : Memref sig .tc .vmem S1x1024x200 .f32) (harg5 : arg5.IsWhole) (arg6 : Memref sig .tc .vmem S1x1024x200 .f32) (harg6 : arg6.IsWhole) (arg7 : Memref sig .tc .vmem S1x1x1024 .f32) (harg7 : arg7.IsWhole) (arg8 : Memref sig .tc .vmem S1024x200 .f32) (harg8 : arg8.IsWhole) (arg9 : Memref sig .tc .vmem S1024x200 .f32) (harg9 : arg9.IsWhole) (arg10 : Memref sig .tc .vmem S1x1024 .f32) (harg10 : arg10.IsWhole)
    (x1 x2 : Vec F S2000x200 .bf16) (et : Vec F S2000x1 .i32) (d5 d6 : Vec F S1x1024x200 .f32) (d7 : Vec F S1x1x1024 .f32)
    (s1 s2 : Vec F S1024x200 .f32) (s3 : Vec F S1x1024 .f32) (K : PUnit → sProp 𝕄) :
    iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare s1 ∗ owns (c : Thread nD τ) arg9 fullShare s2 ∗ owns (c : Thread nD τ) arg10 fullShare s3
        ∗ (iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare (accStep et accZero x1) ∗ owns (c : Thread nD τ) arg9 fullShare (accStep et accZero x2) ∗ owns (c : Thread nD τ) arg10 fullShare (cntStep et cntZero)) -∗ K ⟨⟩))
      ⊢ wp frame (wpE (defs₀ (F := F)) Variants.none c none) E (cc0__agg_kernel i arg2 harg2 arg3 harg3 arg4 harg4 arg5 harg5 arg6 harg6 arg7 harg7 arg8 harg8 arg9 harg9 arg10 harg10) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    buf_value
  isplitl [H9]
  · iexists _; isplitr
    swap; · iexact H9
    buf_value
  iexists _; isplitr
  swap; · iexact H10
  buf_value

set_option maxHeartbeats 4000000 in
/-- A chunk's last step: the accumulators advance by one step and are then copied into the three output blocks. -/
theorem run_last (c : Dev nD) (E : Set ℕ) (i : grid0.Coords) (hf : ¬ isFirst i) (hl : isLast i)
    (arg2 : Memref sig .tc .vmem S2000x200 .bf16) (harg2 : arg2.IsWhole) (arg3 : Memref sig .tc .vmem S2000x200 .bf16) (harg3 : arg3.IsWhole) (arg4 : Memref sig .tc .vmem S2000x1 .i32) (harg4 : arg4.IsWhole) (arg5 : Memref sig .tc .vmem S1x1024x200 .f32) (harg5 : arg5.IsWhole) (arg6 : Memref sig .tc .vmem S1x1024x200 .f32) (harg6 : arg6.IsWhole) (arg7 : Memref sig .tc .vmem S1x1x1024 .f32) (harg7 : arg7.IsWhole) (arg8 : Memref sig .tc .vmem S1024x200 .f32) (harg8 : arg8.IsWhole) (arg9 : Memref sig .tc .vmem S1024x200 .f32) (harg9 : arg9.IsWhole) (arg10 : Memref sig .tc .vmem S1x1024 .f32) (harg10 : arg10.IsWhole)
    (x1 x2 : Vec F S2000x200 .bf16) (et : Vec F S2000x1 .i32) (d5 d6 : Vec F S1x1024x200 .f32) (d7 : Vec F S1x1x1024 .f32)
    (s1 s2 : Vec F S1024x200 .f32) (s3 : Vec F S1x1024 .f32) (K : PUnit → sProp 𝕄) :
    iprop(owns (c : Thread nD τ) arg2 fullShare x1 ∗ owns (c : Thread nD τ) arg3 fullShare x2 ∗ owns (c : Thread nD τ) arg4 fullShare et ∗ owns (c : Thread nD τ) arg5 fullShare d5 ∗ owns (c : Thread nD τ) arg6 fullShare d6 ∗ owns (c : Thread nD τ) arg7 fullShare d7 ∗ owns (c : Thread nD τ) arg8 fullShare s1 ∗ owns (c : Thread nD τ) arg9 fullShare s2 ∗ owns (c : Thread nD τ) arg10 fullShare s3
        ∗ (iprop(owns (c : Thread nD τ) arg2 fullShare x1 ∗ owns (c : Thread nD τ) arg3 fullShare x2 ∗ owns (c : Thread nD τ) arg4 fullShare et ∗ owns (c : Thread nD τ) arg5 fullShare (k0_pay2 (accStep et s1 x1)) ∗ owns (c : Thread nD τ) arg6 fullShare (k0_pay3 (accStep et s2 x2)) ∗ owns (c : Thread nD τ) arg7 fullShare (k0_pay4 (cntStep et s3)) ∗ owns (c : Thread nD τ) arg8 fullShare (accStep et s1 x1) ∗ owns (c : Thread nD τ) arg9 fullShare (accStep et s2 x2) ∗ owns (c : Thread nD τ) arg10 fullShare (cntStep et s3)) -∗ K ⟨⟩))
      ⊢ wp frame (wpE (defs₀ (F := F)) Variants.none c none) E (cc0__agg_kernel i arg2 harg2 arg3 harg3 arg4 harg4 arg5 harg5 arg6 harg6 arg7 harg7 arg8 harg8 arg9 harg9 arg10 harg10) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    buf_value
  isplitl [H6]
  · iexists _; isplitr
    swap; · iexact H6
    buf_value
  isplitl [H7]
  · iexists _; isplitr
    swap; · iexact H7
    buf_value
  isplitl [H8]
  · iexists _; isplitr
    swap; · iexact H8
    buf_value
  isplitl [H9]
  · iexists _; isplitr
    swap; · iexact H9
    buf_value
  iexists _; isplitr
  swap; · iexact H10
  buf_value

end Cert.KernelIdeal.Agg

end
-- ==== Proof.KernelIdeal.Acc.lean ====
/-
  The aggregation's accumulators as pure data: the three blocks a grid point reads, one step of the three
  accumulators (two 1024×200 sums and a 1×1024 count), and what they hold after every point — a recursion on the point
  that restarts from zero at each chunk's first step.
-/
import proofs.«414902_j80762565034490_2_alg».proof.Proof.Gen.KernelIdeal.Launch
import proofs.«414902_j80762565034490_2_alg».proof.Proof.Gen.KernelIdeal.Skeleton
import proofs.«414902_j80762565034490_2_alg».proof.Proof.Gen.KernelIdeal.Points
import proofs.«414902_j80762565034490_2_alg».proof.Proof.KernelIdeal.Main
import proofs.«414902_j80762565034490_2_alg».proof.Proof.KernelIdeal.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a point reads, and the accumulators after each point -/

/-- The source-feature block, the destination-feature block and the relation-tag block of point `t`. -/
abbrev xsrc (c : Dev nD) (t : Fin cfg0.N) : Vec F S2000x200 .bf16 := iblk m c 0 t
abbrev xdst (c : Dev nD) (t : Fin cfg0.N) : Vec F S2000x200 .bf16 := iblk m c 1 t
abbrev etag (c : Dev nD) (t : Fin cfg0.N) : Vec F S2000x1 .i32 := iblk m c 2 t

/-- The three accumulators: source sums, destination sums, counts. -/
abbrev Acc (F : FTy → Type) : Type := Vec F S1024x200 .f32 × Vec F S1024x200 .f32 × Vec F S1x1024 .f32

/-- The accumulators advanced by point `t`'s blocks. -/
def stepAcc (c : Dev nD) (t : Fin cfg0.N) (s : Acc F) : Acc F :=
  (accStep (etag m c t) s.1 (xsrc m c t), accStep (etag m c t) s.2.1 (xdst m c t), cntStep (etag m c t) s.2.2)

/-- The accumulators at reset. -/
def zeroAcc : Acc F := (accZero, accZero, cntZero)

/-- The accumulators after point `n`: at a chunk's first step they restart from zero. -/
def accAt (c : Dev nD) : (n : ℕ) → n < cfg0.N → Acc F
  | 0, hn => stepAcc m c ⟨0, hn⟩ zeroAcc
  | n + 1, hn =>
    if (n + 1) % 250 = 0 then stepAcc m c ⟨n + 1, hn⟩ zeroAcc
    else stepAcc m c ⟨n + 1, hn⟩ (accAt c n (Nat.lt_of_succ_lt hn))

theorem accAt_first (c : Dev nD) (t : Fin cfg0.N) (h : t.val % 250 = 0) :
    accAt m c t.val t.isLt = stepAcc m c t zeroAcc := by
  obtain ⟨n, hn⟩ := t
  cases n with
  | zero => rfl
  | succ n => exact if_pos h

theorem accAt_next (c : Dev nD) (t : Fin cfg0.N) (h : ¬ t.val % 250 = 0) :
    accAt m c t.val t.isLt = stepAcc m c t (accAt m c (t.val - 1) (Nat.lt_of_le_of_lt (Nat.sub_le _ _) t.isLt)) := by
  obtain ⟨n, hn⟩ := t
  cases n with
  | zero => exact absurd (Nat.zero_mod _) h
  | succ n => exact if_neg h

/-- The accumulators after a point do not depend on how the point's bound is proved. -/
theorem accAt_congr (c : Dev nD) {n n' : ℕ} (h : n = n') (hn : n < cfg0.N) (hn' : n' < cfg0.N) :
    accAt m c n hn = accAt m c n' hn' := by subst h; rfl

end Cert.KernelIdeal.Agg

end
-- ==== Proof.KernelIdeal.Frame.lean ====
/-
  The frame run of the aggregation program: its one region accumulates, chunk by chunk, two 1024×200 sums and a
  1×1024 count in three scratch buffers carried from grid point to grid point, and copies them into the output blocks at
  each chunk's last step. Here: what the scratch buffers hold after every point (a recursion on the point), the
  region invariant that carries them, the body's triple at every point from its three behaviours, and the launch.
-/
import proofs.«414902_j80762565034490_2_alg».proof.Proof.Gen.KernelIdeal.Launch
import proofs.«414902_j80762565034490_2_alg».proof.Proof.Gen.KernelIdeal.Skeleton
import proofs.«414902_j80762565034490_2_alg».proof.Proof.Gen.KernelIdeal.Points
import proofs.«414902_j80762565034490_2_alg».proof.Proof.KernelIdeal.Acc
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers and the region invariant -/

abbrev scM0 : Memref sig .tc .vmem S1024x200 .f32 := Memref.whole cc0_scratch0
abbrev scM1 : Memref sig .tc .vmem S1024x200 .f32 := Memref.whole cc0_scratch1
abbrev scM2 : Memref sig .tc .vmem S1x1024 .f32 := Memref.whole cc0_scratch2

/-- What the launch hands the region: the three scratch buffers at anything, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: before the first point what the launch hands over; afterwards the scratch
    buffers at the accumulators the point before left. -/
def PhiS (c : Dev nD) : (n : ℕ) → n ≤ cfg0.N → sProp 𝕄
  | 0, _ => Pipeline.ΦA spec0 c
  | n + 1, hn => iprop(iprop(owns (c : Thread nD τ) scM0 fullShare (accAt m c n hn).1
      ∗ owns (c : Thread nD τ) scM1 fullShare (accAt m c n hn).2.1
      ∗ owns (c : Thread nD τ) scM2 fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (accAt m c n hn).1
      ∗ owns (c : Thread nD τ) scM1 fullShare (accAt m c n hn).2.1
      ∗ owns (c : Thread nD τ) scM2 fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0 fullShare (accAt m c (n - 1) (by omega)).1
      ∗ owns (c : Thread nD τ) scM1 fullShare (accAt m c (n - 1) (by omega)).2.1
      ∗ owns (c : Thread nD τ) scM2 fullShare (accAt m c (n - 1) (by omega)).2.2) ∗ (∃ r, prngReg c r)) := by
  cases n with
  | zero => exact absurd rfl hz
  | succ n => rfl

/-! ## The proof data -/

/-- The arrays as the region finds them; after the body at point `t` each input's buffer at its block and each
    output's at the corresponding accumulator after `t` (consulted only at a chunk's last step, where the body stores
    it); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accAt m c t.val t.isLt).1
    | ⟨4, _⟩ => k0_pay3 (accAt m c t.val t.isLt).2.1
    | ⟨5, _⟩ => k0_pay4 (accAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (accAt m c t.val t.isLt).1 := by dsimp only [dats]
theorem after0_4 (c : Dev nD) (t : Fin cfg0.N) : (dats m 0 c).after 4 t = k0_pay3 (accAt m c t.val t.isLt).2.1 := by dsimp only [dats]
theorem after0_5 (c : Dev nD) (t : Fin cfg0.N) : (dats m 0 c).after 5 t = k0_pay4 (accAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ isLast (grid0.coords t) → cfg0.idle 3 (grid0.coords t) = true := by decide +kernel
theorem idle4 : ∀ t : Fin cfg0.N, ¬ isLast (grid0.coords t) → cfg0.idle 4 (grid0.coords t) = true := by decide +kernel
theorem idle5 : ∀ t : Fin cfg0.N, ¬ isLast (grid0.coords t) → cfg0.idle 5 (grid0.coords t) = true := by decide +kernel
theorem noFlush3 : ∀ t : Fin cfg0.N, ¬ isLast (grid0.coords t) → (cfg0.win 3).flush t = false := by decide +kernel
theorem noFlush4 : ∀ t : Fin cfg0.N, ¬ isLast (grid0.coords t) → (cfg0.win 4).flush t = false := by decide +kernel
theorem noFlush5 : ∀ t : Fin cfg0.N, ¬ isLast (grid0.coords t) → (cfg0.win 5).flush t = false := by decide +kernel
theorem live3 : ∀ t : Fin cfg0.N, isLast (grid0.coords t) → cfg0.idle 3 (grid0.coords t) = false := by decide +kernel
theorem live4 : ∀ t : Fin cfg0.N, isLast (grid0.coords t) → cfg0.idle 4 (grid0.coords t) = false := by decide +kernel
theorem live5 : ∀ t : Fin cfg0.N, isLast (grid0.coords t) → cfg0.idle 5 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 (c : Dev nD) (t : Fin cfg0.N) :
    (dats m 0 c).leavesExact 0 t = owns (c : Thread nD τ) (st0_0 t) fullShare (iblk m c 0 t) := by
  unfold Dat.leavesExact; rw [live0 t, after0_0]
theorem leaves_in1 (c : Dev nD) (t : Fin cfg0.N) :
    (dats m 0 c).leavesExact 1 t = owns (c : Thread nD τ) (st0_1 t) fullShare (iblk m c 1 t) := by
  unfold Dat.leavesExact; rw [live1 t, after0_1]
theorem leaves_in2 (c : Dev nD) (t : Fin cfg0.N) :
    (dats m 0 c).leavesExact 2 t = owns (c : Thread nD τ) (st0_2 t) fullShare (iblk m c 2 t) := by
  unfold Dat.leavesExact; rw [live2 t, after0_2]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, leaves_in0, leaves_in1, leaves_in2]
  rw [show (dats m 0 c).owesAt () t.succ = (dats m 0 c).owesAt () t.castSucc from rfl]
  rw [show (dats m 0 c).Φ t.succ = PhiS m c (t.val + 1) t.isLt from rfl, PhiS_succ]
  have hN : t.val < 500 := lt_of_lt_of_eq t.isLt (show cfg0.N = 500 from N_0)
  by_cases hl : t.val % 250 = 249
  · -- a chunk's last step
    have hf : ¬ t.val % 250 = 0 := by omega
    have hz : t.val ≠ 0 := by omega
    have hF : ¬ isFirst (grid0.coords t) := fun h => hf ((isFirst_iff t).mp h)
    have hL : isLast (grid0.coords t) := (isLast_iff t).mpr hl
    rw [show (dats m 0 c).leavesExact 3 t = owns (c : Thread nD τ) (st0_3 t) fullShare ((dats m 0 c).after 3 t) from by
      unfold Dat.leavesExact; rw [live3 t hL], after0_3]
    rw [show (dats m 0 c).leavesExact 4 t = owns (c : Thread nD τ) (st0_4 t) fullShare ((dats m 0 c).after 4 t) from by
      unfold Dat.leavesExact; rw [live4 t hL], after0_4]
    rw [show (dats m 0 c).leavesExact 5 t = owns (c : Thread nD τ) (st0_5 t) fullShare ((dats m 0 c).after 5 t) from by
      unfold Dat.leavesExact; rw [live5 t hL], after0_5]
    rw [accAt_next m c t hf]
    unfold stepAcc; dsimp only
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (run_last c Set.univ (grid0.coords t) hF hL _ _ _ _ _ _ _ _ _ _ _ _ _ _ _ _ _ _
      (xsrc m c t) (xdst m c t) (etag m c t) _ _ _ _ _ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · have hL : ¬ isLast (grid0.coords t) := fun h => hl ((isLast_iff t).mp h)
    rw [Dat.leavesExact_idle (dats m 0 c) 3 t (idle3 t hL) (noFlush3 t hL),
      Dat.leavesExact_idle (dats m 0 c) 4 t (idle4 t hL) (noFlush4 t hL),
      Dat.leavesExact_idle (dats m 0 c) 5 t (idle5 t hL) (noFlush5 t hL)]
    by_cases hf : t.val % 250 = 0
    · -- a chunk's first step
      have hF : isFirst (grid0.coords t) := (isFirst_iff t).mpr hf
      rw [accAt_first m c t hf]
      unfold stepAcc zeroAcc; dsimp only
      have key : ∀ (s1 s2 : Vec F S1024x200 .f32) (s3 : Vec F S1x1024 .f32),
          iprop(iprop(owns (c : Thread nD τ) scM0 fullShare s1 ∗ owns (c : Thread nD τ) scM1 fullShare s2
              ∗ owns (c : Thread nD τ) scM2 fullShare s3) ∗ (∃ r, prngReg c r)
            ∗ (dats m 0 c).owesAt () t.castSucc
            ∗ (∃ d : (cfg0.win 0).block.Idx → Elt F (cfg0.win 0).elt, owns (c : Thread nD τ) (st0_0 t) fullShare (iblk m c 0 t))
            ∗ (∃ d : (cfg0.win 1).block.Idx → Elt F (cfg0.win 1).elt, owns (c : Thread nD τ) (st0_1 t) fullShare (iblk m c 1 t))
            ∗ (∃ d : (cfg0.win 2).block.Idx → Elt F (cfg0.win 2).elt, owns (c : Thread nD τ) (st0_2 t) fullShare (iblk m c 2 t))
            ∗ (∃ d, owns (c : Thread nD τ) (st0_3 t) fullShare ((dats m 0 c).before 3 t d))
            ∗ (∃ d, owns (c : Thread nD τ) (st0_4 t) fullShare ((dats m 0 c).before 4 t d))
            ∗ (∃ d, owns (c : Thread nD τ) (st0_5 t) fullShare ((dats m 0 c).before 5 t d)))
          ⊢ wp frame (wpE (defs₀ (F := F)) Variants.none c none) Set.univ (bodyAt0 t) (fun _ =>
            iprop(iprop(iprop(owns (c : Thread nD τ) scM0 fullShare (accStep (etag m c t) accZero (xsrc m c t))
                ∗ owns (c : Thread nD τ) scM1 fullShare (accStep (etag m c t) accZero (xdst m c t))
                ∗ owns (c : Thread nD τ) scM2 fullShare (cntStep (etag m c t) cntZero)) ∗ (∃ r, prngReg c r))
              ∗ (dats m 0 c).owesAt () t.castSucc
              ∗ owns (c : Thread nD τ) (st0_0 t) fullShare (iblk m c 0 t)
              ∗ owns (c : Thread nD τ) (st0_1 t) fullShare (iblk m c 1 t)
              ∗ owns (c : Thread nD τ) (st0_2 t) fullShare (iblk m c 2 t)
              ∗ (∃ d, owns (c : Thread nD τ) (st0_3 t) fullShare ((dats m 0 c).before 3 t d))
              ∗ (∃ d, owns (c : Thread nD τ) (st0_4 t) fullShare ((dats m 0 c).before 4 t d))
              ∗ (∃ d, owns (c : Thread nD τ) (st0_5 t) fullShare ((dats m 0 c).before 5 t d)))) := by
        intro s1 s2 s3
        unfold bodyAt0
        iintro ⟨⟨HS0, HS1, HS2⟩, Hg, Ho, ⟨%d0, H0⟩, ⟨%d1, H1⟩, ⟨%d2, H2⟩, ⟨%d3, H3⟩, ⟨%d4, H4⟩, ⟨%d5, H5⟩⟩
        iapply (run_first c Set.univ (grid0.coords t) hF hL _ _ _ _ _ _ _ _ _ _ _ _ _ _ _ _ _ _
          (xsrc m c t) (xdst m c t) (etag m c t) _ _ _ s1 s2 s3 _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      by_cases hz : t.val = 0
      · rw [PhiS_castSucc m c t, PhiS_zero m c _ _ hz, PhiA_eq]
        iintro ⟨⟨⟨⟨%s1, HS0⟩, ⟨%s2, HS1⟩, ⟨%s3, HS2⟩⟩, Hg⟩, Hrest⟩
        iapply (key s1 s2 s3)
        isplitl [HS0 HS1 HS2]
        · isplitl [HS0]; · iexact HS0
          isplitl [HS1]; · iexact HS1
          iexact HS2
        isplitl [Hg]; · iexact Hg
        iexact Hrest
      · rw [PhiS_castSucc m c t, PhiS_pos m c _ _ hz]
        iintro ⟨⟨⟨HS0, HS1, HS2⟩, Hg⟩, Hrest⟩
        iapply (key _ _ _)
        isplitl [HS0 HS1 HS2]
        · isplitl [HS0]; · iexact HS0
          isplitl [HS1]; · iexact HS1
          iexact HS2
        isplitl [Hg]; · iexact Hg
        iexact Hrest
    · -- a middle step
      have hz : t.val ≠ 0 := by omega
      have hF : ¬ isFirst (grid0.coords t) := fun h => hf ((isFirst_iff t).mp h)
      rw [accAt_next m c t hf]
      unfold stepAcc; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (run_mid c Set.univ (grid0.coords t) hF hL _ _ _ _ _ _ _ _ _ _ _ _ _ _ _ _ _ _
        (xsrc m c t) (xdst m c t) (etag m c t) _ _ _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 500 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of @main terminates, every array of the pipeline ending at what the proof data
    computes and every other unscoped buffer as the host lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Agg

end
-- ==== Proof.KernelIdeal.StepValue.lean ====
/-
  The body's arithmetic read at an index, at the ideal values: floats are extended reals, every float operation is
  exact, and a change of float format is the identity.

  The one-hot matrix of a step has entry (e, r) equal to 1 when edge e's relation tag is r and to 0 otherwise. One step
  of a feature accumulator adds, at (r, d), the sum over the step's edges e of (one-hot at (e, r)) · (block at (e, d)),
  which is the sum of the block's entries (e, d) over the edges whose tag is r; one step of the count adds, at r, the
  number of those edges. In the extended reals 0 · x = 0 and 1 · x = x for EVERY x, the infinite ones included, so no
  finiteness is asked of the block. The values the accumulators are reset to are zero, and the copies into the output
  blocks keep every entry.
-/
import proofs.«414902_j80762565034490_2_alg».proof.Proof.KernelIdeal.Body
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## Words: a comparison bit widened and read as a number -/

/-- The equality bit of two words is 1 when they are equal and 0 otherwise. -/
theorem cmpi_eq_word (a b : BitVec 32) : IntOp.cmpi .eq a b = if a = b then 1#1 else 0#1 := by
  show BitVec.ofBool (a == b) = _
  by_cases h : a = b
  · rw [if_pos h, show (a == b) = true from beq_iff_eq.mpr h]; rfl
  · rw [if_neg h, show (a == b) = false from beq_eq_false_iff_ne.mpr h]; rfl

/-- The equality bit of two words, widened to 32 bits and read as a signed integer, is the number 1 when they are equal
    and the number 0 otherwise. -/
theorem onehot_word (a b : BitVec 32) :
    (FloatOps.sitofp (F := Ideal) .f32 ((IntOp.cmpi .eq a b).setWidth 32) : EReal) = if a = b then (1 : EReal) else 0 := by
  rw [cmpi_eq_word]
  by_cases h : a = b
  · rw [if_pos h, if_pos h]
    show ((((1#1 : BitVec 1).setWidth 32).toInt : ℝ) : EReal) = 1
    have e : ((1#1 : BitVec 1).setWidth 32).toInt = 1 := by decide
    rw [e]; simp
  · rw [if_neg h, if_neg h]
    show ((((0#1 : BitVec 1).setWidth 32).toInt : ℝ) : EReal) = 0
    have e : ((0#1 : BitVec 1).setWidth 32).toInt = 0 := by decide
    rw [e]; simp

/-! ## A column broadcast over many -/

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrix -/

/-- The comparison matrix at (e, r): the equality bit of edge e's tag and the word r. -/
theorem pay8_apply (et : Vec Ideal S2000x1 .i32) (e : Fin 2000) (r : Fin 1024) :
    k0_pay8 (F := Ideal) et (ix2 e r) = IntOp.cmpi .eq (et (ix2 e 0)) (BitVec.ofNat 32 r.val) := by
  unfold k0_pay8
  exact congrArg₂ (IntOp.cmpi .eq)
    ((broadcastTo_a1_ab_apply _ _ e r).trans (congrFun (shapeCast_self et _) _))
    (iota_single_apply .tc S2000x1024 32 1 iota_S2000x1024_d1_w32 (ix2 e r))

/-- The one-hot matrix as single-precision numbers, at (e, r): 1 when edge e's tag is r, else 0. -/
theorem onehot32_apply (et : Vec Ideal S2000x1 .i32) (e : Fin 2000) (r : Fin 1024) :
    (sitofp (F := Ideal) .f32 (extui 32 (k0_pay8 (F := Ideal) et) natLt_1_32) (ix2 e r) : EReal)
      = if et (ix2 e 0) = BitVec.ofNat 32 r.val then (1 : EReal) else 0 := by
  show (FloatOps.sitofp (F := Ideal) .f32 ((k0_pay8 (F := Ideal) et (ix2 e r)).setWidth 32) : EReal) = _
  rw [pay8_apply]
  exact onehot_word _ _

/-- The one-hot matrix the product takes (the same numbers in the narrower format), at (e, r). -/
theorem pay9_apply (et : Vec Ideal S2000x1 .i32) (e : Fin 2000) (r : Fin 1024) :
    (k0_pay9 (F := Ideal) et (ix2 e r) : EReal) = if et (ix2 e 0) = BitVec.ofNat 32 r.val then (1 : EReal) else 0 :=
  onehot32_apply et e r

/-! ## The product (one-hot)ᵀ · block: both operands contract their axis 0 -/

theorem lhs_mm_0 (i : S1024x200.Idx) (q : dot_S2000x1024_S2000x200_S1024x200_0_0_1_1_n_n.contr.Idx) :
    (dot_S2000x1024_S2000x200_S1024x200_0_0_1_1_n_n.lhsIdx i q 0).val = (q ⟨0, by decide⟩).val :=
  dot_S2000x1024_S2000x200_S1024x200_0_0_1_1_n_n.lhsIdx_val_of_single rfl i q
theorem lhs_mm_1 (i : S1024x200.Idx) (q : dot_S2000x1024_S2000x200_S1024x200_0_0_1_1_n_n.contr.Idx) :
    (dot_S2000x1024_S2000x200_S1024x200_0_0_1_1_n_n.lhsIdx i q 1).val = (i 0).val := by
  unfold DotDims.lhsIdx
  rw [dif_neg (show ¬(1 : Fin S2000x1024.rank) ∈ dot_S2000x1024_S2000x200_S1024x200_0_0_1_1_n_n.lhsBatch by decide), dif_pos (show (1 : Fin S2000x1024.rank) ∈ dot_S2000x1024_S2000x200_S1024x200_0_0_1_1_n_n.lhsNonContracting by decide)]
  rfl
theorem rhs_mm_0 (i : S1024x200.Idx) (q : dot_S2000x1024_S2000x200_S1024x200_0_0_1_1_n_n.contr.Idx) :
    (dot_S2000x1024_S2000x200_S1024x200_0_0_1_1_n_n.rhsIdx i q 0).val = (q ⟨0, by decide⟩).val :=
  dot_S2000x1024_S2000x200_S1024x200_0_0_1_1_n_n.rhsIdx_val_of_single rfl i q
theorem rhs_mm_1 (i : S1024x200.Idx) (q : dot_S2000x1024_S2000x200_S1024x200_0_0_1_1_n_n.contr.Idx) :
    (dot_S2000x1024_S2000x200_S1024x200_0_0_1_1_n_n.rhsIdx i q 1).val = (i 1).val := by
  unfold DotDims.rhsIdx
  rw [dif_neg (show ¬(1 : Fin S2000x200.rank) ∈ dot_S2000x1024_S2000x200_S1024x200_0_0_1_1_n_n.rhsBatch by decide), dif_pos (show (1 : Fin S2000x200.rank) ∈ dot_S2000x1024_S2000x200_S1024x200_0_0_1_1_n_n.rhsNonContracting by decide)]
  rfl

/-- The product into a zero accumulator, at (r, d): the sum over the edges e of left (e, r) times right (e, d). -/
theorem mm_apply (L : FVec Ideal S2000x1024 .bf16) (R : FVec Ideal S2000x200 .bf16) (r : Fin 1024) (d : Fin 200) :
    matmul dot_S2000x1024_S2000x200_S1024x200_0_0_1_1_n_n none L R (constant (F := Ideal) S1024x200 .f32 0x00000000#32) (ix2 r d)
      = ∑ e : Fin 2000, L (ix2 e r) * R (ix2 e d) := by
  simp only [matmul]
  rw [Ideal.matmul_constant_zero_apply, ← Equiv.sum_comp (contrEquiv1 dot_S2000x1024_S2000x200_S1024x200_0_0_1_1_n_n 2000 rfl rfl).symm]
  refine Finset.sum_congr rfl fun k _ => ?_
  have hk := contrEquiv1_symm_val dot_S2000x1024_S2000x200_S1024x200_0_0_1_1_n_n 2000 rfl rfl k
  have el : dot_S2000x1024_S2000x200_S1024x200_0_0_1_1_n_n.lhsIdx (ix2 r d) ((contrEquiv1 dot_S2000x1024_S2000x200_S1024x200_0_0_1_1_n_n 2000 rfl rfl).symm k) = ix2 k r := funext fun a => Fin.ext (by
    match a with
    | ⟨0, _⟩ => exact (lhs_mm_0 _ _).trans hk
    | ⟨1, _⟩ => exact lhs_mm_1 _ _)
  have er : dot_S2000x1024_S2000x200_S1024x200_0_0_1_1_n_n.rhsIdx (ix2 r d) ((contrEquiv1 dot_S2000x1024_S2000x200_S1024x200_0_0_1_1_n_n 2000 rfl rfl).symm k) = ix2 k d := funext fun a => Fin.ext (by
    match a with
    | ⟨0, _⟩ => exact (rhs_mm_0 _ _).trans hk
    | ⟨1, _⟩ => exact rhs_mm_1 _ _)
  rw [el, er]

/-! ## The column sums of the one-hot matrix -/

/-- A sum over the rows of a 2000 × 1024 matrix, at column r: the sum over e of the entries (e, r). -/
theorem colsum_apply (v : FVec Ideal S2000x1024 .f32) (hφ : FKind.Formats .f32)
    (hacc : (0x00000000#32 : BitVec 32) = FKind.add.neutral .f32 hφ) (r : Fin 1024) :
    multiReduction (F := Ideal) .add [0] S1024 v 0x00000000#32 reduces_S2000x1024_S1024 hφ hacc (ix1 r) = ∑ e : Fin 2000, v (ix2 e r) := by
  refine (Ideal.multiReduction_add_single v 0x00000000#32 reduces_S2000x1024_S1024 hφ hacc (ix1 r)).trans ?_
  show ∑ e : Fin 2000, v (reduces_S2000x1024_S1024.lift (ix1 r) e) = _
  refine Finset.sum_congr rfl fun e _ => congrArg v (funext fun a => Fin.ext ?_)
  match a with
  | ⟨0, _⟩ => rfl
  | ⟨1, _⟩ => rfl

/-! ## The step functions, the reset values and the copies, at an index -/

/-- One step of a feature accumulator at (r, d): the old sum plus the block's entries (e, d) over the edges e whose
    tag is r. -/
theorem accStep_apply (et : Vec Ideal S2000x1 .i32) (s : Vec Ideal S1024x200 .f32) (x : Vec Ideal S2000x200 .bf16) (r : Fin 1024) (d : Fin 200) :
    accStep (F := Ideal) et s x (ix2 r d) = s (ix2 r d) + ∑ e : Fin 2000, (if et (ix2 e 0) = BitVec.ofNat 32 r.val then (x (ix2 e d) : EReal) else 0) := by
  show k0_pay10 (F := Ideal) et s x (ix2 r d) = _
  unfold k0_pay10
  simp only [shapeCast_self]
  show (s (ix2 r d) : EReal) + matmul dot_S2000x1024_S2000x200_S1024x200_0_0_1_1_n_n none (k0_pay9 (F := Ideal) et) x (constant (F := Ideal) S1024x200 .f32 0x00000000#32) (ix2 r d) = _
  rw [mm_apply]
  refine congrArg (s (ix2 r d) + ·) (Finset.sum_congr rfl fun e _ => ?_)
  rw [pay9_apply]
  split
  · exact one_mul _
  · exact zero_mul _

/-- One step of the count at r: the old count plus the number of edges whose tag is r. -/
theorem cntStep_apply (et : Vec Ideal S2000x1 .i32) (s : Vec Ideal S1x1024 .f32) (r : Fin 1024) :
    cntStep (F := Ideal) et s (ix2 0 r) = s (ix2 0 r) + ∑ e : Fin 2000, (if et (ix2 e 0) = BitVec.ofNat 32 r.val then (1 : EReal) else 0) := by
  show shapeCast S1x1024 (k0_pay12 (F := Ideal) et s) shapeCasts_S1x1024_S1x1024 (ix2 0 r) = _
  rw [shapeCast_self]
  show (s (ix2 0 r) : EReal) + shapeCast S1x1024 (multiReduction (F := Ideal) .add [0] S1024 (sitofp (F := Ideal) .f32 (extui 32 (k0_pay8 (F := Ideal) et) natLt_1_32)) 0x00000000#32 reduces_S2000x1024_S1024 (.inl rfl) rfl) shapeCasts_S1024_S1x1024 (ix2 0 r) = _
  refine congrArg (s (ix2 0 r) + ·) ?_
  refine (shapeCast_a_1a_apply _ _ 0 r).trans ?_
  refine (colsum_apply _ _ _ r).trans ?_
  exact Finset.sum_congr rfl fun e _ => onehot32_apply et e r

/-- The value a feature accumulator is reset to is zero everywhere. -/
theorem accZero_apply (j : S1024x200.Idx) : accZero (F := Ideal) j = (0 : EReal) := by
  show shapeCast S1024x200 (broadcast S1024x200 (FloatOps.ofBits (F := Ideal) .f32 0x00000000#32)) shapeCasts_S1024x200_S1024x200 j = 0
  rw [shapeCast_self]
  exact Ideal.ofBits_zero_f32

/-- The value the count is reset to is zero everywhere. -/
theorem cntZero_apply (j : S1x1024.Idx) : cntZero (F := Ideal) j = (0 : EReal) := by
  show shapeCast S1x1024 (broadcast S1x1024 (FloatOps.ofBits (F := Ideal) .f32 0x00000000#32)) shapeCasts_S1x1024_S1x1024 j = 0
  rw [shapeCast_self]
  exact Ideal.ofBits_zero_f32

/-- The copy of the first feature accumulator into its output block keeps every entry. -/
theorem pay2_apply (a : Vec Ideal S1024x200 .f32) (r : Fin 1024) (d : Fin 200) : k0_pay2 (F := Ideal) a (ix3 0 r d) = a (ix2 r d) :=
  shapeCast_ab_1ab_apply a shapeCasts_S1024x200_S1x1024x200 0 r d

/-- The copy of the second feature accumulator into its output block keeps every entry. -/
theorem pay3_apply (a : Vec Ideal S1024x200 .f32) (r : Fin 1024) (d : Fin 200) : k0_pay3 (F := Ideal) a (ix3 0 r d) = a (ix2 r d) :=
  shapeCast_ab_1ab_apply a shapeCasts_S1024x200_S1x1024x200 0 r d

/-- The copy of the count into its output block keeps every entry. -/
theorem pay4_apply (a : Vec Ideal S1x1024 .f32) (r : Fin 1024) : k0_pay4 (F := Ideal) a (ix3 0 0 r) = a (ix2 0 r) :=
  shapeCast_ab_1ab_apply a shapeCasts_S1x1024_S1x1x1024 0 0 r

end Cert.KernelIdeal.Agg

end
-- ==== Proof.KernelIdeal.Closed.lean ====
/-
  The aggregation's accumulators in closed form, over the extended reals.

  The three arrays the region reads — source features, destination features (1000000×200) and relation tags
  (1000000×1, 32-bit words) — are taken as functions of a natural row number (`Xs`, `Xd`, `Tg`; zero past the last
  row). Point `t` of the 2 × 250 grid reads rows `2000 t, …, 2000 t + 1999` of each (`xsrc_apply`, `xdst_apply`,
  `etag_apply`). After step `l` of chunk `k` the source sum at `(r, d)` is the sum, over the chunk's steps `l' ≤ l` and
  the 2000 rows of each step's block, of the source feature `d` of the rows whose tag is the word of `r`
  (`acc_src_closed`); likewise the destination sum (`acc_dst_closed`), and the count at `r` is the number of such rows
  (`acc_cnt_closed`).
-/
import proofs.«414902_j80762565034490_2_alg».proof.Proof.KernelIdeal.Acc
import proofs.«414902_j80762565034490_2_alg».proof.Proof.KernelIdeal.StepValue
import Idealize.ShloMosaic.Lib.ValueIdx
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-! ## The three arrays as functions of a natural row number -/

/-- The source features, row `E` (zero past the last row). -/
def Xs (c : Dev nD) (E : ℕ) (d : Fin 200) : EReal :=
  if h : E < 1000000 then (V m c main_v25 : S1000000x200.Idx → EReal) (ix2 ⟨E, h⟩ d) else 0
/-- The destination features, row `E` (zero past the last row). -/
def Xd (c : Dev nD) (E : ℕ) (d : Fin 200) : EReal :=
  if h : E < 1000000 then (V m c main_v32 : S1000000x200.Idx → EReal) (ix2 ⟨E, h⟩ d) else 0
/-- The relation tag of row `E` (the zero word past the last row). -/
def Tg (c : Dev nD) (E : ℕ) : BitVec 32 :=
  if h : E < 1000000 then (V m c main_v33 : S1000000x1.Idx → BitVec 32) (ix2 ⟨E, h⟩ 0) else 0

/-! ## A point's blocks are rows `2000 t, …, 2000 t + 1999` of the arrays -/

/-- The three input windows' block indices, decided over the grid: block `t` along the rows, block 0 along the
    columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The grid has 500 points. -/
theorem point_lt (t : Fin cfg0.N) : t.val < 500 := lt_of_lt_of_eq t.isLt N_0

/-- Row `e` of point `t`'s source block is row `2000 t + e` of the source features. -/
theorem xsrc_apply (c : Dev nD) (t : Fin cfg0.N) (e : Fin 2000) (d : Fin 200) :
    (xsrc (F := Ideal) m c t (ix2 e d) : EReal) = Xs m c (2000 * t.val + e.val) d := by
  have ht := point_lt t
  obtain ⟨e0, e1, -⟩ := idx_facts t
  have hlt : 2000 * t.val + e.val < 1000000 := by omega
  unfold Xs
  rw [dif_pos hlt]
  show V m c main_v25 (((cfg0.win 0).blk t).view.emb (ix2 e d)) = V m c main_v25 (ix2 ⟨2000 * t.val + e.val, hlt⟩ d)
  refine congrArg _ ?_
  funext a; apply Fin.ext
  match a with
  | ⟨0, _⟩ => show win0_0.index t (0 : Fin 2) * 2000 + 1 * e.val = 2000 * t.val + e.val; omega
  | ⟨1, _⟩ => show win0_0.index t (1 : Fin 2) * 200 + 1 * d.val = d.val; omega

/-- Row `e` of point `t`'s destination block is row `2000 t + e` of the destination features. -/
theorem xdst_apply (c : Dev nD) (t : Fin cfg0.N) (e : Fin 2000) (d : Fin 200) :
    (xdst (F := Ideal) m c t (ix2 e d) : EReal) = Xd m c (2000 * t.val + e.val) d := by
  have ht := point_lt t
  obtain ⟨-, -, e0, e1, -⟩ := idx_facts t
  have hlt : 2000 * t.val + e.val < 1000000 := by omega
  unfold Xd
  rw [dif_pos hlt]
  show V m c main_v32 (((cfg0.win 1).blk t).view.emb (ix2 e d)) = V m c main_v32 (ix2 ⟨2000 * t.val + e.val, hlt⟩ d)
  refine congrArg _ ?_
  funext a; apply Fin.ext
  match a with
  | ⟨0, _⟩ => show win0_1.index t (0 : Fin 2) * 2000 + 1 * e.val = 2000 * t.val + e.val; omega
  | ⟨1, _⟩ => show win0_1.index t (1 : Fin 2) * 200 + 1 * d.val = d.val; omega

/-- Entry `e` of point `t`'s tag block is the tag of row `2000 t + e`. -/
theorem etag_apply (c : Dev nD) (t : Fin cfg0.N) (e : Fin 2000) :
    etag (F := Ideal) m c t (ix2 e 0) = Tg m c (2000 * t.val + e.val) := by
  have ht := point_lt t
  obtain ⟨-, -, -, -, e0, e1⟩ := idx_facts t
  have hlt : 2000 * t.val + e.val < 1000000 := by omega
  unfold Tg
  rw [dif_pos hlt]
  show V m c main_v33 (((cfg0.win 2).blk t).view.emb (ix2 e 0)) = V m c main_v33 (ix2 ⟨2000 * t.val + e.val, hlt⟩ 0)
  refine congrArg _ ?_
  funext a; apply Fin.ext
  match a with
  | ⟨0, _⟩ => show win0_2.index t (0 : Fin 2) * 2000 + 1 * e.val = 2000 * t.val + e.val; omega
  | ⟨1, _⟩ => show win0_2.index t (1 : Fin 2) * 1 + 1 * (0 : Fin 1).val = (0 : Fin 1).val; omega

/-! ## One point's step, in terms of the arrays -/

/-- The source sums after point `t`: each row `r` gains the source rows of block `t` whose tag is `r`. -/
theorem stepAcc_src (c : Dev nD) (t : Fin cfg0.N) (s : Acc Ideal) (r : Fin 1024) (d : Fin 200) :
    (stepAcc m c t s).1 (ix2 r d) = s.1 (ix2 r d)
      + ∑ e : Fin 2000, (if Tg m c (2000 * t.val + e.val) = BitVec.ofNat 32 r.val then Xs m c (2000 * t.val + e.val) d else 0) := by
  show accStep (etag m c t) s.1 (xsrc m c t) (ix2 r d) = _
  rw [accStep_apply]
  refine congrArg _ (Finset.sum_congr rfl fun e _ => ?_)
  rw [etag_apply, xsrc_apply]

/-- The destination sums after point `t`. -/
theorem stepAcc_dst (c : Dev nD) (t : Fin cfg0.N) (s : Acc Ideal) (r : Fin 1024) (d : Fin 200) :
    (stepAcc m c t s).2.1 (ix2 r d) = s.2.1 (ix2 r d)
      + ∑ e : Fin 2000, (if Tg m c (2000 * t.val + e.val) = BitVec.ofNat 32 r.val then Xd m c (2000 * t.val + e.val) d else 0) := by
  show accStep (etag m c t) s.2.1 (xdst m c t) (ix2 r d) = _
  rw [accStep_apply]
  refine congrArg _ (Finset.sum_congr rfl fun e _ => ?_)
  rw [etag_apply, xdst_apply]

/-- The counts after point `t`: row `r` gains the number of rows of block `t` whose tag is `r`. -/
theorem stepAcc_cnt (c : Dev nD) (t : Fin cfg0.N) (s : Acc Ideal) (r : Fin 1024) :
    (stepAcc m c t s).2.2 (ix2 0 r) = s.2.2 (ix2 0 r)
      + ∑ e : Fin 2000, (if Tg m c (2000 * t.val + e.val) = BitVec.ofNat 32 r.val then (1 : EReal) else 0) := by
  show cntStep (etag m c t) s.2.2 (ix2 0 r) = _
  rw [cntStep_apply]
  refine congrArg _ (Finset.sum_congr rfl fun e _ => ?_)
  rw [etag_apply]

/-! ## The accumulators after step `l` of chunk `k`: sums over the chunk's rows so far -/

/-- Within a chunk a later step continues from the step before it. -/
theorem accAt_succ (c : Dev nD) (n : ℕ) (hn : n + 1 < cfg0.N) (h : ¬ (n + 1) % 250 = 0) :
    accAt m c (n + 1) hn = stepAcc m c ⟨n + 1, hn⟩ (accAt m c n (Nat.lt_of_succ_lt hn)) :=
  accAt_next m c ⟨n + 1, hn⟩ h

/-- All three accumulators after step `l` of chunk `k`, by induction on the step: the chunk's first step starts from
    zero, every later step adds its block's contribution to the sums so far. -/
theorem accAt_closed (c : Dev nD) (k : Fin 2) (l : ℕ) (hl : l < 250) (hn : 250 * k.val + l < cfg0.N) :
    (∀ (r : Fin 1024) (d : Fin 200), (accAt (F := Ideal) m c (250 * k.val + l) hn).1 (ix2 r d)
        = ∑ l' ∈ Finset.range (l + 1), ∑ e : Fin 2000, (if Tg m c (2000 * (250 * k.val + l') + e.val) = BitVec.ofNat 32 r.val then Xs m c (2000 * (250 * k.val + l') + e.val) d else 0))
    ∧ (∀ (r : Fin 1024) (d : Fin 200), (accAt (F := Ideal) m c (250 * k.val + l) hn).2.1 (ix2 r d)
        = ∑ l' ∈ Finset.range (l + 1), ∑ e : Fin 2000, (if Tg m c (2000 * (250 * k.val + l') + e.val) = BitVec.ofNat 32 r.val then Xd m c (2000 * (250 * k.val + l') + e.val) d else 0))
    ∧ (∀ r : Fin 1024, (accAt (F := Ideal) m c (250 * k.val + l) hn).2.2 (ix2 0 r)
        = ∑ l' ∈ Finset.range (l + 1), ∑ e : Fin 2000, (if Tg m c (2000 * (250 * k.val + l') + e.val) = BitVec.ofNat 32 r.val then (1 : EReal) else 0)) := by
  induction l with
  | zero =>
    have h0 : accAt m c (250 * k.val + 0) hn = stepAcc m c ⟨250 * k.val + 0, hn⟩ zeroAcc :=
      accAt_first m c ⟨250 * k.val + 0, hn⟩ (by show (250 * k.val + 0) % 250 = 0; omega)
    rw [h0]
    refine ⟨fun r d => ?_, fun r d => ?_, fun r => ?_⟩
    · rw [stepAcc_src, Finset.sum_range_one]
      show accZero (F := Ideal) (ix2 r d) + _ = _
      rw [accZero_apply, zero_add]
    · rw [stepAcc_dst, Finset.sum_range_one]
      show accZero (F := Ideal) (ix2 r d) + _ = _
      rw [accZero_apply, zero_add]
    · rw [stepAcc_cnt, Finset.sum_range_one]
      show cntZero (F := Ideal) (ix2 0 r) + _ = _
      rw [cntZero_apply, zero_add]
  | succ l ih =>
    have hn' : 250 * k.val + l < cfg0.N := Nat.lt_of_succ_lt hn
    obtain ⟨ih1, ih2, ih3⟩ := ih (Nat.lt_of_succ_lt hl) hn'
    have hs : accAt m c (250 * k.val + (l + 1)) hn = stepAcc m c ⟨250 * k.val + l + 1, hn⟩ (accAt m c (250 * k.val + l) hn') :=
      accAt_succ m c (250 * k.val + l) hn (by omega)
    rw [hs]
    refine ⟨fun r d => ?_, fun r d => ?_, fun r => ?_⟩
    · rw [stepAcc_src, ih1, Finset.sum_range_succ _ (l + 1)]; rfl
    · rw [stepAcc_dst, ih2, Finset.sum_range_succ _ (l + 1)]; rfl
    · rw [stepAcc_cnt, ih3, Finset.sum_range_succ _ (l + 1)]; rfl

/-- The source sums after step `l` of chunk `k`. -/
theorem acc_src_closed (c : Dev nD) (k : Fin 2) (l : ℕ) (hl : l < 250) (hn : 250 * k.val + l < cfg0.N) (r : Fin 1024) (d : Fin 200) :
    (accAt (F := Ideal) m c (250 * k.val + l) hn).1 (ix2 r d)
      = ∑ l' ∈ Finset.range (l + 1), ∑ e : Fin 2000, (if Tg m c (2000 * (250 * k.val + l') + e.val) = BitVec.ofNat 32 r.val then Xs m c (2000 * (250 * k.val + l') + e.val) d else 0) :=
  (accAt_closed m c k l hl hn).1 r d

/-- The destination sums after step `l` of chunk `k`. -/
theorem acc_dst_closed (c : Dev nD) (k : Fin 2) (l : ℕ) (hl : l < 250) (hn : 250 * k.val + l < cfg0.N) (r : Fin 1024) (d : Fin 200) :
    (accAt (F := Ideal) m c (250 * k.val + l) hn).2.1 (ix2 r d)
      = ∑ l' ∈ Finset.range (l + 1), ∑ e : Fin 2000, (if Tg m c (2000 * (250 * k.val + l') + e.val) = BitVec.ofNat 32 r.val then Xd m c (2000 * (250 * k.val + l') + e.val) d else 0) :=
  (accAt_closed m c k l hl hn).2.1 r d

/-- The counts after step `l` of chunk `k`. -/
theorem acc_cnt_closed (c : Dev nD) (k : Fin 2) (l : ℕ) (hl : l < 250) (hn : 250 * k.val + l < cfg0.N) (r : Fin 1024) :
    (accAt (F := Ideal) m c (250 * k.val + l) hn).2.2 (ix2 0 r)
      = ∑ l' ∈ Finset.range (l + 1), ∑ e : Fin 2000, (if Tg m c (2000 * (250 * k.val + l') + e.val) = BitVec.ofNat 32 r.val then (1 : EReal) else 0) :=
  (accAt_closed m c k l hl hn).2.2 r

end Cert.KernelIdeal.Agg

end
-- ==== Proof.KernelIdeal.Final.lean ====
/-
  The three output arrays after the run. Output block `chunk` is written back once, at the chunk's last step
  (points 249 and 499), with the accumulators of that step; the two blocks tile the array. So every output array,
  read at (chunk, row, column), is the accumulator after point 250·chunk + 249 read at (row, column).
-/
import proofs.«414902_j80762565034490_2_alg».proof.Proof.Gen.KernelIdeal.Launch
import proofs.«414902_j80762565034490_2_alg».proof.Proof.Gen.KernelIdeal.Skeleton
import proofs.«414902_j80762565034490_2_alg».proof.Proof.Gen.KernelIdeal.Points
import proofs.«414902_j80762565034490_2_alg».proof.Proof.KernelIdeal.Frame
import proofs.«414902_j80762565034490_2_alg».proof.Proof.KernelIdeal.Closed
import proofs.«414902_j80762565034490_2_alg».proof.Proof.KernelIdeal.StepValue
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem p249 : 249 < cfg0.N := by have : cfg0.N = 500 := N_0; omega
theorem p499 : 499 < cfg0.N := by have : cfg0.N = 500 := N_0; omega

/-- The flushing points are exactly 249 and 499. -/
theorem flush_points (t : Fin cfg0.N) (h : t.val % 250 = 249) : t = ⟨249, p249⟩ ∨ t = ⟨499, p499⟩ := by
  have hN : t.val < 500 := lt_of_lt_of_eq t.isLt (show cfg0.N = 500 from N_0)
  rcases (by omega : t.val = 249 ∨ t.val = 499) with h | h
  · exact Or.inl (Fin.ext h)
  · exact Or.inr (Fin.ext h)

/-- Output window 3/4/5's block index at the two flushing points: chunk 0 and chunk 1, from the origin of the other axes. -/
theorem out_idx249 : win0_3.index ⟨249, p249⟩ = ![0, 0, 0] ∧ win0_4.index ⟨249, p249⟩ = ![0, 0, 0] ∧ win0_5.index ⟨249, p249⟩ = ![0, 0, 0] := by
  refine ⟨?_, ?_, ?_⟩ <;> (funext a; fin_cases a <;> decide +kernel)
theorem out_idx499 : win0_3.index ⟨499, p499⟩ = ![1, 0, 0] ∧ win0_4.index ⟨499, p499⟩ = ![1, 0, 0] ∧ win0_5.index ⟨499, p499⟩ = ![1, 0, 0] := by
  refine ⟨?_, ?_, ?_⟩ <;> (funext a; fin_cases a <;> decide +kernel)

/-- An index of a 2×A×B array with its first coordinate dropped, as an index of the 1×A×B block. -/
def blkIdx {A B : ℕ} (i : (⟨3, ![2, A, B]⟩ : Shape).Idx) : (⟨3, ![1, A, B]⟩ : Shape).Idx := fun a => match a with
  | ⟨0, _⟩ => ⟨0, (Nat.one_pos : 0 < 1)⟩
  | ⟨1, _⟩ => ⟨(i 1).val, (i 1).isLt⟩
  | ⟨2, _⟩ => ⟨(i 2).val, (i 2).isLt⟩

/-- The arrays the three outputs end as: chunk 0's block from the accumulators after point 249, chunk 1's after 499. -/
def G3 (c : Dev nD) : S2x1024x200.Idx → Elt F .f32 := fun i =>
  if (i 0).val = 0 then k0_pay2 (accAt m c 249 p249).1 (blkIdx i) else k0_pay2 (accAt m c 499 p499).1 (blkIdx i)
def G4 (c : Dev nD) : S2x1024x200.Idx → Elt F .f32 := fun i =>
  if (i 0).val = 0 then k0_pay3 (accAt m c 249 p249).2.1 (blkIdx i) else k0_pay3 (accAt m c 499 p499).2.1 (blkIdx i)
def G5 (c : Dev nD) : S2x1x1024.Idx → Elt F .f32 := fun i =>
  if (i 0).val = 0 then k0_pay4 (accAt m c 249 p249).2.2 (blkIdx i) else k0_pay4 (accAt m c 499 p499).2.2 (blkIdx i)

theorem mem_blk3 (t : Fin cfg0.N) (i : S2x1024x200.Idx) :
    i ∈ ((cfg0.win 3).blk t).view.set ↔ ∀ a : Fin 3, win0_3.index t a * S1x1024x200.size a ≤ (i a).val ∧ (i a).val < win0_3.index t a * S1x1024x200.size a + S1x1024x200.size a := by
  show i ∈ ((View.whole main_v34_0).slice (win0_3.rect t)).set ↔ _
  rw [View.set_slice_whole, Rect.mem_set_unit]
  exact Iff.rfl
theorem mem_blk4 (t : Fin cfg0.N) (i : S2x1024x200.Idx) :
    i ∈ ((cfg0.win 4).blk t).view.set ↔ ∀ a : Fin 3, win0_4.index t a * S1x1024x200.size a ≤ (i a).val ∧ (i a).val < win0_4.index t a * S1x1024x200.size a + S1x1024x200.size a := by
  show i ∈ ((View.whole main_v34_1).slice (win0_4.rect t)).set ↔ _
  rw [View.set_slice_whole, Rect.mem_set_unit]
  exact Iff.rfl
theorem mem_blk5 (t : Fin cfg0.N) (i : S2x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v34_2).slice (win0_5.rect t)).set ↔ _
  rw [View.set_slice_whole, Rect.mem_set_unit]
  exact Iff.rfl

/-- What a flushing point writes back to output 3 is its block of `G3`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3]
  rcases flush_points t ((flush0_3 t).mp hf) with rfl | rfl
  · funext j
    show k0_pay2 (accAt m c 249 p249).1 j = G3 m c (((cfg0.win 3).blk ⟨249, p249⟩).view.emb j)
    have e0 : ((((cfg0.win 3).blk ⟨249, p249⟩).view.emb j) 0).val = 0 := by
      show win0_3.index ⟨249, p249⟩ (0 : Fin 3) * 1 + 1 * (j 0).val = 0
      rw [out_idx249.1]; have : (j 0).val < 1 := (j 0).isLt; show 0 * 1 + 1 * (j 0).val = 0; omega
    unfold G3; rw [if_pos e0]
    refine congrArg _ (funext fun a => Fin.ext ?_)
    match a with
    | ⟨0, _⟩ => show (j 0).val = 0; have : (j 0).val < 1 := (j 0).isLt; omega
    | ⟨1, _⟩ => show (j 1).val = win0_3.index ⟨249, p249⟩ (1 : Fin 3) * 1024 + 1 * (j 1).val; rw [out_idx249.1]; show (j 1).val = 0 * 1024 + 1 * (j 1).val; omega
    | ⟨2, _⟩ => show (j 2).val = win0_3.index ⟨249, p249⟩ (2 : Fin 3) * 200 + 1 * (j 2).val; rw [out_idx249.1]; show (j 2).val = 0 * 200 + 1 * (j 2).val; omega
  · funext j
    show k0_pay2 (accAt m c 499 p499).1 j = G3 m c (((cfg0.win 3).blk ⟨499, p499⟩).view.emb j)
    have e0 : ¬ ((((cfg0.win 3).blk ⟨499, p499⟩).view.emb j) 0).val = 0 := by
      show ¬ win0_3.index ⟨499, p499⟩ (0 : Fin 3) * 1 + 1 * (j 0).val = 0
      rw [out_idx499.1]; show ¬ 1 * 1 + 1 * (j 0).val = 0; omega
    unfold G3; rw [if_neg e0]
    refine congrArg _ (funext fun a => Fin.ext ?_)
    match a with
    | ⟨0, _⟩ => show (j 0).val = 0; have : (j 0).val < 1 := (j 0).isLt; omega
    | ⟨1, _⟩ => show (j 1).val = win0_3.index ⟨499, p499⟩ (1 : Fin 3) * 1024 + 1 * (j 1).val; rw [out_idx499.1]; show (j 1).val = 0 * 1024 + 1 * (j 1).val; omega
    | ⟨2, _⟩ => show (j 2).val = win0_3.index ⟨499, p499⟩ (2 : Fin 3) * 200 + 1 * (j 2).val; rw [out_idx499.1]; show (j 2).val = 0 * 200 + 1 * (j 2).val; omega

/-- Every index of output 3's array lies in the block of its chunk's last step. -/
theorem cover3 (i : S2x1024x200.Idx) : ∃ t : Fin cfg0.N, (cfg0.win 3).flush t = true ∧ i ∈ ((cfg0.win 3).blk t).view.set := by
  have h0 : (i 0).val < 2 := (i 0).isLt
  have h1 : (i 1).val < 1024 := (i 1).isLt
  have h2 : (i 2).val < 200 := (i 2).isLt
  rcases (by omega : (i 0).val = 0 ∨ (i 0).val = 1) with h | h
  · refine ⟨⟨249, p249⟩, (flush0_3 _).mpr (by decide), ?_⟩
    rw [mem_blk3, out_idx249.1]
    intro a
    match a with
    | ⟨0, _⟩ => show 0 * 1 ≤ (i 0).val ∧ (i 0).val < 0 * 1 + 1; omega
    | ⟨1, _⟩ => show 0 * 1024 ≤ (i 1).val ∧ (i 1).val < 0 * 1024 + 1024; omega
    | ⟨2, _⟩ => show 0 * 200 ≤ (i 2).val ∧ (i 2).val < 0 * 200 + 200; omega
  · refine ⟨⟨499, p499⟩, (flush0_3 _).mpr (by decide), ?_⟩
    rw [mem_blk3, out_idx499.1]
    intro a
    match a with
    | ⟨0, _⟩ => show 1 * 1 ≤ (i 0).val ∧ (i 0).val < 1 * 1 + 1; omega
    | ⟨1, _⟩ => show 0 * 1024 ≤ (i 1).val ∧ (i 1).val < 0 * 1024 + 1024; omega
    | ⟨2, _⟩ => show 0 * 200 ≤ (i 2).val ∧ (i 2).val < 0 * 200 + 200; omega

/-- Output 3's array after the run. -/
theorem final3 (c : Dev nD) : (dats m 0 c).arrAt 3 cfg0.N = G3 m c :=
  (dats m 0 c).arrAt_eq_of_cover 3 (G3 m c) (fun t hf => flushed3_eq m c t hf) cover3

/-- What a flushing point writes back to output 4 is its block of `G4`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4]
  rcases flush_points t ((flush0_4 t).mp hf) with rfl | rfl
  · funext j
    show k0_pay3 (accAt m c 249 p249).2.1 j = G4 m c (((cfg0.win 4).blk ⟨249, p249⟩).view.emb j)
    have e0 : ((((cfg0.win 4).blk ⟨249, p249⟩).view.emb j) 0).val = 0 := by
      show win0_4.index ⟨249, p249⟩ (0 : Fin 3) * 1 + 1 * (j 0).val = 0
      rw [out_idx249.2.1]; have : (j 0).val < 1 := (j 0).isLt; show 0 * 1 + 1 * (j 0).val = 0; omega
    unfold G4; rw [if_pos e0]
    refine congrArg _ (funext fun a => Fin.ext ?_)
    match a with
    | ⟨0, _⟩ => show (j 0).val = 0; have : (j 0).val < 1 := (j 0).isLt; omega
    | ⟨1, _⟩ => show (j 1).val = win0_4.index ⟨249, p249⟩ (1 : Fin 3) * 1024 + 1 * (j 1).val; rw [out_idx249.2.1]; show (j 1).val = 0 * 1024 + 1 * (j 1).val; omega
    | ⟨2, _⟩ => show (j 2).val = win0_4.index ⟨249, p249⟩ (2 : Fin 3) * 200 + 1 * (j 2).val; rw [out_idx249.2.1]; show (j 2).val = 0 * 200 + 1 * (j 2).val; omega
  · funext j
    show k0_pay3 (accAt m c 499 p499).2.1 j = G4 m c (((cfg0.win 4).blk ⟨499, p499⟩).view.emb j)
    have e0 : ¬ ((((cfg0.win 4).blk ⟨499, p499⟩).view.emb j) 0).val = 0 := by
      show ¬ win0_4.index ⟨499, p499⟩ (0 : Fin 3) * 1 + 1 * (j 0).val = 0
      rw [out_idx499.2.1]; show ¬ 1 * 1 + 1 * (j 0).val = 0; omega
    unfold G4; rw [if_neg e0]
    refine congrArg _ (funext fun a => Fin.ext ?_)
    match a with
    | ⟨0, _⟩ => show (j 0).val = 0; have : (j 0).val < 1 := (j 0).isLt; omega
    | ⟨1, _⟩ => show (j 1).val = win0_4.index ⟨499, p499⟩ (1 : Fin 3) * 1024 + 1 * (j 1).val; rw [out_idx499.2.1]; show (j 1).val = 0 * 1024 + 1 * (j 1).val; omega
    | ⟨2, _⟩ => show (j 2).val = win0_4.index ⟨499, p499⟩ (2 : Fin 3) * 200 + 1 * (j 2).val; rw [out_idx499.2.1]; show (j 2).val = 0 * 200 + 1 * (j 2).val; omega

/-- Every index of output 4's array lies in the block of its chunk's last step. -/
theorem cover4 (i : S2x1024x200.Idx) : ∃ t : Fin cfg0.N, (cfg0.win 4).flush t = true ∧ i ∈ ((cfg0.win 4).blk t).view.set := by
  have h0 : (i 0).val < 2 := (i 0).isLt
  have h1 : (i 1).val < 1024 := (i 1).isLt
  have h2 : (i 2).val < 200 := (i 2).isLt
  rcases (by omega : (i 0).val = 0 ∨ (i 0).val = 1) with h | h
  · refine ⟨⟨249, p249⟩, (flush0_4 _).mpr (by decide), ?_⟩
    rw [mem_blk4, out_idx249.2.1]
    intro a
    match a with
    | ⟨0, _⟩ => show 0 * 1 ≤ (i 0).val ∧ (i 0).val < 0 * 1 + 1; omega
    | ⟨1, _⟩ => show 0 * 1024 ≤ (i 1).val ∧ (i 1).val < 0 * 1024 + 1024; omega
    | ⟨2, _⟩ => show 0 * 200 ≤ (i 2).val ∧ (i 2).val < 0 * 200 + 200; omega
  · refine ⟨⟨499, p499⟩, (flush0_4 _).mpr (by decide), ?_⟩
    rw [mem_blk4, out_idx499.2.1]
    intro a
    match a with
    | ⟨0, _⟩ => show 1 * 1 ≤ (i 0).val ∧ (i 0).val < 1 * 1 + 1; omega
    | ⟨1, _⟩ => show 0 * 1024 ≤ (i 1).val ∧ (i 1).val < 0 * 1024 + 1024; omega
    | ⟨2, _⟩ => show 0 * 200 ≤ (i 2).val ∧ (i 2).val < 0 * 200 + 200; omega

/-- Output 4's array after the run. -/
theorem final4 (c : Dev nD) : (dats m 0 c).arrAt 4 cfg0.N = G4 m c :=
  (dats m 0 c).arrAt_eq_of_cover 4 (G4 m c) (fun t hf => flushed4_eq m c t hf) cover4

/-- What a flushing point writes back to output 5 is its block of `G5`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  rcases flush_points t ((flush0_5 t).mp hf) with rfl | rfl
  · funext j
    show k0_pay4 (accAt m c 249 p249).2.2 j = G5 m c (((cfg0.win 5).blk ⟨249, p249⟩).view.emb j)
    have e0 : ((((cfg0.win 5).blk ⟨249, p249⟩).view.emb j) 0).val = 0 := by
      show win0_5.index ⟨249, p249⟩ (0 : Fin 3) * 1 + 1 * (j 0).val = 0
      rw [out_idx249.2.2]; have : (j 0).val < 1 := (j 0).isLt; show 0 * 1 + 1 * (j 0).val = 0; omega
    unfold G5; rw [if_pos e0]
    refine congrArg _ (funext fun a => Fin.ext ?_)
    match a with
    | ⟨0, _⟩ => show (j 0).val = 0; have : (j 0).val < 1 := (j 0).isLt; omega
    | ⟨1, _⟩ => show (j 1).val = win0_5.index ⟨249, p249⟩ (1 : Fin 3) * 1 + 1 * (j 1).val; rw [out_idx249.2.2]; show (j 1).val = 0 * 1 + 1 * (j 1).val; omega
    | ⟨2, _⟩ => show (j 2).val = win0_5.index ⟨249, p249⟩ (2 : Fin 3) * 1024 + 1 * (j 2).val; rw [out_idx249.2.2]; show (j 2).val = 0 * 1024 + 1 * (j 2).val; omega
  · funext j
    show k0_pay4 (accAt m c 499 p499).2.2 j = G5 m c (((cfg0.win 5).blk ⟨499, p499⟩).view.emb j)
    have e0 : ¬ ((((cfg0.win 5).blk ⟨499, p499⟩).view.emb j) 0).val = 0 := by
      show ¬ win0_5.index ⟨499, p499⟩ (0 : Fin 3) * 1 + 1 * (j 0).val = 0
      rw [out_idx499.2.2]; show ¬ 1 * 1 + 1 * (j 0).val = 0; omega
    unfold G5; rw [if_neg e0]
    refine congrArg _ (funext fun a => Fin.ext ?_)
    match a with
    | ⟨0, _⟩ => show (j 0).val = 0; have : (j 0).val < 1 := (j 0).isLt; omega
    | ⟨1, _⟩ => show (j 1).val = win0_5.index ⟨499, p499⟩ (1 : Fin 3) * 1 + 1 * (j 1).val; rw [out_idx499.2.2]; show (j 1).val = 0 * 1 + 1 * (j 1).val; omega
    | ⟨2, _⟩ => show (j 2).val = win0_5.index ⟨499, p499⟩ (2 : Fin 3) * 1024 + 1 * (j 2).val; rw [out_idx499.2.2]; show (j 2).val = 0 * 1024 + 1 * (j 2).val; omega

/-- Every index of output 5's array lies in the block of its chunk's last step. -/
theorem cover5 (i : S2x1x1024.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1024 := (i 2).isLt
  rcases (by omega : (i 0).val = 0 ∨ (i 0).val = 1) with h | h
  · refine ⟨⟨249, p249⟩, (flush0_5 _).mpr (by decide), ?_⟩
    rw [mem_blk5, out_idx249.2.2]
    intro a
    match a with
    | ⟨0, _⟩ => show 0 * 1 ≤ (i 0).val ∧ (i 0).val < 0 * 1 + 1; omega
    | ⟨1, _⟩ => show 0 * 1 ≤ (i 1).val ∧ (i 1).val < 0 * 1 + 1; omega
    | ⟨2, _⟩ => show 0 * 1024 ≤ (i 2).val ∧ (i 2).val < 0 * 1024 + 1024; omega
  · refine ⟨⟨499, p499⟩, (flush0_5 _).mpr (by decide), ?_⟩
    rw [mem_blk5, out_idx499.2.2]
    intro a
    match a with
    | ⟨0, _⟩ => show 1 * 1 ≤ (i 0).val ∧ (i 0).val < 1 * 1 + 1; omega
    | ⟨1, _⟩ => show 0 * 1 ≤ (i 1).val ∧ (i 1).val < 0 * 1 + 1; omega
    | ⟨2, _⟩ => show 0 * 1024 ≤ (i 2).val ∧ (i 2).val < 0 * 1024 + 1024; omega

/-- Output 5's array after the run. -/
theorem final5 (c : Dev nD) : (dats m 0 c).arrAt 5 cfg0.N = G5 m c :=
  (dats m 0 c).arrAt_eq_of_cover 5 (G5 m c) (fun t hf => flushed5_eq m c t hf) cover5

/-! ## Over the extended reals: the outputs as sums over each chunk's edges -/

section Pointwise

open scoped BigOperators

variable (mI : (ℓ : Loc nD τ sig) → Buf (Elt Ideal) ℓ)

theorem last_lt (k : Fin 2) : 250 * k.val + 249 < cfg0.N := by
  have := k.isLt; have : cfg0.N = 500 := N_0; omega

theorem blkIdx_ix3 {A B : ℕ} (k : Fin 2) (r : Fin A) (d : Fin B) :
    blkIdx (ix3 k r d : (⟨3, ![2, A, B]⟩ : Shape).Idx) = ix3 0 r d := by
  funext a
  match a with
  | ⟨0, _⟩ => rfl
  | ⟨1, _⟩ => rfl
  | ⟨2, _⟩ => rfl

/-- Output 3 at (chunk, row, column): the source-sum accumulator after the chunk's last step. -/
theorem final3_apply (c : Dev nD) (k : Fin 2) (r : Fin 1024) (d : Fin 200) :
    ((dats (F := Ideal) mI 0 c).arrAt 3 cfg0.N (ix3 k r d) : EReal) = (accAt mI c (250 * k.val + 249) (last_lt k)).1 (ix2 r d) := by
  rw [final3]; unfold G3
  rw [blkIdx_ix3]
  fin_cases k
  · rw [if_pos (by rfl), pay2_apply]; rfl
  · rw [if_neg (show ¬ (1 : ℕ) = 0 from Nat.one_ne_zero), pay2_apply]; rfl

theorem final4_apply (c : Dev nD) (k : Fin 2) (r : Fin 1024) (d : Fin 200) :
    ((dats (F := Ideal) mI 0 c).arrAt 4 cfg0.N (ix3 k r d) : EReal) = (accAt mI c (250 * k.val + 249) (last_lt k)).2.1 (ix2 r d) := by
  rw [final4]; unfold G4
  rw [blkIdx_ix3]
  fin_cases k
  · rw [if_pos (by rfl), pay3_apply]; rfl
  · rw [if_neg (show ¬ (1 : ℕ) = 0 from Nat.one_ne_zero), pay3_apply]; rfl

theorem final5_apply (c : Dev nD) (k : Fin 2) (r : Fin 1024) :
    ((dats (F := Ideal) mI 0 c).arrAt 5 cfg0.N (ix3 k 0 r) : EReal) = (accAt mI c (250 * k.val + 249) (last_lt k)).2.2 (ix2 0 r) := by
  rw [final5]; unfold G5
  rw [blkIdx_ix3]
  fin_cases k
  · rw [if_pos (by rfl), pay4_apply]; rfl
  · rw [if_neg (show ¬ (1 : ℕ) = 0 from Nat.one_ne_zero), pay4_apply]; rfl

/-- The same as sums over the chunk's edges. -/
theorem out3_sum (c : Dev nD) (k : Fin 2) (r : Fin 1024) (d : Fin 200) :
    ((dats (F := Ideal) mI 0 c).arrAt 3 cfg0.N (ix3 k r d) : EReal)
      = ∑ l ∈ Finset.range 250, ∑ e : Fin 2000,
          (if Tg mI c (2000 * (250 * k.val + l) + e.val) = BitVec.ofNat 32 r.val then Xs mI c (2000 * (250 * k.val + l) + e.val) d else 0) := by
  rw [final3_apply, acc_src_closed mI c k 249 (by omega) (last_lt k) r d]

theorem out4_sum (c : Dev nD) (k : Fin 2) (r : Fin 1024) (d : Fin 200) :
    ((dats (F := Ideal) mI 0 c).arrAt 4 cfg0.N (ix3 k r d) : EReal)
      = ∑ l ∈ Finset.range 250, ∑ e : Fin 2000,
          (if Tg mI c (2000 * (250 * k.val + l) + e.val) = BitVec.ofNat 32 r.val then Xd mI c (2000 * (250 * k.val + l) + e.val) d else 0) := by
  rw [final4_apply, acc_dst_closed mI c k 249 (by omega) (last_lt k) r d]

theorem out5_sum (c : Dev nD) (k : Fin 2) (r : Fin 1024) :
    ((dats (F := Ideal) mI 0 c).arrAt 5 cfg0.N (ix3 k 0 r) : EReal)
      = ∑ l ∈ Finset.range 250, ∑ e : Fin 2000,
          (if Tg mI c (2000 * (250 * k.val + l) + e.val) = BitVec.ofNat 32 r.val then (1 : EReal) else 0) := by
  rw [final5_apply, acc_cnt_closed mI c k 249 (by omega) (last_lt k) r]

end Pointwise

end Cert.KernelIdeal.Agg

end
-- ==== Proof.KernelIdeal.ReduceValue.lean ====
/-
  After the grid the program adds the two chunks' partial results and cuts the sums to the 1000 relations. Read at an
  index, at the ideal values (floats are extended reals, every float operation exact): the sum over the chunk axis of a
  2 × 1024 × 200 array started from the constant 0 and cut to its first 1000 rows is, at (r, d), the sum over the two
  chunks k of the entry (k, r, d); the same sum of a 2 × 1 × 1024 array, its one row turned into a column and cut to
  the first 1000 rows, is at (r, 0) the sum over k of the entry (k, 0, r). The initial value 0 adds nothing.
-/
import proofs.«414902_j80762565034490_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## One row turned into a column -/

/-- A [1, n] array reshaped to [n, 1] reads, at (p, u), the operand's one row at p, whatever the unit coordinate u. -/
theorem shapeCast_1a_a1_apply {α : Type} {n : ℕ} (x : (⟨2, ![1, n]⟩ : Shape).Idx → α)
    (h : (⟨2, ![1, n]⟩ : Shape).ShapeCasts ⟨2, ![n, 1]⟩) (p : Fin n) (u : Fin 1) :
    shapeCast ⟨2, ![n, 1]⟩ x h (ix2 p u) = x (ix2 (0 : Fin 1) p) :=
  shapeCast_apply x h _ _ (by
    have hu : u.val = 0 := by omega
    rw [Shape.rowMajor_val_two, Shape.rowMajor_val_two]
    show 0 * n + p.val = p.val * 1 + u.val
    rw [hu, Nat.zero_mul, Nat.zero_add, Nat.mul_one, Nat.add_zero])

/-! ## The sums over the chunk axis, from the initial value 0 -/

/-- The sum over the chunk axis of a 2 × 1024 × 200 array, at (p, d): the two chunks' entries (k, p, d) added. -/
theorem hsum_feat_apply (a : FVec Ideal S2x1024x200 .f32) (p : Fin 1024) (d : Fin 200) :
    Host.reduceAdd (F := Ideal) a (constant (F := Ideal) S_ .f32 0x00000000#32) reducesTo_S2x1024x200_S1024x200_d0 h_S_ (ix2 p d)
      = ∑ k : Fin 2, (a (ix3 k p d) : EReal) := by
  have h : S2x1024x200.Reduces [0] S1024x200 := by decide
  show Ideal.hostReduceAdd reducesTo_S2x1024x200_S1024x200_d0 a (Ideal.ofBits .f32 0x00000000#32) (ix2 p d) = _
  rw [Ideal.hostReduceAdd_single reducesTo_S2x1024x200_S1024x200_d0 h, Ideal.ofBits_zero_f32, zero_add]
  show ∑ k : Fin 2, a (h.lift (ix2 p d) k) = _
  refine Finset.sum_congr rfl fun k _ => congrArg a (funext fun c => Fin.ext ?_)
  match c with
  | ⟨0, _⟩ => rfl
  | ⟨1, _⟩ => rfl
  | ⟨2, _⟩ => rfl

/-- The sum over the chunk axis of a 2 × 1 × 1024 array, at (0, p): the two chunks' entries (k, 0, p) added. -/
theorem hsum_cnt_apply (a : FVec Ideal S2x1x1024 .f32) (u : Fin 1) (p : Fin 1024) :
    Host.reduceAdd (F := Ideal) a (constant (F := Ideal) S_ .f32 0x00000000#32) reducesTo_S2x1x1024_S1x1024_d0 h_S_ (ix2 u p)
      = ∑ k : Fin 2, (a (ix3 k u p) : EReal) := by
  have h : S2x1x1024.Reduces [0] S1x1024 := by decide
  show Ideal.hostReduceAdd reducesTo_S2x1x1024_S1x1024_d0 a (Ideal.ofBits .f32 0x00000000#32) (ix2 u p) = _
  rw [Ideal.hostReduceAdd_single reducesTo_S2x1x1024_S1x1024_d0 h, Ideal.ofBits_zero_f32, zero_add]
  show ∑ k : Fin 2, a (h.lift (ix2 u p) k) = _
  refine Finset.sum_congr rfl fun k _ => congrArg a (funext fun c => Fin.ext ?_)
  match c with
  | ⟨0, _⟩ => rfl
  | ⟨1, _⟩ => rfl
  | ⟨2, _⟩ => rfl

/-! ## The sums cut to the 1000 relations -/

/-- The feature sums cut to their first 1000 rows, at (r, d): the two chunks' entries (k, r, d) added. -/
theorem sum2_apply (a : FVec Ideal S2x1024x200 .f32) (r : Fin 1000) (d : Fin 200) :
    extractStridedSlice S1000x200 ![0, 0] (Host.reduceAdd (F := Ideal) a (constant S_ .f32 0x00000000#32) reducesTo_S2x1024x200_S1024x200_d0 h_S_) slices_S1024x200_S1000x200_0_0 (ix2 r d)
      = ∑ k : Fin 2, (a (ix3 k ⟨r.val, by have := r.isLt; omega⟩ d) : EReal) := by
  refine (extractStridedSlice_apply ![0, 0] _ slices_S1024x200_S1000x200_0_0 (ix2 r d)
    (ix2 (⟨r.val, by have := r.isLt; omega⟩ : Fin 1024) d) (fun c => match c with
      | ⟨0, _⟩ => by show r.val = 0 + r.val; omega
      | ⟨1, _⟩ => by show d.val = 0 + d.val; omega)).trans ?_
  exact hsum_feat_apply a _ d

/-- The count sums, their row turned into a column and cut to the first 1000 rows, at (r, 0): the two chunks' entries
    (k, 0, r) added. -/
theorem cnt2_apply (a : FVec Ideal S2x1x1024 .f32) (r : Fin 1000) :
    extractStridedSlice S1000x1 ![0, 0] (shapeCast S1024x1 (Host.reduceAdd (F := Ideal) a (constant S_ .f32 0x00000000#32) reducesTo_S2x1x1024_S1x1024_d0 h_S_) shapeCasts_S1x1024_S1024x1) slices_S1024x1_S1000x1_0_0 (ix2 r 0)
      = ∑ k : Fin 2, (a (ix3 k 0 ⟨r.val, by have := r.isLt; omega⟩) : EReal) := by
  refine (extractStridedSlice_apply ![0, 0] _ slices_S1024x1_S1000x1_0_0 (ix2 r 0)
    (ix2 (⟨r.val, by have := r.isLt; omega⟩ : Fin 1024) (0 : Fin 1)) (fun c => match c with
      | ⟨0, _⟩ => by show r.val = 0 + r.val; omega
      | ⟨1, _⟩ => by show (0 : ℕ) = 0 + 0; rfl)).trans ?_
  refine (shapeCast_1a_a1_apply _ shapeCasts_S1x1024_S1024x1 _ 0).trans ?_
  exact hsum_cnt_apply a 0 _

end Cert.KernelIdeal.Agg

end
-- ==== Proof.Tail.lean ====
/-
  The part of both programs that follows the aggregation, as pure functions of whole arrays.

  `meanOf s c`: the per-relation mean — where the count is positive, the sum divided by max(count, 1), elsewhere 0.
  `gruCell x h`: one GRU step with gates in the order r, z, n over the stacked weights W_ih, W_hh (600×200) and biases
  (600): gi = x·W_ihᵀ + b_ih, gh = h·W_hhᵀ + b_hh, r = σ(gi_r + gh_r), z = σ(gi_z + gh_z), n = tanh(gi_n + r·gh_n),
  result (1 − z)·n + z·h, with σ(t) = 1 / (1 + exp(−t)).
  `gruTail xs xd hh`: the two hidden states are the two last-axis slices of hh (1000×1×200×2); the two new states are
  stacked on a new last axis and given a unit second axis.
  Each function composes its operations exactly as the programs do, so that either program's composed term is
  recognised as an instance by unfolding.
-/
import proofs.«414902_j80762565034490_2_alg».proof.Proof.Gen.ReferenceIdeal

noncomputable section

namespace AggTail

open Idealize.ShloMosaic Cert.ReferenceIdeal Cert.ReferenceIdeal.Facts₀ Cert.ReferenceIdeal.Facts

variable {F : FTy → Type} [FloatOps F]

/-- The mean of the rows aggregated under each relation: `s / max(c, 1)` where `c > 0`, else `0`. -/
def meanOf (s : FVec F S1000x200 .f32) (c : FVec F S1000x1 .f32) : FVec F S1000x200 .f32 :=
  select (broadcastInDim S1000x200 ![0, 1] bcast_S1000x1_S1000x200_0_1
      (cmpf .ogt c (broadcastInDim S1000x1 ![] bcast_S_S1000x1 (constant S_ .f32 0x00000000#32))))
    (Host.divf s (broadcastInDim S1000x200 ![0, 1] bcast_S1000x1_S1000x200_0_1
      (maximumf c (broadcastInDim S1000x1 ![] bcast_S_S1000x1 (constant S_ .f32 0x3F800000#32)))))
    (broadcastInDim S1000x200 ![] bcast_S_S1000x200 (id (constant S_ .f32 0x00000000#32)))

/-- The input-side and hidden-side pre-activations `v·Wᵀ + b` (1000×600). -/
def gates (v : FVec F S1000x200 .f32) (w : FVec F S600x200 .f32) (b : FVec F S600 .f32) : FVec F S1000x600 .f32 :=
  addf (Host.dotGeneral dot_S1000x200_S200x600_S1000x600_1_0_0_1_n_n none v (transpose S200x600 [1, 0] w transposes_S600x200_S200x600_1_0))
    (broadcastInDim S1000x600 ![0, 1] bcast_S1x600_S1000x600_0_1 (broadcastInDim S1x600 ![1] bcast_S600_S1x600_1 b))

/-- The logistic function of the sum of two gate blocks. -/
def sigm (a b : FVec F S1000x200 .f32) : FVec F S1000x200 .f32 :=
  Host.divf (broadcastInDim S1000x200 ![] bcast_S_S1000x200 (constant S_ .f32 0x3F800000#32))
    (addf (broadcastInDim S1000x200 ![] bcast_S_S1000x200 (constant S_ .f32 0x3F800000#32)) (Host.exp (Host.negf (addf a b))))

/-- One GRU step. -/
def gruCell (x h : FVec F S1000x200 .f32) (wi wh : FVec F S600x200 .f32) (bi bh : FVec F S600 .f32) : FVec F S1000x200 .f32 :=
  addf
    (mulf
      (subf (broadcastInDim S1000x200 ![] bcast_S_S1000x200 (constant S_ .f32 0x3F800000#32))
        (sigm (extractStridedSlice S1000x200 ![0, 200] (gates x wi bi) slices_S1000x600_S1000x200_0_200)
          (extractStridedSlice S1000x200 ![0, 200] (gates h wh bh) slices_S1000x600_S1000x200_0_200)))
      (Host.tanh (addf (extractStridedSlice S1000x200 ![0, 400] (gates x wi bi) slices_S1000x600_S1000x200_0_400)
        (mulf (sigm (extractStridedSlice S1000x200 ![0, 0] (gates x wi bi) slices_S1000x600_S1000x200_0_0)
            (extractStridedSlice S1000x200 ![0, 0] (gates h wh bh) slices_S1000x600_S1000x200_0_0))
          (extractStridedSlice S1000x200 ![0, 400] (gates h wh bh) slices_S1000x600_S1000x200_0_400)))))
    (mulf
      (sigm (extractStridedSlice S1000x200 ![0, 200] (gates x wi bi) slices_S1000x600_S1000x200_0_200)
        (extractStridedSlice S1000x200 ![0, 200] (gates h wh bh) slices_S1000x600_S1000x200_0_200))
      h)

/-- Hidden state `k` of the pair stored on the last axis. -/
def hid0 (hh : FVec F S1000x1x200x2 .f32) : FVec F S1000x200 .f32 :=
  shapeCast S1000x200 (extractStridedSlice S1000x1x200x1 ![0, 0, 0, 0] hh slices_S1000x1x200x2_S1000x1x200x1_0_0_0_0) shapeCasts_S1000x1x200x1_S1000x200
def hid1 (hh : FVec F S1000x1x200x2 .f32) : FVec F S1000x200 .f32 :=
  shapeCast S1000x200 (extractStridedSlice S1000x1x200x1 ![0, 0, 0, 1] hh slices_S1000x1x200x2_S1000x1x200x1_0_0_0_1) shapeCasts_S1000x1x200x1_S1000x200

/-- Both GRU steps, stacked on a new last axis, with a unit second axis. -/
def gruTail (xs xd : FVec F S1000x200 .f32) (hh : FVec F S1000x1x200x2 .f32) (wi wh : FVec F S600x200 .f32) (bi bh : FVec F S600 .f32) :
    FVec F S1000x1x200x2 .f32 :=
  broadcastInDim S1000x1x200x2 ![0, 2, 3] bcast_S1000x200x2_S1000x1x200x2_0_2_3
    (concatenate S1000x200x2 2
      [⟨S1000x200x1, broadcastInDim S1000x200x1 ![0, 1] bcast_S1000x200_S1000x200x1_0_1 (gruCell xs (hid0 hh) wi wh bi bh)⟩,
       ⟨S1000x200x1, broadcastInDim S1000x200x1 ![0, 1] bcast_S1000x200_S1000x200x1_0_1 (gruCell xd (hid1 hh) wi wh bi bh)⟩]
      concatenates_S1000x200x1_S1000x200x1_S1000x200x2_d2)

end AggTail

end
-- ==== Proof.KernelIdeal.TailValue.lean ====
/- What the 130 host operations after the region compute, as ONE equation: @main's result buffer after them is the
   GRU tail (`AggTail.gruTail`) of the two per-relation means (`AggTail.meanOf` of the chunk sums and the chunk counts
   the region leaves in its three output arrays) and of five argument arrays. The five stretches are read one after the
   other, each over an ARBITRARY valuation of the buffers, so that no stretch's term is reopened by the next: the sums
   and counts (`sumK`, `cntK`), the two means, then the two GRU steps and their stacking. Generic in the float instance. -/
import proofs.«414902_j80762565034490_2_alg».proof.Proof.KernelIdeal.Main
import proofs.«414902_j80762565034490_2_alg».proof.Proof.Tail

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The sums and the counts -/

/-- The two chunk sums added and cut to the 1000 relations. -/
def sumK (a : FVec F S2x1024x200 .f32) : FVec F S1000x200 .f32 :=
  extractStridedSlice S1000x200 ![0, 0] (Host.reduceAdd a (constant S_ .f32 0x00000000#32) reducesTo_S2x1024x200_S1024x200_d0 h_S_) slices_S1024x200_S1000x200_0_0
/-- The two chunk counts added, stood up as a column and cut to the 1000 relations. -/
def cntK (a : FVec F S2x1x1024 .f32) : FVec F S1000x1 .f32 :=
  extractStridedSlice S1000x1 ![0, 0] (shapeCast S1024x1 (Host.reduceAdd a (constant S_ .f32 0x00000000#32) reducesTo_S2x1x1024_S1x1024_d0 h_S_) shapeCasts_S1x1024_S1024x1) slices_S1024x1_S1000x1_0_0

/-! ## The first stretch: sums, counts, and the pieces of the first mean -/

theorem s1_v40 (W : Valuation τ sig (Elt F)) :
    StableHlo.after hostOps1 W (Proc.devRef .tc main_v40) = sumK (W (Proc.devRef .tc main_v34_1)) := by
  after_results_simp
  rfl
theorem s1_v41 (W : Valuation τ sig (Elt F)) :
    StableHlo.after hostOps1 W (Proc.devRef .tc main_v41) = cntK (W (Proc.devRef .tc main_v34_2)) := by
  after_results_simp
  rfl
theorem s1_v43 (W : Valuation τ sig (Elt F)) :
    StableHlo.after hostOps1 W (Proc.devRef .tc main_v43)
      = cmpf .ogt (cntK (W (Proc.devRef .tc main_v34_2))) (broadcastInDim S1000x1 ![] bcast_S_S1000x1 (constant S_ .f32 0x00000000#32)) := by
  after_results_simp
  rfl
theorem s1_v47 (W : Valuation τ sig (Elt F)) :
    StableHlo.after hostOps1 W (Proc.devRef .tc main_v47)
      = Host.divf (sumK (W (Proc.devRef .tc main_v34_0)))
          (broadcastInDim S1000x200 ![0, 1] bcast_S1000x1_S1000x200_0_1 (maximumf (cntK (W (Proc.devRef .tc main_v34_2)))
            (broadcastInDim S1000x1 ![] bcast_S_S1000x1 (constant S_ .f32 0x3F800000#32)))) := by
  after_results_simp
  rfl
theorem s1_cst_11 (W : Valuation τ sig (Elt F)) :
    StableHlo.after hostOps1 W (Proc.devRef .tc main_cst_11) = constant S_ .f32 0x00000000#32 := by
  after_results_simp

/-! ## The second stretch: the first mean; the sums and counts pass through -/

theorem s2_v48 (W : Valuation τ sig (Elt F)) :
    StableHlo.after hostOps1_1 W (Proc.devRef .tc main_v48)
      = select (broadcastInDim S1000x200 ![0, 1] bcast_S1000x1_S1000x200_0_1 (W (Proc.devRef .tc main_v43)))
          (W (Proc.devRef .tc main_v47))
          (broadcastInDim S1000x200 ![] bcast_S_S1000x200 (id (W (Proc.devRef .tc main_cst_11)))) := by
  after_results_simp
  rfl
theorem s2_v40 (W : Valuation τ sig (Elt F)) :
    StableHlo.after hostOps1_1 W (Proc.devRef .tc main_v40) = W (Proc.devRef .tc main_v40) := by
  after_results_simp
theorem s2_v41 (W : Valuation τ sig (Elt F)) :
    StableHlo.after hostOps1_1 W (Proc.devRef .tc main_v41) = W (Proc.devRef .tc main_v41) := by
  after_results_simp

/-- The first mean, from the arrays the region leaves. -/
theorem mean0 (W : Valuation τ sig (Elt F)) :
    StableHlo.after hostOps1_1 (StableHlo.after hostOps1 W) (Proc.devRef .tc main_v48)
      = AggTail.meanOf (sumK (W (Proc.devRef .tc main_v34_0))) (cntK (W (Proc.devRef .tc main_v34_2))) := by
  rw [s2_v48, s1_v43, s1_v47, s1_cst_11]
  rfl

/-! ## The third and fourth stretches: the second mean; the first passes through -/

theorem s3_v50 (W : Valuation τ sig (Elt F)) :
    StableHlo.after hostOps1_2 W (Proc.devRef .tc main_v50)
      = cmpf .ogt (W (Proc.devRef .tc main_v41)) (broadcastInDim S1000x1 ![] bcast_S_S1000x1 (constant S_ .f32 0x00000000#32)) := by
  after_results_simp
theorem s3_v54 (W : Valuation τ sig (Elt F)) :
    StableHlo.after hostOps1_2 W (Proc.devRef .tc main_v54)
      = Host.divf (W (Proc.devRef .tc main_v40))
          (broadcastInDim S1000x200 ![0, 1] bcast_S1000x1_S1000x200_0_1 (maximumf (W (Proc.devRef .tc main_v41))
            (broadcastInDim S1000x1 ![] bcast_S_S1000x1 (constant S_ .f32 0x3F800000#32)))) := by
  after_results_simp
theorem s3_cst_14 (W : Valuation τ sig (Elt F)) :
    StableHlo.after hostOps1_2 W (Proc.devRef .tc main_cst_14) = constant S_ .f32 0x00000000#32 := by
  after_results_simp
theorem s3_v48 (W : Valuation τ sig (Elt F)) :
    StableHlo.after hostOps1_2 W (Proc.devRef .tc main_v48) = W (Proc.devRef .tc main_v48) := by
  after_results_simp

theorem s4_v55 (W : Valuation τ sig (Elt F)) :
    StableHlo.after hostOps1_3 W (Proc.devRef .tc main_v55)
      = select (broadcastInDim S1000x200 ![0, 1] bcast_S1000x1_S1000x200_0_1 (W (Proc.devRef .tc main_v50)))
          (W (Proc.devRef .tc main_v54))
          (broadcastInDim S1000x200 ![] bcast_S_S1000x200 (id (W (Proc.devRef .tc main_cst_14)))) := by
  after_results_simp
  rfl
theorem s4_v48 (W : Valuation τ sig (Elt F)) :
    StableHlo.after hostOps1_3 W (Proc.devRef .tc main_v48) = W (Proc.devRef .tc main_v48) := by
  after_results_simp

/-- The second mean, from the arrays the region leaves. -/
theorem mean1 (W : Valuation τ sig (Elt F)) :
    StableHlo.after hostOps1_3 (StableHlo.after hostOps1_2 (StableHlo.after hostOps1_1 (StableHlo.after hostOps1 W))) (Proc.devRef .tc main_v55)
      = AggTail.meanOf (sumK (W (Proc.devRef .tc main_v34_1))) (cntK (W (Proc.devRef .tc main_v34_2))) := by
  rw [s4_v55, s3_v50, s3_v54, s3_cst_14, s2_v41, s2_v40, s1_v41, s1_v40]
  rfl

/-! ## An argument array passes through every stretch -/

/-- A buffer none of whose lines writes it keeps its contents, for the argument arrays and the windows' arrays. -/
theorem after_kept {ops ops' : List (HloOp τ sig (Elt F))} (hsub : ∀ op ∈ ops, op ∈ ops')
    (h : ops'.Forall fun op => ∀ b ∈ keptRefs, Proc.devRef (τ := τ) .tc b ∉ op.writes) (W : Valuation τ sig (Elt F))
    {b : Ref sig .tc} (hb : b ∈ keptRefs) : StableHlo.after ops W (Proc.devRef .tc b) = W (Proc.devRef .tc b) :=
  StableHlo.after_of_forall_not_mem ops W fun op hop => (List.forall_iff_forall_mem.mp h) op (hsub op hop) b hb

/-- Through the first four stretches. -/
theorem kept4 (W : Valuation τ sig (Elt F)) {b : Ref sig .tc} (hb : b ∈ keptRefs) :
    StableHlo.after hostOps1_3 (StableHlo.after hostOps1_2 (StableHlo.after hostOps1_1 (StableHlo.after hostOps1 W))) (Proc.devRef .tc b)
      = W (Proc.devRef .tc b) := by
  rw [after_kept (fun _ h => h) hostOps1_3_keeps _ hb, after_kept (fun _ h => h) hostOps1_2_keeps _ hb,
    after_kept (fun _ h => h) hostOps1_1_keeps _ hb, after_kept (fun _ h => h) hostOps1_keeps _ hb]

/-! ## The fifth stretch: the two GRU steps and their stacking

Its 94 operations are the first step (47), the second step (43) and the stacking (4). -/

/-- The fifth stretch is its two printed halves, one after the other. -/
theorem hostOps1_4_split : (hostOps1_4 : List (HloOp τ sig (Elt F))) = main_part1_ops4 ++ main_part2_ops0 := rfl

/-- The first step: the new first hidden state. -/
theorem s5a_v97 (W : Valuation τ sig (Elt F)) :
    StableHlo.after main_part1_ops4 W (Proc.devRef .tc main_v97)
      = AggTail.gruCell (W (Proc.devRef .tc main_v48)) (AggTail.hid0 (W (Proc.devRef .tc main_arg4)))
          (W (Proc.devRef .tc main_arg5)) (W (Proc.devRef .tc main_arg6)) (W (Proc.devRef .tc main_arg7)) (W (Proc.devRef .tc main_arg8)) := by
  after_results_simp
  rfl
/-- It also cuts out the second hidden state, -/
theorem s5a_v59 (W : Valuation τ sig (Elt F)) :
    StableHlo.after main_part1_ops4 W (Proc.devRef .tc main_v59) = AggTail.hid1 (W (Proc.devRef .tc main_arg4)) := by
  after_results_simp
  rfl
/-- and leaves the second mean alone. -/
theorem s5a_v55 (W : Valuation τ sig (Elt F)) :
    StableHlo.after main_part1_ops4 W (Proc.devRef .tc main_v55) = W (Proc.devRef .tc main_v55) := by
  after_results_simp
theorem s5a_kept (W : Valuation τ sig (Elt F)) {b : Ref sig .tc} (hb : b ∈ keptRefs) :
    StableHlo.after main_part1_ops4 W (Proc.devRef .tc b) = W (Proc.devRef .tc b) :=
  after_kept (fun op h => by rw [hostOps1_4_split]; exact List.mem_append_left _ h) hostOps1_4_keeps W hb

/-- The second step: the new second hidden state. -/
theorem s5b_v135 (W : Valuation τ sig (Elt F)) :
    StableHlo.after (List.take 43 (main_part2_ops0 (F := F))) W (Proc.devRef .tc main_v135)
      = AggTail.gruCell (W (Proc.devRef .tc main_v55)) (W (Proc.devRef .tc main_v59))
          (W (Proc.devRef .tc main_arg5)) (W (Proc.devRef .tc main_arg6)) (W (Proc.devRef .tc main_arg7)) (W (Proc.devRef .tc main_arg8)) := by
  simp only [main_part2_ops0, List.take_succ_cons, List.take_zero]
  after_results_simp
  rfl
/-- It leaves the first alone. -/
theorem s5b_v97 (W : Valuation τ sig (Elt F)) :
    StableHlo.after (List.take 43 (main_part2_ops0 (F := F))) W (Proc.devRef .tc main_v97) = W (Proc.devRef .tc main_v97) := by
  simp only [main_part2_ops0, List.take_succ_cons, List.take_zero]
  after_results_simp

/-- The stacking: each state given a unit last axis, the two concatenated there, and a unit second axis added. -/
theorem s5c (W : Valuation τ sig (Elt F)) :
    StableHlo.after (List.drop 43 (main_part2_ops0 (F := F))) W (Proc.devRef .tc main_v139)
      = broadcastInDim S1000x1x200x2 ![0, 2, 3] bcast_S1000x200x2_S1000x1x200x2_0_2_3
          (concatenate S1000x200x2 2
            [⟨S1000x200x1, broadcastInDim S1000x200x1 ![0, 1] bcast_S1000x200_S1000x200x1_0_1 (W (Proc.devRef .tc main_v97))⟩,
             ⟨S1000x200x1, broadcastInDim S1000x200x1 ![0, 1] bcast_S1000x200_S1000x200x1_0_1 (W (Proc.devRef .tc main_v135))⟩]
            concatenates_S1000x200x1_S1000x200x1_S1000x200x2_d2) := by
  simp only [main_part2_ops0, List.drop_succ_cons, List.drop_zero]
  after_results

/-- The whole fifth stretch, from the two means and the argument arrays. -/
theorem s5 (W : Valuation τ sig (Elt F)) :
    StableHlo.after hostOps1_4 W (Proc.devRef .tc main_v139)
      = AggTail.gruTail (W (Proc.devRef .tc main_v48)) (W (Proc.devRef .tc main_v55)) (W (Proc.devRef .tc main_arg4))
          (W (Proc.devRef .tc main_arg5)) (W (Proc.devRef .tc main_arg6)) (W (Proc.devRef .tc main_arg7)) (W (Proc.devRef .tc main_arg8)) := by
  rw [hostOps1_4_split, ← List.take_append_drop 43 (main_part2_ops0 (F := F)), StableHlo.after_append, StableHlo.after_append,
    s5c, s5b_v97, s5b_v135, s5a_v97, s5a_v59, s5a_v55,
    s5a_kept W (b := main_arg5) (by decide), s5a_kept W (b := main_arg6) (by decide),
    s5a_kept W (b := main_arg7) (by decide), s5a_kept W (b := main_arg8) (by decide)]
  rfl

/-! ## The five stretches together -/

/-- @main's result after the host lines that follow the region, from ANY contents `W` of the buffers at the region's exit. -/
theorem tail_of (W : Valuation τ sig (Elt F)) :
    StableHlo.after (tailOps (F := F)).flatten W (Proc.devRef .tc main_v139)
      = AggTail.gruTail
          (AggTail.meanOf (sumK (W (Proc.devRef .tc main_v34_0))) (cntK (W (Proc.devRef .tc main_v34_2))))
          (AggTail.meanOf (sumK (W (Proc.devRef .tc main_v34_1))) (cntK (W (Proc.devRef .tc main_v34_2))))
          (W (Proc.devRef .tc main_arg4)) (W (Proc.devRef .tc main_arg5)) (W (Proc.devRef .tc main_arg6))
          (W (Proc.devRef .tc main_arg7)) (W (Proc.devRef .tc main_arg8)) := by
  simp only [tailOps, List.flatten_cons, List.flatten_nil, List.append_nil]
  rw [StableHlo.after_append, StableHlo.after_append, StableHlo.after_append, StableHlo.after_append,
    s5, s4_v48, s3_v48, mean0, mean1,
    kept4 W (b := main_arg4) (by decide), kept4 W (b := main_arg5) (by decide), kept4 W (b := main_arg6) (by decide),
    kept4 W (b := main_arg7) (by decide), kept4 W (b := main_arg8) (by decide)]

/-- THE TAIL'S VALUE: after the region and the 130 host operations that follow it, @main's result buffer holds the GRU
    tail of the two means — of the sums the region leaves in its fourth and fifth arrays over the counts it leaves in
    its sixth — and of the hidden states, weights and biases as launched. For any proof data. -/
theorem tail_value (dats : (p : Fin 1) → (c : Dev nD) → Dat τ (Elt F) Unit ℕ (UR sig nD τ) ℕ (cfgs p) c) (c : Dev nD) :
    Pipeline.afterTail₀ cfgs dats 0 (V0 m) tailOps c main_v139
      = AggTail.gruTail
          (AggTail.meanOf (sumK ((dats 0 c).arrAt 3 cfg0.N)) (cntK ((dats 0 c).arrAt 5 cfg0.N)))
          (AggTail.meanOf (sumK ((dats 0 c).arrAt 4 cfg0.N)) (cntK ((dats 0 c).arrAt 5 cfg0.N)))
          (m ((c : Thread nD τ).loc main_arg4)) (m ((c : Thread nD τ).loc main_arg5)) (m ((c : Thread nD τ).loc main_arg6))
          (m ((c : Thread nD τ).loc main_arg7)) (m ((c : Thread nD τ).loc main_arg8)) := by
  unfold Pipeline.afterTail₀
  rw [tail_of]
  generalize hW : Pipeline.withArrays (cfgs 0).spec c (V0 m c) (fun w => (dats 0 c).arrAt w (cfgs 0).N) = W₀
  have h3 : W₀ (Proc.devRef .tc main_v34_0) = (dats 0 c).arrAt 3 cfg0.N := by
    rw [← hW]; exact Pipeline.withArrays_arr spec0 launch0.win.arr_inj c _ _ 3
  have h4 : W₀ (Proc.devRef .tc main_v34_1) = (dats 0 c).arrAt 4 cfg0.N := by
    rw [← hW]; exact Pipeline.withArrays_arr spec0 launch0.win.arr_inj c _ _ 4
  have h5 : W₀ (Proc.devRef .tc main_v34_2) = (dats 0 c).arrAt 5 cfg0.N := by
    rw [← hW]; exact Pipeline.withArrays_arr spec0 launch0.win.arr_inj c _ _ 5
  have ha4 : W₀ (Proc.devRef .tc main_arg4) = m ((c : Thread nD τ).loc main_arg4) := by
    rw [← hW]; exact (Pipeline.withArrays_of_ne spec0 c (V0 m c) _ main_arg4 (by decide)).trans (V_main_arg4 m c)
  have ha5 : W₀ (Proc.devRef .tc main_arg5) = m ((c : Thread nD τ).loc main_arg5) := by
    rw [← hW]; exact (Pipeline.withArrays_of_ne spec0 c (V0 m c) _ main_arg5 (by decide)).trans (V_main_arg5 m c)
  have ha6 : W₀ (Proc.devRef .tc main_arg6) = m ((c : Thread nD τ).loc main_arg6) := by
    rw [← hW]; exact (Pipeline.withArrays_of_ne spec0 c (V0 m c) _ main_arg6 (by decide)).trans (V_main_arg6 m c)
  have ha7 : W₀ (Proc.devRef .tc main_arg7) = m ((c : Thread nD τ).loc main_arg7) := by
    rw [← hW]; exact (Pipeline.withArrays_of_ne spec0 c (V0 m c) _ main_arg7 (by decide)).trans (V_main_arg7 m c)
  have ha8 : W₀ (Proc.devRef .tc main_arg8) = m ((c : Thread nD τ).loc main_arg8) := by
    rw [← hW]; exact (Pipeline.withArrays_of_ne spec0 c (V0 m c) _ main_arg8 (by decide)).trans (V_main_arg8 m c)
  rw [h3, h4, h5, ha4, ha5, ha6, ha7, ha8]

end Cert.KernelIdeal.Agg

end
-- ==== Proof.KernelIdeal.Entry.lean ====
/- What the region finds in the three arrays the host wrote before it, at extended reals: the two 1000000×200 arrays of
   gathered entity rows are the reference program's own two gathers (the host narrows the entity table to bf16 before
   gathering, and on extended reals a narrowing is the identity; the two index chains are the same operations in both
   programs), and the 1000000×1 array is the edge types as a column, as is the index column of the reference's scatter. -/
import proofs.«414902_j80762565034490_2_alg».proof.Proof.KernelIdeal.Main
import proofs.«414902_j80762565034490_2_alg».proof.Proof.RefRead
import Idealize.ShloMosaic.Lib.ValueIdx
import Idealize.ShloMosaic.Lib.Pipeline.Value
import Idealize.ShloMosaic.Lib.StableHlo.Run

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable (m : (ℓ : Loc nD τ sig) → Buf (Elt Ideal) ℓ)

open Cert.ReferenceIdeal.ReadP

/-! ## The three arrays the region reads, as it finds them

Before the region the host computes, edge by edge, the row of the entity table each edge's source and destination
entity selects, from the table narrowed to bf16; the reference selects the same rows from the table itself. On extended
reals the narrowing is the identity, so the arrays the region finds are the reference's two gathers; the third array
is the edge types as a column. -/

set_option maxHeartbeats 400000 in
/-- The source rows the region finds are the reference's gather of the source rows. -/
theorem entry_src_fun (c : Dev nD) :
    (V (F := Ideal) m c main_v25 : S1000000x200.Idx → EReal)
      = val_main_v24 (F := Ideal) (m ((c : Thread nD τ).loc main_arg0)) (m ((c : Thread nD τ).loc main_arg2))
          (m ((c : Thread nD τ).loc main_arg3)) := by
  dsimp only [V, V0]
  simp only [hostOps0, List.flatten_cons, List.flatten_nil, List.append_nil]
  after_results_simp
  simp only [val_main_v24, val_main_v23, val_main_v22, val_main_v21, val_main_v20, val_main_c_4, val_main_v19, val_main_v18, val_main_c_3,
    val_main_v8, val_main_v7, val_main_v6, val_main_v5, val_main_v4, val_main_c_0, val_main_v3, val_main_v2, val_main_c,
    val_main_v1, val_main_v0]
  rfl

set_option maxHeartbeats 400000 in
/-- The destination rows the region finds are the reference's gather of the destination rows. -/
theorem entry_dst_fun (c : Dev nD) :
    (V (F := Ideal) m c main_v32 : S1000000x200.Idx → EReal)
      = val_main_v45 (F := Ideal) (m ((c : Thread nD τ).loc main_arg0)) (m ((c : Thread nD τ).loc main_arg2))
          (m ((c : Thread nD τ).loc main_arg3)) := by
  dsimp only [V, V0]
  simp only [hostOps0, List.flatten_cons, List.flatten_nil, List.append_nil]
  after_results_simp
  simp only [val_main_v45, val_main_v44, val_main_v43, val_main_v42, val_main_v41, val_main_c_11, val_main_v40, val_main_v39, val_main_c_10,
    val_main_v17, val_main_v16, val_main_v15, val_main_v14, val_main_v13, val_main_c_2, val_main_v12, val_main_v11, val_main_c_1,
    val_main_v10, val_main_v9]
  rfl

theorem entry_src (c : Dev nD) (j : S1000000x200.Idx) :
    (V (F := Ideal) m c main_v25 j : EReal) = Cert.ReferenceIdeal.ReadP.val_main_v24 (F := Ideal) (m ((c : Thread nD τ).loc main_arg0)) (m ((c : Thread nD τ).loc main_arg2)) (m ((c : Thread nD τ).loc main_arg3)) j :=
  congrFun (entry_src_fun m c) j

theorem entry_dst (c : Dev nD) (j : S1000000x200.Idx) :
    (V (F := Ideal) m c main_v32 j : EReal) = Cert.ReferenceIdeal.ReadP.val_main_v45 (F := Ideal) (m ((c : Thread nD τ).loc main_arg0)) (m ((c : Thread nD τ).loc main_arg2)) (m ((c : Thread nD τ).loc main_arg3)) j :=
  congrFun (entry_dst_fun m c) j

set_option maxHeartbeats 400000 in
/-- The edge types as a column: the edge-type array reshaped from 1000000 to 1000000×1. -/
theorem entry_tag_fun (c : Dev nD) :
    (V (F := Ideal) m c main_v33 : S1000000x1.Idx → BitVec 32)
      = shapeCast S1000000x1 (m ((c : Thread nD τ).loc main_arg1) : S1000000.Idx → BitVec 32) shapeCasts_S1000000_S1000000x1 := by
  dsimp only [V, V0]
  simp only [hostOps0, List.flatten_cons, List.flatten_nil, List.append_nil]
  after_results_simp
  rfl

theorem entry_tag (c : Dev nD) (e : Fin 1000000) :
    V (F := Ideal) m c main_v33 (ValueIdx.ix2 e 0) = m ((c : Thread nD τ).loc main_arg1) (ValueIdx.ix1 e) :=
  (congrFun (entry_tag_fun m c) (ValueIdx.ix2 e 0)).trans
    (shapeCast_apply _ shapeCasts_S1000000_S1000000x1 (ValueIdx.ix2 e 0) (ValueIdx.ix1 e)
      (by rw [Shape.rowMajor_val_two, Shape.rowMajor_val_one]; show e.val = e.val * 1 + 0; omega))

/-- The reference's index column of the scatter, read at an edge: the edge's type. -/
theorem ref_tag (x1 : (⟨Cert.ReferenceIdeal.S1000000, .i32⟩ : BufTy).Contents (Elt Ideal)) (e : Fin 1000000) :
    Cert.ReferenceIdeal.ReadP.val_main_v26 (F := Ideal) x1 (ValueIdx.ix2 e 0) = x1 (ValueIdx.ix1 e) :=
  (val_main_v26_apply x1 (ValueIdx.ix2 e 0)).trans
    (congrArg x1 (funext fun a => match a with | ⟨0, _⟩ => rfl))

end Cert.KernelIdeal.Agg
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.RefSums.lean ====
/-
  The reference program's four scatter-adds, read at an index over the extended reals.

  The program sums the gathered source rows and the gathered destination rows by relation tag, and counts the rows
  of each tag, by four row scatter-adds into zeros whose index column is the tag vector laid out as a column.
  Over the extended reals every such scatter-add is a plain finite sum: entry `(r, p)` is the sum of column `p` of the
  update rows whose tag, read signed, is `r` (the zero operand contributes `0 +`, which drops).
    * `ref_src_apply`, `ref_dst_apply`: the two per-tag row sums;
    * `ref_cnt_apply`: the per-tag count, a sum of ones;
    * `ref_cnt2_eq`: the second count is the first, the same operations under other names.
  The gathered arrays are never opened: they stay opaque throughout.
-/
import proofs.«414902_j80762565034490_2_alg».proof.Proof.RefRead
import proofs.«414902_j80762565034490_2_alg».proof.Proof.LibRowOps
import Idealize.ShloMosaic.Lib.ValueIdx
import Idealize.ShloMosaic.Lib.IdealHost
import Idealize.ShloMosaic.PureOps.Ideal.Laws

noncomputable section

namespace Cert.ReferenceIdeal.RefSide

open Idealize.ShloMosaic Idealize.ShloMosaic.ValueIdx Cert.ReferenceIdeal Cert.ReferenceIdeal.Facts₀ Cert.ReferenceIdeal.Facts
open scoped BigOperators

/-- A row scatter-add into zeros whose index column is a tag vector laid out as a column: entry `(r, p)` is the sum of
    column `p` of the update rows whose tag, read signed, is `r`. -/
theorem segSum_apply {N E C : Nat} (wf : ScatterDims.WF ⟨2, ![N, C]⟩ ⟨2, ![E, 1]⟩ ⟨2, ![E, C]⟩ [1] [0] [0] 1)
    (z : FVec Ideal ⟨2, ![N, C]⟩ .f32) (hz : ∀ i, z i = 0)
    (idx : IVec ⟨2, ![E, 1]⟩ 32) (t : IVec ⟨1, ![E]⟩ 32) (hidx : ∀ e : Fin E, idx (ix2 e 0) = t (ix1 e))
    (upd : FVec Ideal ⟨2, ![E, C]⟩ .f32) (r : Fin N) (p : Fin C) :
    Host.scatterAdd (F := Ideal) (RowOps.scatterDims N E C wf) z idx upd (ix2 r p)
      = ∑ e ∈ Finset.univ.filter (fun e : Fin E => (t (ix1 e)).toInt = (r.val : Int)), (upd (ix2 e p) : EReal) := by
  rw [RowOps.scatterAdd_apply wf, hz, zero_add]
  simp only [hidx]

/-- The scatter record of the two row sums is the row scatter-add's: operand `[1000, 200]`, updates `[1000000, 200]`. -/
theorem scatter_rows_eq : scatter_S1000x200_S1000000x1_S1000000x200_1_0_0_1
    = RowOps.scatterDims 1000 1000000 200 scatter_S1000x200_S1000000x1_S1000000x200_1_0_0_1_wf := rfl

/-- The scatter record of the two counts is the row scatter-add's: operand `[1000, 1]`, updates `[1000000, 1]`. -/
theorem scatter_cnt_eq : scatter_S1000x1_S1000000x1_S1000000x1_1_0_0_1
    = RowOps.scatterDims 1000 1000000 1 scatter_S1000x1_S1000000x1_S1000000x1_1_0_0_1_wf := rfl

/-- The per-tag sum of the gathered source rows: entry `(r, d)` of the first scatter-add is the sum of column `d` of the
    gathered source rows whose tag is `r`. -/
theorem ref_src_apply (x0 : (⟨S2x1000000, .i32⟩ : BufTy).Contents (Elt Ideal)) (x1 : (⟨S1000000, .i32⟩ : BufTy).Contents (Elt Ideal))
    (x2 : (⟨S50000, .i32⟩ : BufTy).Contents (Elt Ideal)) (x3 : (⟨S100000x200, .f32⟩ : BufTy).Contents (Elt Ideal))
    (r : Fin 1000) (d : Fin 200) :
    Cert.ReferenceIdeal.ReadP.val_main_v27 (F := Ideal) x0 x1 x2 x3 (ix2 r d)
      = ∑ E ∈ Finset.univ.filter (fun E : Fin 1000000 => (x1 (ix1 E)).toInt = (r.val : Int)),
          (Cert.ReferenceIdeal.ReadP.val_main_v24 (F := Ideal) x0 x2 x3 (ix2 E d) : EReal) := by
  unfold ReadP.val_main_v27
  generalize ReadP.val_main_v24 (F := Ideal) x0 x2 x3 = U
  rw [scatter_rows_eq]
  exact segSum_apply _ _
    (fun i => by rw [ReadP.val_main_v25_apply, ReadP.val_main_cst_apply]; exact Ideal.ofBits_zero_f32)
    _ x1
    (fun e => (ReadP.val_main_v26_apply x1 _).trans (congrArg x1 (funext fun a => match a with | ⟨0, _⟩ => rfl)))
    U r d

/-- The per-tag sum of the gathered destination rows, likewise. -/
theorem ref_dst_apply (x0 : (⟨S2x1000000, .i32⟩ : BufTy).Contents (Elt Ideal)) (x1 : (⟨S1000000, .i32⟩ : BufTy).Contents (Elt Ideal))
    (x2 : (⟨S50000, .i32⟩ : BufTy).Contents (Elt Ideal)) (x3 : (⟨S100000x200, .f32⟩ : BufTy).Contents (Elt Ideal))
    (r : Fin 1000) (d : Fin 200) :
    Cert.ReferenceIdeal.ReadP.val_main_v48 (F := Ideal) x0 x1 x2 x3 (ix2 r d)
      = ∑ E ∈ Finset.univ.filter (fun E : Fin 1000000 => (x1 (ix1 E)).toInt = (r.val : Int)),
          (Cert.ReferenceIdeal.ReadP.val_main_v45 (F := Ideal) x0 x2 x3 (ix2 E d) : EReal) := by
  unfold ReadP.val_main_v48
  generalize ReadP.val_main_v45 (F := Ideal) x0 x2 x3 = U
  rw [scatter_rows_eq]
  exact segSum_apply _ _
    (fun i => by rw [ReadP.val_main_v46_apply, ReadP.val_main_cst_12_apply]; exact Ideal.ofBits_zero_f32)
    _ x1
    (fun e => (ReadP.val_main_v47_apply x1 _).trans (congrArg x1 (funext fun a => match a with | ⟨0, _⟩ => rfl)))
    U r d

/-- The per-tag count: entry `(r, 0)` of the scatter-add of ones is one for each row whose tag is `r`. -/
theorem ref_cnt_apply (x1 : (⟨S1000000, .i32⟩ : BufTy).Contents (Elt Ideal)) (r : Fin 1000) :
    Cert.ReferenceIdeal.ReadP.val_main_v31 (F := Ideal) x1 (ix2 r 0)
      = ∑ E ∈ Finset.univ.filter (fun E : Fin 1000000 => (x1 (ix1 E)).toInt = (r.val : Int)), (1 : EReal) := by
  unfold ReadP.val_main_v31
  rw [scatter_cnt_eq]
  refine (segSum_apply _ _ (fun i => ?_) _ x1 (fun e => ?_) _ r (0 : Fin 1)).trans (Finset.sum_congr rfl fun E _ => ?_)
  · rw [ReadP.val_main_v29_apply, ReadP.val_main_cst_6_apply]; exact Ideal.ofBits_zero_f32
  · exact (ReadP.val_main_v30_apply x1 _).trans (congrArg x1 (funext fun a => match a with | ⟨0, _⟩ => rfl))
  · rw [ReadP.val_main_v28_apply, ReadP.val_main_cst_5_apply]; exact Ideal.ofBits_one_f32

/-- The second count is the first: the same operations on the same tags under other names. -/
theorem ref_cnt2_eq (x1 : (⟨S1000000, .i32⟩ : BufTy).Contents (Elt Ideal)) :
    Cert.ReferenceIdeal.ReadP.val_main_v52 (F := Ideal) x1 = Cert.ReferenceIdeal.ReadP.val_main_v31 (F := Ideal) x1 := by
  unfold ReadP.val_main_v52 ReadP.val_main_v31 ReadP.val_main_v50 ReadP.val_main_v29 ReadP.val_main_v51 ReadP.val_main_v30
    ReadP.val_main_v49 ReadP.val_main_v28 ReadP.val_main_cst_14 ReadP.val_main_cst_6 ReadP.val_main_cst_13 ReadP.val_main_cst_5
  rfl

end Cert.ReferenceIdeal.RefSide

end
-- ==== Proof.RefTail.lean ====
/-
  The reference program's last operations, recognised as the aggregation tail.

  After its four scatter-adds (the two per-relation row sums and the two per-relation counts) the reference
  program computes, for the source side and for the destination side, the per-relation mean
  (sum / max(count, 1) where count > 0, else 0), feeds each mean with one of the two stored hidden states
  through one GRU step (the same weights and biases for both), and stacks the two new states on a new last
  axis under a unit second axis.  `AggTail` names these compositions as functions of whole arrays; here each is
  identified with the reference program's own operations, by unfolding the operations in between:
    * `mean_src`, `mean_dst`: the two means are `AggTail.meanOf` of a sum and a count;
    * `cell_src`, `cell_dst`: the two GRU steps are `AggTail.gruCell` of a mean and a hidden-state slice;
    * `ref_value`: the program's result is `AggTail.gruTail` of the two means of the four scatter-adds.
  The scatter-adds themselves are never opened: they stay as opaque arguments throughout.
-/
import proofs.«414902_j80762565034490_2_alg».proof.Proof.RefRead
import proofs.«414902_j80762565034490_2_alg».proof.Proof.Tail

noncomputable section

namespace Cert.ReferenceIdeal.RefSide

open Idealize.ShloMosaic Cert.ReferenceIdeal Cert.ReferenceIdeal.ReadP

variable {F : FTy → Type} [FloatOps F]

/-- The source-side mean: operation 38 is the mean of the source-side row sums (operation 27) under the
    counts (operation 31). -/
theorem mean_src (x0 : (⟨S2x1000000, .i32⟩ : BufTy).Contents (Elt F)) (x1 : (⟨S1000000, .i32⟩ : BufTy).Contents (Elt F)) (x2 : (⟨S50000, .i32⟩ : BufTy).Contents (Elt F)) (x3 : (⟨S100000x200, .f32⟩ : BufTy).Contents (Elt F)) :
    val_main_v38 (F := F) x0 x1 x2 x3
      = AggTail.meanOf (val_main_v27 (F := F) x0 x1 x2 x3) (val_main_v31 (F := F) x1) := by
  unfold
    val_main_v38 val_main_call0_v2 val_main_call0_v1 val_main_call0_v0 val_main_cst_9 val_main_v37
    val_main_v36 val_main_v35 val_main_v34 val_main_cst_8 val_main_v33 val_main_v32 val_main_cst_7
  generalize val_main_v27 (F := F) x0 x1 x2 x3 = s
  generalize val_main_v31 (F := F) x1 = c
  unfold AggTail.meanOf
  rfl

/-- The destination-side mean: operation 59 is the mean of the destination-side row sums (operation 48)
    under the counts (operation 52). -/
theorem mean_dst (x0 : (⟨S2x1000000, .i32⟩ : BufTy).Contents (Elt F)) (x1 : (⟨S1000000, .i32⟩ : BufTy).Contents (Elt F)) (x2 : (⟨S50000, .i32⟩ : BufTy).Contents (Elt F)) (x3 : (⟨S100000x200, .f32⟩ : BufTy).Contents (Elt F)) :
    val_main_v59 (F := F) x0 x1 x2 x3
      = AggTail.meanOf (val_main_v48 (F := F) x0 x1 x2 x3) (val_main_v52 (F := F) x1) := by
  unfold
    val_main_v59 val_main_call1_v2 val_main_call1_v1 val_main_call1_v0 val_main_cst_17 val_main_v58
    val_main_v57 val_main_v56 val_main_v55 val_main_cst_16 val_main_v54 val_main_v53 val_main_cst_15
  generalize val_main_v48 (F := F) x0 x1 x2 x3 = s
  generalize val_main_v52 (F := F) x1 = c
  unfold AggTail.meanOf
  rfl

/-- The first GRU step: operation 101 is one step on the source-side mean and the first hidden state. -/
theorem cell_src (x0 : (⟨S2x1000000, .i32⟩ : BufTy).Contents (Elt F)) (x1 : (⟨S1000000, .i32⟩ : BufTy).Contents (Elt F)) (x2 : (⟨S50000, .i32⟩ : BufTy).Contents (Elt F)) (x3 : (⟨S100000x200, .f32⟩ : BufTy).Contents (Elt F)) (x4 : (⟨S1000x1x200x2, .f32⟩ : BufTy).Contents (Elt F)) (x5 x6 : (⟨S600x200, .f32⟩ : BufTy).Contents (Elt F)) (x7 x8 : (⟨S600, .f32⟩ : BufTy).Contents (Elt F)) :
    val_main_v101 (F := F) x0 x1 x2 x3 x4 x5 x6 x7 x8
      = AggTail.gruCell (val_main_v38 (F := F) x0 x1 x2 x3) (AggTail.hid0 x4) x5 x6 x7 x8 := by
  unfold
    val_main_v101 val_main_v100 val_main_v99 val_main_v98 val_main_v97 val_main_cst_22 val_main_v96
    val_main_v95 val_main_v94 val_main_v93 val_main_v92 val_main_cst_21 val_main_v91 val_main_v90
    val_main_cst_20 val_main_v89 val_main_v88 val_main_v87 val_main_v86 val_main_v85 val_main_cst_19
    val_main_v84 val_main_v83 val_main_cst_18 val_main_v82 val_main_v81 val_main_v80 val_main_v79 val_main_v78
    val_main_v77 val_main_v76 val_main_v75 val_main_v74 val_main_v73 val_main_v72 val_main_v71 val_main_v70
    val_main_v69 val_main_v68 val_main_v67 val_main_v66 val_main_v65 val_main_v64 val_main_v61 val_main_v60
  generalize val_main_v38 (F := F) x0 x1 x2 x3 = m
  unfold AggTail.gruCell AggTail.sigm AggTail.gates AggTail.hid0
  rfl

/-- The second GRU step: operation 139 is one step on the destination-side mean and the second hidden state. -/
theorem cell_dst (x0 : (⟨S2x1000000, .i32⟩ : BufTy).Contents (Elt F)) (x1 : (⟨S1000000, .i32⟩ : BufTy).Contents (Elt F)) (x2 : (⟨S50000, .i32⟩ : BufTy).Contents (Elt F)) (x3 : (⟨S100000x200, .f32⟩ : BufTy).Contents (Elt F)) (x4 : (⟨S1000x1x200x2, .f32⟩ : BufTy).Contents (Elt F)) (x5 x6 : (⟨S600x200, .f32⟩ : BufTy).Contents (Elt F)) (x7 x8 : (⟨S600, .f32⟩ : BufTy).Contents (Elt F)) :
    val_main_v139 (F := F) x0 x1 x2 x3 x4 x5 x6 x7 x8
      = AggTail.gruCell (val_main_v59 (F := F) x0 x1 x2 x3) (AggTail.hid1 x4) x5 x6 x7 x8 := by
  unfold
    val_main_v139 val_main_v138 val_main_v137 val_main_v136 val_main_v135 val_main_cst_27 val_main_v134
    val_main_v133 val_main_v132 val_main_v131 val_main_v130 val_main_cst_26 val_main_v129 val_main_v128
    val_main_cst_25 val_main_v127 val_main_v126 val_main_v125 val_main_v124 val_main_v123 val_main_cst_24
    val_main_v122 val_main_v121 val_main_cst_23 val_main_v120 val_main_v119 val_main_v118 val_main_v117
    val_main_v116 val_main_v115 val_main_v114 val_main_v113 val_main_v112 val_main_v111 val_main_v110
    val_main_v109 val_main_v108 val_main_v107 val_main_v106 val_main_v105 val_main_v104 val_main_v103
    val_main_v102 val_main_v63 val_main_v62
  generalize val_main_v59 (F := F) x0 x1 x2 x3 = m
  unfold AggTail.gruCell AggTail.sigm AggTail.gates AggTail.hid1
  rfl

/-- The reference program's result is the aggregation tail of the two per-relation means of its four
    scatter-adds. -/
theorem ref_value (x0 : (⟨S2x1000000, .i32⟩ : BufTy).Contents (Elt F)) (x1 : (⟨S1000000, .i32⟩ : BufTy).Contents (Elt F)) (x2 : (⟨S50000, .i32⟩ : BufTy).Contents (Elt F)) (x3 : (⟨S100000x200, .f32⟩ : BufTy).Contents (Elt F)) (x4 : (⟨S1000x1x200x2, .f32⟩ : BufTy).Contents (Elt F)) (x5 x6 : (⟨S600x200, .f32⟩ : BufTy).Contents (Elt F)) (x7 x8 : (⟨S600, .f32⟩ : BufTy).Contents (Elt F)) :
    Cert.ReferenceIdeal.ReadP.val_main_v143 (F := F) x0 x1 x2 x3 x4 x5 x6 x7 x8
      = AggTail.gruTail
          (AggTail.meanOf (Cert.ReferenceIdeal.ReadP.val_main_v27 (F := F) x0 x1 x2 x3) (Cert.ReferenceIdeal.ReadP.val_main_v31 (F := F) x1))
          (AggTail.meanOf (Cert.ReferenceIdeal.ReadP.val_main_v48 (F := F) x0 x1 x2 x3) (Cert.ReferenceIdeal.ReadP.val_main_v52 (F := F) x1))
          x4 x5 x6 x7 x8 := by
  unfold val_main_v143 val_main_v142 val_main_v141 val_main_v140
  rw [cell_src, cell_dst, mean_src, mean_dst]
  generalize AggTail.meanOf (val_main_v27 (F := F) x0 x1 x2 x3) (val_main_v31 (F := F) x1) = ms
  generalize AggTail.meanOf (val_main_v48 (F := F) x0 x1 x2 x3) (val_main_v52 (F := F) x1) = md
  unfold AggTail.gruTail
  rfl

end Cert.ReferenceIdeal.RefSide

end
-- ==== Proof.LibSumIndex.lean ====
/-
  Re-indexing of finite sums, and one fact on 32-bit words.

  * A sum over `n * c` consecutive naturals is a double sum over `n` blocks of length `c`
    (`sum_split2`); applied twice, a sum over `a * b * c` consecutive naturals is a triple sum over
    chunk, step and offset, the index being `c * (b * k + l) + e` (`sum_split3`); the same with the
    middle sum written over `Finset.range b` (`sum_split3_range`).
  * A 32-bit word equals the word of a natural below `2 ^ 31` exactly when its signed reading is that
    natural (`eq_ofNat_iff_toInt`).
  * A sum of `if p i then g i else 0` over a finite type is the sum of `g` over the indices satisfying
    `p` (`sum_if_eq_filter`).
-/
import Mathlib.Algebra.BigOperators.Fin
import Mathlib.Algebra.BigOperators.Group.Finset.Basic
import Mathlib.Data.Fintype.BigOperators
import Mathlib.Logic.Equiv.Fin.Basic

open scoped BigOperators

namespace SumIndex

/-- A sum over `n * c` consecutive indices, split as block × offset: the pair `(j, e)` is the index
`c * j + e`, and the pairs run through `0, …, n * c - 1` exactly once. -/
theorem sum_split2 {M : Type*} [AddCommMonoid M] (n c : ℕ) (g : ℕ → M) :
    ∑ j : Fin n, ∑ e : Fin c, g (c * j.val + e.val) = ∑ E : Fin (n * c), g E.val := by
  rw [← (finProdFinEquiv : Fin n × Fin c ≃ Fin (n * c)).sum_comp (fun E => g E.val),
    Fintype.sum_prod_type]
  refine Finset.sum_congr rfl fun j _ => Finset.sum_congr rfl fun e _ => ?_
  -- the bijection sends `(j, e)` to `e + c * j`
  show g (c * j.val + e.val) = g (e.val + c * j.val)
  rw [Nat.add_comm]

/-- A sum over a*b*c consecutive indices, split as chunk × step × offset. -/
theorem sum_split3 {M : Type*} [AddCommMonoid M] (a b c : ℕ) (f : ℕ → M) :
    ∑ k : Fin a, ∑ l : Fin b, ∑ e : Fin c, f (c * (b * k.val + l.val) + e.val)
      = ∑ E : Fin (a * b * c), f E.val :=
  -- first merge chunk and step into one index `j = b * k + l < a * b`, then merge `j` and the offset
  (sum_split2 a b (fun j => ∑ e : Fin c, f (c * j + e.val))).trans (sum_split2 (a * b) c f)

/-- The same with the middle sum over `Finset.range b` (how an induction over steps leaves it). -/
theorem sum_split3_range {M : Type*} [AddCommMonoid M] (a b c : ℕ) (f : ℕ → M) :
    ∑ k : Fin a, ∑ l ∈ Finset.range b, ∑ e : Fin c, f (c * (b * k.val + l) + e.val)
      = ∑ E : Fin (a * b * c), f E.val := by
  rw [← sum_split3 a b c f]
  refine Finset.sum_congr rfl fun k _ => ?_
  rw [Finset.sum_range]

/-- A 32-bit word equals the word of a small natural exactly when its signed reading is that natural. -/
theorem eq_ofNat_iff_toInt (w : BitVec 32) (r : ℕ) (hr : r < 2 ^ 31) :
    w = BitVec.ofNat 32 r ↔ w.toInt = (r : Int) := by
  -- below `2 ^ 31` the word of `r` has its top bit clear, so its signed reading is `r` itself
  have h : (BitVec.ofNat 32 r).toInt = (r : Int) := by
    rw [BitVec.toInt_eq_toNat_cond, BitVec.toNat_ofNat, Nat.mod_eq_of_lt (by omega)]
    split <;> omega
  constructor
  · rintro rfl
    exact h
  · intro hw
    exact BitVec.eq_of_toInt_eq (hw.trans h.symm)

/-- A filtered sum as an if-sum (restating `Finset.sum_filter` in the direction used downstream). -/
theorem sum_if_eq_filter {ι M : Type*} [Fintype ι] [AddCommMonoid M] (p : ι → Prop) [DecidablePred p]
    (g : ι → M) :
    ∑ i, (if p i then g i else 0) = ∑ i ∈ Finset.univ.filter p, g i :=
  (Finset.sum_filter p g).symm

end SumIndex
-- ==== Proof.Bridge.lean ====
/-
  The bridge. Over the extended reals the kernel's three aggregated arrays are the reference's three scatter-adds:
  entry (r, d) of the kernel's source sum is the sum, over the two chunks, the 250 steps of a chunk and the 2000 edges
  of a step, of the source feature of every edge tagged r — that is the sum over all 1000000 edges tagged r, which is
  what the reference's scatter-add into zeros holds; a tag word equals the word of r exactly when its signed reading
  is r, and the kernel's gathered features are the reference's because the kernel's narrowing of the table to bf16 is
  the identity here. Both programs then apply the same mean and the same GRU steps, so their results agree.
-/
import proofs.«414902_j80762565034490_2_alg».proof.Proof.KernelIdeal.Final
import proofs.«414902_j80762565034490_2_alg».proof.Proof.KernelIdeal.ReduceValue
import proofs.«414902_j80762565034490_2_alg».proof.Proof.KernelIdeal.TailValue
import proofs.«414902_j80762565034490_2_alg».proof.Proof.KernelIdeal.Entry
import proofs.«414902_j80762565034490_2_alg».proof.Proof.RefSums
import proofs.«414902_j80762565034490_2_alg».proof.Proof.RefTail
import proofs.«414902_j80762565034490_2_alg».proof.Proof.LibSumIndex

set_option maxRecDepth 16384

noncomputable section

namespace Cert.KernelIdeal.Agg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.ReferenceIdeal.ReadP Cert.ReferenceIdeal.RefSide
open scoped BigOperators

variable (m : (ℓ : Loc nD τ sig) → Buf (Elt Ideal) ℓ)

/-- The program's arguments on core `c`, as launched. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- One edge's contribution to relation `r`, on the kernel's side and on the reference's side. -/
theorem edge_src (c : Dev nD) (r : Fin 1000) (d : Fin 200) (E : Fin 1000000) :
    (if Tg m c E.val = BitVec.ofNat 32 r.val then Xs m c E.val d else 0)
      = if ((A1 m c) (ix1 E)).toInt = (r.val : Int) then (val_main_v24 (F := Ideal) (A0 m c) (A2 m c) (A3 m c) (ix2 E d) : EReal) else 0 := by
  unfold Tg Xs
  rw [dif_pos E.isLt, dif_pos E.isLt]
  simp only [Fin.eta]
  rw [entry_tag, entry_src]
  exact if_congr (SumIndex.eq_ofNat_iff_toInt _ _ (by have := r.isLt; omega)) rfl rfl

theorem edge_dst (c : Dev nD) (r : Fin 1000) (d : Fin 200) (E : Fin 1000000) :
    (if Tg m c E.val = BitVec.ofNat 32 r.val then Xd m c E.val d else 0)
      = if ((A1 m c) (ix1 E)).toInt = (r.val : Int) then (val_main_v45 (F := Ideal) (A0 m c) (A2 m c) (A3 m c) (ix2 E d) : EReal) else 0 := by
  unfold Tg Xd
  rw [dif_pos E.isLt, dif_pos E.isLt]
  simp only [Fin.eta]
  rw [entry_tag, entry_dst]
  exact if_congr (SumIndex.eq_ofNat_iff_toInt _ _ (by have := r.isLt; omega)) rfl rfl

theorem edge_cnt (c : Dev nD) (r : Fin 1000) (E : Fin 1000000) :
    (if Tg m c E.val = BitVec.ofNat 32 r.val then (1 : EReal) else 0)
      = if ((A1 m c) (ix1 E)).toInt = (r.val : Int) then (1 : EReal) else 0 := by
  unfold Tg
  rw [dif_pos E.isLt]
  simp only [Fin.eta]
  rw [entry_tag]
  exact if_congr (SumIndex.eq_ofNat_iff_toInt _ _ (by have := r.isLt; omega)) rfl rfl

/-- The kernel's source sums are the reference's source scatter-add. -/
theorem src_sum_eq (c : Dev nD) :
    sumK (F := Ideal) ((dats (F := Ideal) m 0 c).arrAt 3 cfg0.N)
      = val_main_v27 (F := Ideal) (A0 m c) (A1 m c) (A2 m c) (A3 m c) := by
  obtain ⟨a, ha⟩ : ∃ a : S2x1024x200.Idx → EReal, a = (dats (F := Ideal) m 0 c).arrAt 3 cfg0.N := ⟨_, rfl⟩
  have hout : ∀ (k : Fin 2) (r : Fin 1024) (d : Fin 200), a (ix3 k r d)
      = ∑ l ∈ Finset.range 250, ∑ e : Fin 2000,
          (if Tg m c (2000 * (250 * k.val + l) + e.val) = BitVec.ofNat 32 r.val then Xs m c (2000 * (250 * k.val + l) + e.val) d else 0) :=
    fun k r d => by rw [ha]; exact out3_sum m c k r d
  rw [← ha]
  funext j
  obtain ⟨r, d, rfl⟩ : ∃ (r : Fin 1000) (d : Fin 200), j = ix2 r d := ⟨j 0, j 1, eq_ix2 j⟩
  unfold sumK
  rw [sum2_apply a r d, ref_src_apply, ← SumIndex.sum_if_eq_filter]
  simp only [hout]
  exact (SumIndex.sum_split3_range 2 250 2000 (fun E => if Tg m c E = BitVec.ofNat 32 r.val then Xs m c E d else 0)).trans
    (Finset.sum_congr rfl fun E _ => edge_src m c r d E)

/-- The same for the destination rows. -/
theorem dst_sum_eq (c : Dev nD) :
    sumK (F := Ideal) ((dats (F := Ideal) m 0 c).arrAt 4 cfg0.N)
      = val_main_v48 (F := Ideal) (A0 m c) (A1 m c) (A2 m c) (A3 m c) := by
  obtain ⟨a, ha⟩ : ∃ a : S2x1024x200.Idx → EReal, a = (dats (F := Ideal) m 0 c).arrAt 4 cfg0.N := ⟨_, rfl⟩
  have hout : ∀ (k : Fin 2) (r : Fin 1024) (d : Fin 200), a (ix3 k r d)
      = ∑ l ∈ Finset.range 250, ∑ e : Fin 2000,
          (if Tg m c (2000 * (250 * k.val + l) + e.val) = BitVec.ofNat 32 r.val then Xd m c (2000 * (250 * k.val + l) + e.val) d else 0) :=
    fun k r d => by rw [ha]; exact out4_sum m c k r d
  rw [← ha]
  funext j
  obtain ⟨r, d, rfl⟩ : ∃ (r : Fin 1000) (d : Fin 200), j = ix2 r d := ⟨j 0, j 1, eq_ix2 j⟩
  unfold sumK
  rw [sum2_apply a r d, ref_dst_apply, ← SumIndex.sum_if_eq_filter]
  simp only [hout]
  exact (SumIndex.sum_split3_range 2 250 2000 (fun E => if Tg m c E = BitVec.ofNat 32 r.val then Xd m c E d else 0)).trans
    (Finset.sum_congr rfl fun E _ => edge_dst m c r d E)

/-- The kernel's counts are the reference's count scatter-add. -/
theorem cnt_eq (c : Dev nD) :
    cntK (F := Ideal) ((dats (F := Ideal) m 0 c).arrAt 5 cfg0.N) = val_main_v31 (F := Ideal) (A1 m c) := by
  obtain ⟨a, ha⟩ : ∃ a : S2x1x1024.Idx → EReal, a = (dats (F := Ideal) m 0 c).arrAt 5 cfg0.N := ⟨_, rfl⟩
  have hout : ∀ (k : Fin 2) (r : Fin 1024), a (ix3 k 0 r)
      = ∑ l ∈ Finset.range 250, ∑ e : Fin 2000,
          (if Tg m c (2000 * (250 * k.val + l) + e.val) = BitVec.ofNat 32 r.val then (1 : EReal) else 0) :=
    fun k r => by rw [ha]; exact out5_sum m c k r
  rw [← ha]
  funext j
  obtain ⟨r, z, rfl⟩ : ∃ (r : Fin 1000) (z : Fin 1), j = ix2 r z := ⟨j 0, j 1, eq_ix2 j⟩
  obtain rfl : z = 0 := Subsingleton.elim _ _
  unfold cntK
  rw [cnt2_apply a r, ref_cnt_apply, ← SumIndex.sum_if_eq_filter]
  simp only [hout]
  exact (SumIndex.sum_split3_range 2 250 2000 (fun E => if Tg m c E = BitVec.ofNat 32 r.val then (1 : EReal) else 0)).trans
    (Finset.sum_congr rfl fun E _ => edge_cnt m c r E)

/-- The kernel program's result is the reference's last stage at the kernel's arguments. -/
theorem kernel_value (c : Dev nD) :
    Pipeline.afterTail₀ cfgs (dats (F := Ideal) m) 0 (V0 m) tailOps c main_v139
      = val_main_v143 (F := Ideal) (A0 m c) (A1 m c) (A2 m c) (A3 m c)
          (m ((c : Thread nD τ).loc main_arg4)) (m ((c : Thread nD τ).loc main_arg5)) (m ((c : Thread nD τ).loc main_arg6))
          (m ((c : Thread nD τ).loc main_arg7)) (m ((c : Thread nD τ).loc main_arg8)) := by
  rw [tail_value, ref_value, ref_cnt2_eq]
  rw [src_sum_eq, dst_sum_eq, cnt_eq]

end Cert.KernelIdeal.Agg

end
-- ==== Proof.lean ====
/-
  The certificate of the relation-aggregation kernel against its reference, over the extended reals.

  The program gathers a source and a destination feature row per edge (1000000 edges, 200 features), aggregates both
  and an edge count per relation tag, takes per-relation means, and applies one GRU step to each mean. The kernel
  aggregates on the accelerator: a 2 × 250 grid of steps, each taking 2000 edges, forms the one-hot matrix of the
  edges' tags and accumulates (one-hot)ᵀ · features and the one-hot column sums in three scratch buffers, writing them
  out at each chunk's last step; the host then adds the two chunks and cuts to the 1000 relations. The reference
  aggregates by scatter-add. Sums over the extended reals commute and re-associate freely and 0 · x = 0 for every x, so
  the two aggregations agree entry by entry (Bridge); everything after the aggregation is the same composition of
  operations in both programs (Tail). The three frames: each program runs to the end, faults nowhere and leaves its nine
  argument arrays as launched (Frame for the kernel at both instances; the reference is a host program whose run is read
  off its operation list).
-/
import proofs.«414902_j80762565034490_2_alg».proof.Defs
import proofs.«414902_j80762565034490_2_alg».proof.Proof.Gen.Kernel
import proofs.«414902_j80762565034490_2_alg».proof.Proof.Gen.KernelIdeal
import proofs.«414902_j80762565034490_2_alg».proof.Proof.Gen.ReferenceIdeal
import proofs.«414902_j80762565034490_2_alg».proof.Proof.Gen.Pre_finite_inputs
import proofs.«414902_j80762565034490_2_alg».proof.Proof.Kernel.Frame
import proofs.«414902_j80762565034490_2_alg».proof.Proof.KernelIdeal.Frame
import proofs.«414902_j80762565034490_2_alg».proof.Proof.Bridge
import proofs.«414902_j80762565034490_2_alg».proof.Proof.RefRead
import Idealize.ShloMosaic.Adequacy
import Idealize.ShloMosaic.Init

noncomputable section

namespace Cert.Proof

open Idealize.ShloMosaic Idealize.SL.Sem

/-- The kernel program as printed (word level) runs and keeps its arguments. -/
theorem frame_k : Cert.frame_Kernel := fun m ρ _ => Cert.Kernel.Agg.frame m ρ

/-- The idealized kernel program runs and keeps its arguments. -/
theorem frame_ki : Cert.frame_KernelIdeal := fun m ρ _ => Cert.KernelIdeal.Agg.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both idealized programs end with the same result: the reference's last
    stage at the (common) arguments. -/
theorem algebraic : Cert.algebraic_KernelIdeal_ReferenceIdeal := by
  intro m ρ m' ρ' _ hagree
  refine ⟨fun c => Cert.ReferenceIdeal.ReadP.val_main_v143 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Agg.kernel_value m c), (h c).2⟩)
      (Cert.KernelIdeal.Agg.result_of m ρ (Cert.KernelIdeal.Agg.dats m) (Cert.KernelIdeal.Agg.A_eq m) (Cert.KernelIdeal.Agg.run_main m ρ))
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v143_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
